-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x256 : Shape := ⟨4, ![8, 256, 256, 256]⟩
abbrev S8x16 : Shape := ⟨2, ![8, 16]⟩
abbrev S16x256 : Shape := ⟨2, ![16, 256]⟩
abbrev S_ : Shape := ⟨0, ![]⟩

class Facts : Prop where
  bcast_S_S8x256x256x256 : S_.BroadcastsInDim S8x256x256x256 (![] : Fin 0 → Fin S8x256x256x256.rank)
  reducesTo_S8x256x256x256_S_d0_1_2_3 : S8x256x256x256.ReducesTo [0, 1, 2, 3] S_
  h_S_ : 0 < S_.numel
  bcast_S_S8x16 : S_.BroadcastsInDim S8x16 (![] : Fin 0 → Fin S8x16.rank)
  reducesTo_S8x16_S_d0_1 : S8x16.ReducesTo [0, 1] S_
  bcast_S_S16x256 : S_.BroadcastsInDim S16x256 (![] : Fin 0 → Fin S16x256.rank)
  reducesTo_S16x256_S_d0_1 : S16x256.ReducesTo [0, 1] S_

variable [Facts]

def fn_part1 {F : FTy → Type} [FloatOps F] (main_v13 : IVec S_ 1) (main_v16 : IVec S16x256 1) : IVec S_ 1 :=
  let main_c_5 : IVec S_ 1 := constantI S_ 1 1#1
  let main_v17 : IVec S_ 1 := (fun x v => Host.reduce IntOp.andi x v reducesTo_S16x256_S_d0_1 h_S_) main_v16 main_c_5
  let main_v18 : IVec S_ 1 := andi main_v13 main_v17
  main_v18

def fn {F : FTy → Type} [FloatOps F] (main_arg0 : FVec F S8x256x256x256 .f32) (main_arg1 : FVec F S8x16 .f32) (main_arg2 : FVec F S16x256 .f32) (main_arg3 : FVec F S16x256 .f32) : IVec S_ 1 :=
  let main_v0 : FVec F S8x256x256x256 .f32 := Host.absf main_arg0
  let main_cst : FVec F S_ .f32 := constant S_ .f32 0x7F800000#32
  let main_v1 : FVec F S8x256x256x256 .f32 := broadcastInDim S8x256x256x256 ![] bcast_S_S8x256x256x256 main_cst
  let main_v2 : IVec S8x256x256x256 1 := cmpf .olt main_v0 main_v1
  let main_c : IVec S_ 1 := constantI S_ 1 1#1
  let main_v3 : IVec S_ 1 := (fun x v => Host.reduce IntOp.andi x v reducesTo_S8x256x256x256_S_d0_1_2_3 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16x256 .f32 := Host.absf main_arg3
  let main_cst_4 : FVec F S_ .f32 := constant S_ .f32 0x7F800000#32
  let main_v15 : FVec F S16x256 .f32 := broadcastInDim S16x256 ![] bcast_S_S16x256 main_cst_4
  let main_v16 : IVec S16x256 1 := cmpf .olt main_v14 main_v15
  fn_part1 (F := F) main_v13 main_v16
-- ==== Kernel.lean ====
abbrev S8x256x256x256 : Shape := ⟨4, ![8, 256, 256, 256]⟩
abbrev S8x16 : Shape := ⟨2, ![8, 16]⟩
abbrev S16x256 : Shape := ⟨2, ![16, 256]⟩
abbrev S8x256 : Shape := ⟨2, ![8, 256]⟩
abbrev S256x8 : Shape := ⟨2, ![256, 8]⟩
abbrev S8x64x8x256 : Shape := ⟨4, ![8, 64, 8, 256]⟩
abbrev S64x8 : Shape := ⟨2, ![64, 8]⟩
abbrev S8x64 : Shape := ⟨2, ![8, 64]⟩
abbrev S8x64x8 : Shape := ⟨3, ![8, 64, 8]⟩
abbrev S8x64x1x1 : Shape := ⟨4, ![8, 64, 1, 1]⟩

abbrev nBuf : Space → Nat
  | .hbm => 11
  | .vmem => 20
  | .smem => 0
  | _ => 0

abbrev bufTy : (tb : Table) → Fin (tcTables nBuf tb) → BufTy
  | .hbm, ⟨0, _⟩ => ⟨S8x256x256x256, .f32⟩
  | .hbm, ⟨1, _⟩ => ⟨S8x16, .f32⟩
  | .hbm, ⟨2, _⟩ => ⟨S16x256, .f32⟩
  | .hbm, ⟨3, _⟩ => ⟨S16x256, .f32⟩
  | .hbm, ⟨4, _⟩ => ⟨S8x256, .f32⟩
  | .hbm, ⟨5, _⟩ => ⟨S8x256, .f32⟩
  | .hbm, ⟨6, _⟩ => ⟨S256x8, .f32⟩
  | .hbm, ⟨7, _⟩ => ⟨S256x8, .f32⟩
  | .hbm, ⟨8, _⟩ => ⟨S256x8, .f32⟩
  | .hbm, ⟨9, _⟩ => ⟨S256x8, .f32⟩
  | .hbm, ⟨10, _⟩ => ⟨S8x256x256x256, .f32⟩
  | .local _ .vmem, ⟨0, _⟩ => ⟨S8x64x8x256, .f32⟩
  | .local _ .vmem, ⟨1, _⟩ => ⟨S8x64x8x256, .f32⟩
  | .local _ .vmem, ⟨2, _⟩ => ⟨S64x8, .f32⟩
  | .local _ .vmem, ⟨3, _⟩ => ⟨S64x8, .f32⟩
  | .local _ .vmem, ⟨4, _⟩ => ⟨S64x8, .f32⟩
  | .local _ .vmem, ⟨5, _⟩ => ⟨S64x8, .f32⟩
  | .local _ .vmem, ⟨6, _⟩ => ⟨S8x64, .f32⟩
  | .local _ .vmem, ⟨7, _⟩ => ⟨S8x64, .f32⟩
  | .local _ .vmem, ⟨8, _⟩ => ⟨S8x64x8x256, .f32⟩
  | .local _ .vmem, ⟨9, _⟩ => ⟨S8x64x8x256, .f32⟩
  | .local _ .vmem, ⟨10, _⟩ => ⟨S64x8, .f32⟩
  | .local _ .vmem, ⟨11, _⟩ => ⟨S64x8, .f32⟩
  | .local _ .vmem, ⟨12, _⟩ => ⟨S64x8, .f32⟩
  | .local _ .vmem, ⟨13, _⟩ => ⟨S64x8, .f32⟩
  | .local _ .vmem, ⟨14, _⟩ => ⟨S64x8, .f32⟩
  | .local _ .vmem, ⟨15, _⟩ => ⟨S64x8, .f32⟩
  | .local _ .vmem, ⟨16, _⟩ => ⟨S64x8, .f32⟩
  | .local _ .vmem, ⟨17, _⟩ => ⟨S64x8, .f32⟩
  | .local _ .vmem, ⟨18, _⟩ => ⟨S8x64x8x256, .f32⟩
  | .local _ .vmem, ⟨19, _⟩ => ⟨S8x64x8x256, .f32⟩
  | _, _ => ⟨S8x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v19 : BitVec 1 := Scalar.cmpi .eq arg1 c31_i32
  let v20 : BitVec 32 := Scalar.extui v19
  let c0_i32_15 : BitVec 32 := 0#32
  let v21 : BitVec 1 := Scalar.cmpi .ne v20 c0_i32_15
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S8x64x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S64x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x64x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S8x256_S256x8_1_0 : S8x256.Transposes [1, 0] S256x8
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x8x256_S8x64x8x256_0_0_0_0 : ∀ a, (![0, 0, 0, 0] : Fin 4 → Nat) a + S8x64x8x256.size a ≤ S8x64x8x256.size a
  h_S8x64x8x256 : 0 < S8x64x8x256.numel
  reduces_S8x64x8x256_S8x64x8 : S8x64x8x256.Reduces [3] S8x64x8
  reduces_S8x64x8_S8x64 : S8x64x8.Reduces [2] S8x64
  transposes_S8x64_p1_0_S64x8 : S8x64.Transposes [1, 0] S64x8
  inb_S64x8_S64x8_0_0 : ∀ a, (![0, 0] : Fin 2 → Nat) a + S64x8.size a ≤ S64x8.size a
  h_S64x8 : 0 < S64x8.numel
  shapeCasts_S64x8_S64x8 : S64x8.ShapeCasts S64x8
  transposes_S64x8_p1_0_S8x64 : S64x8.Transposes [1, 0] S8x64
  shapeCasts_S8x64_S8x64x1x1 : S8x64.ShapeCasts S8x64x1x1
  broadcasts_S8x64x1x1_S8x64x8x256 : S8x64x1x1.Broadcasts S8x64x8x256
  dot_S8x16_S16x256_S8x256_1_0_0_1_n_n_wf : DotDims.WF S8x16 S16x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x8x256.size a ≤ S8x256x256x256.size a
  hwx0_0 : ∀ i : grid0.Coords, EltTy.bits .f32 = 32 ∨ (Rect.block (s := S8x256x256x256) S8x64x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S256x8.size a
  hwx0_1 : ∀ i : grid0.Coords, EltTy.bits .f32 = 32 ∨ (Rect.block (s := S256x8) S64x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S256x8.size a
  hwx0_2 : ∀ i : grid0.Coords, EltTy.bits .f32 = 32 ∨ (Rect.block (s := S256x8) S64x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x8x256.size a ≤ S8x256x256x256.size a
  hwx1_0 : ∀ i : grid1.Coords, EltTy.bits .f32 = 32 ∨ (Rect.block (s := S8x256x256x256) S8x64x8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x8.size a ≤ S256x8.size a
  hwx1_1 : ∀ i : grid1.Coords, EltTy.bits .f32 = 32 ∨ (Rect.block (s := S256x8) S64x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8.size a ≤ S256x8.size a
  hwx1_2 : ∀ i : grid1.Coords, EltTy.bits .f32 = 32 ∨ (Rect.block (s := S256x8) S64x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S256x8.size a
  hwx1_3 : ∀ i : grid1.Coords, EltTy.bits .f32 = 32 ∨ (Rect.block (s := S256x8) S64x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x8.size a ≤ S256x8.size a
  hwx1_4 : ∀ i : grid1.Coords, EltTy.bits .f32 = 32 ∨ (Rect.block (s := S256x8) S64x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x64x8x256.size a ≤ S8x256x256x256.size a
  hwx1_5 : ∀ i : grid1.Coords, EltTy.bits .f32 = 32 ∨ (Rect.block (s := S8x256x256x256) S8x64x8x256.size (cc1_transform_5 i) (hinb1_5 i)).WholeWords (EltTy.packing .f32)

variable [Facts₀]

def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

abbrev win0_0 : Pipeline.Window sig grid0 :=
  Pipeline.Window.ofSpec (Memref.whole main_arg0) S8x64x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4_0) S64x8.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_1) S64x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S8x64x8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S64x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S64x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x8.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S64x8.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S8x64x8x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x256x256 : Shape := ⟨4, ![8, 256, 256, 256]⟩
abbrev S8x16 : Shape := ⟨2, ![8, 16]⟩
abbrev S16x256 : Shape := ⟨2, ![16, 256]⟩
abbrev S8x256 : Shape := ⟨2, ![8, 256]⟩
abbrev S_ : Shape := ⟨0, ![]⟩
abbrev S8x256x1x1 : Shape := ⟨4, ![8, 256, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x256x256x256, .f32⟩
  | .hbm, ⟨1, _⟩ => ⟨S8x16, .f32⟩
  | .hbm, ⟨2, _⟩ => ⟨S16x256, .f32⟩
  | .hbm, ⟨3, _⟩ => ⟨S16x256, .f32⟩
  | .hbm, ⟨4, _⟩ => ⟨S8x256, .f32⟩
  | .hbm, ⟨5, _⟩ => ⟨S8x256, .f32⟩
  | .hbm, ⟨6, _⟩ => ⟨S_, .f32⟩
  | .hbm, ⟨7, _⟩ => ⟨S8x256, .f32⟩
  | .hbm, ⟨8, _⟩ => ⟨S8x256x1x1, .f32⟩
  | .hbm, ⟨9, _⟩ => ⟨S_, .f32⟩
  | .hbm, ⟨10, _⟩ => ⟨S8x256x1x1, .f32⟩
  | .hbm, ⟨11, _⟩ => ⟨S8x256x1x1, .f32⟩
  | .hbm, ⟨12, _⟩ => ⟨S_, .i32⟩
  | .hbm, ⟨13, _⟩ => ⟨S_, .f32⟩
  | .hbm, ⟨14, _⟩ => ⟨S8x256, .f32⟩
  | .hbm, ⟨15, _⟩ => ⟨S8x256x1x1, .f32⟩
  | .hbm, ⟨16, _⟩ => ⟨S_, .f32⟩
  | .hbm, ⟨17, _⟩ => ⟨S8x256x1x1, .f32⟩
  | .hbm, ⟨18, _⟩ => ⟨S8x256x1x1, .f32⟩
  | .hbm, ⟨19, _⟩ => ⟨S8x256x256x256, .f32⟩
  | .hbm, ⟨20, _⟩ => ⟨S8x256x256x256, .f32⟩
  | .hbm, ⟨21, _⟩ => ⟨S8x256x256x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x256, .f32⟩
  | .hbm, ⟨27, _⟩ => ⟨S8x256x1x1, .f32⟩
  | .hbm, ⟨28, _⟩ => ⟨S8x256x1x1, .f32⟩
  | .hbm, ⟨29, _⟩ => ⟨S8x256x1x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S8x256x1x1, .f32⟩
  | .hbm, ⟨35, _⟩ => ⟨S8x256x1x1, .f32⟩
  | .hbm, ⟨36, _⟩ => ⟨S8x256x256x256, .f32⟩
  | .hbm, ⟨37, _⟩ => ⟨S8x256x256x256, .f32⟩
  | .hbm, ⟨38, _⟩ => ⟨S_, .f32⟩
  | .hbm, ⟨39, _⟩ => ⟨S8x256x1x1, .f32⟩
  | .hbm, ⟨40, _⟩ => ⟨S8x256x1x1, .f32⟩
  | .hbm, ⟨41, _⟩ => ⟨S8x256x1x1, .f32⟩
  | .hbm, ⟨42, _⟩ => ⟨S8x256x256x256, .f32⟩
  | .hbm, ⟨43, _⟩ => ⟨S8x256x256x256, .f32⟩
  | .hbm, ⟨44, _⟩ => ⟨S8x256x1x1, .f32⟩
  | .hbm, ⟨45, _⟩ => ⟨S8x256x256x256, .f32⟩
  | .hbm, ⟨46, _⟩ => ⟨S8x256x256x256, .f32⟩
  | .hbm, ⟨47, _⟩ => ⟨S8x256x1x1, .f32⟩
  | .hbm, ⟨48, _⟩ => ⟨S8x256x256x256, .f32⟩
  | .hbm, ⟨49, _⟩ => ⟨S8x256x256x256, .f32⟩
  | _, _ => ⟨S8x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]

class Facts₀ : Prop where
  reducesTo_S8x256x256x256_S8x256_d2_3 : S8x256x256x256.ReducesTo [2, 3] S8x256
  h_S_ : 0 < S_.numel
  bcast_S8x256_S8x256x1x1_0_1 : S8x256.BroadcastsInDim S8x256x1x1 (![0, 1] : Fin 2 → Fin S8x256x1x1.rank)
  bcast_S_S8x256x1x1 : S_.BroadcastsInDim S8x256x1x1 (![] : Fin 0 → Fin S8x256x1x1.rank)
  bcast_S8x256x1x1_S8x256x256x256_0_1_2_3 : S8x256x1x1.BroadcastsInDim S8x256x256x256 (![0, 1, 2, 3] : Fin 4 → Fin S8x256x256x256.rank)
  dot_S8x16_S16x256_S8x256_1_0_0_1_n_n_wf : DotDims.WF S8x16 S16x256 S8x256 [1] [0] [0] [1] [] []

variable [Facts₀]

def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf

class Facts : Prop extends Facts₀ where

variable [Facts]
-- ==== Proof.Kernel.R0Defs.lean ====
/-
  The first kernel region (the statistics pass) as data: the grid is 4 channel blocks × 32 row blocks, the row axis
  fastest, and two 8 × 64 scratch accumulators (the running sum and the running sum of squares of the rows seen so
  far in the current channel block) are carried from point to point: reset at a channel block's first row block,
  added to at every row block, and turned into the mean and the variance, transposed to 64 × 8, at its last.
  Stated at any value instance, over the contents `V` the region is entered with: the input's block at a point,
  the accumulators after each point (by recursion on the point), the invariant that carries them between points,
  and the pipeline's proof data.
-/
import proofs.«145157_j33019708572224_1_alg».proof.Proof.Gen.Kernel.Launch
import proofs.«145157_j33019708572224_1_alg».proof.Proof.Gen.Kernel.Skeleton
import proofs.«145157_j33019708572224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The scratch accumulators, point by point -/

/-- The two scratch operands, whole scoped buffers of the kernel's own. -/
abbrev scM0_0 : Memref sig .tc .vmem S8x64 .f32 := Memref.whole cc0_scratch0
abbrev scM0_1 : Memref sig .tc .vmem S8x64 .f32 := Memref.whole cc0_scratch1

/-- The activation block the body loads at position `n`. -/
abbrev xblk0 (c : Dev nD) (n : ℕ) (hn : n < cfg0.N) : Vec F S8x64x8x256 .f32 := iblk0 V c 0 ⟨n, hn⟩

/-- What the two accumulators hold after the body at position `n`: at a channel block's first row block (position
    ≡ 0 mod 32) the block's row sums added to the zero reset; otherwise added to what the position before left. -/
def acc0 (c : Dev nD) : (n : ℕ) → n < cfg0.N → Vec F S8x64 .f32 × Vec F S8x64 .f32
  | 0, hn => (k0_pay3 (xblk0 V c 0 hn) (k0_pay1 (F := F)), k0_pay4 (xblk0 V c 0 hn) (k0_pay2 (F := F)))
  | n + 1, hn =>
    if (n + 1) % 32 = 0 then
      (k0_pay3 (xblk0 V c (n + 1) hn) (k0_pay1 (F := F)), k0_pay4 (xblk0 V c (n + 1) hn) (k0_pay2 (F := F)))
    else
      (k0_pay3 (xblk0 V c (n + 1) hn) (acc0 c n (Nat.lt_of_succ_lt hn)).1, k0_pay4 (xblk0 V c (n + 1) hn) (acc0 c n (Nat.lt_of_succ_lt hn)).2)

/-- At a reset position: the block's sums over the zero reset. -/
theorem acc0_reset (c : Dev nD) (t : Fin cfg0.N) (h0 : t.val % 32 = 0) :
    acc0 V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact (if_pos h0).trans rfl

/-- At any other position: the block's sums over what the position before left. -/
theorem acc0_step (c : Dev nD) (t : Fin cfg0.N) (h0 : ¬t.val % 32 = 0) :
    acc0 V c t.val t.isLt
      = (k0_pay3 (iblk0 V c 0 t) (acc0 V c (t.val - 1) (Nat.lt_of_le_of_lt (Nat.sub_le _ _) t.isLt)).1,
         k0_pay4 (iblk0 V c 0 t) (acc0 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The invariant between points -/

/-- The scoped buffers of the second pipeline, which this region never touches, each whole at some contents. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant (the scoped rest and the generator register) with the two scratch operands as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA; rw [scopedRest0_eq]; simp only [scM0_0, scM0_1, owns_whole]; try rfl

/-- The region invariant before position `n`: before the first point the class's; afterwards the two accumulators at
    what the position before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ otherScoped (F := F) c) ∗ (∃ r, prngReg c r)) := by
  cases n with
  | zero => exact absurd rfl hz
  | succ n => rfl

/-! ## The pipeline's proof data -/

/-- The proof data of the first pipeline on core `c`: the arrays as the region finds them; after the body at point `t`
    the input's buffer at its block, the two outputs' at the mean and the variance computed from the accumulators
    (consulted only at a channel block's last row block, where the body stores them and the pipeline writes them back;
    elsewhere the windows are idle and their buffers handed back untouched); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (acc0 V c t.val t.isLt).1
    | ⟨2, _⟩ => k0_pay7 (acc0 V c t.val t.isLt).1 (acc0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay6 (acc0 V c t.val t.isLt).1 := by dsimp only [dat0]
theorem after0_2 (c : Dev nD) (t : Fin cfg0.N) :
    (dat0 V c).after 2 t = k0_pay7 (acc0 V c t.val t.isLt).1 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

end Cert.Kernel.Hand

end
-- ==== Proof.Kernel.R1.lean ====
/-
  The second kernel region (the normalising pass) as a pipeline body: at every grid point the body reads the
  activation block and the four per-(channel, sample) coefficient blocks (mean, variance, scale mixture, shift
  mixture, each 64 × 8), and stores one whole output block, a pointwise function of them. Stated at any value
  instance: what the output buffer holds after the body, the body's triple, the pipeline's proof data over the
  contents `V` the region is entered with, and the body obligation at every point.
-/
import proofs.«145157_j33019708572224_1_alg».proof.Proof.Gen.Kernel.Launch
import proofs.«145157_j33019708572224_1_alg».proof.Proof.Gen.Kernel.Skeleton
import proofs.«145157_j33019708572224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one
    did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output buffer -/

abbrev rBig : Rect S8x64x8x256 := Rect.unit (s := S8x64x8x256) ![0, 0, 0, 0] S8x64x8x256.size inb_S8x64x8x256_S8x64x8x256_0_0_0_0
abbrev rSmall : Rect S64x8 := Rect.unit (s := S64x8) ![0, 0] S64x8.size inb_S64x8_S64x8_0_0

/-- The output buffer after the body: its one store, of the pointwise payload of the five loaded blocks. -/
def out1_5 (x0 : Vec F S8x64x8x256 .f32) (x1 x2 x3 x4 : Vec F S64x8 .f32) : Vec F S8x64x8x256 .f32 :=
  View.canon [⟨rBig, k1_pay1 (View.ld x1 rSmall) (View.ld x2 rSmall) (View.ld x3 rSmall) (View.ld x4 rSmall) (View.ld x0 rBig)⟩]

/-- The one store covers the buffer. -/
theorem cover1_5 (p0 : Vec F S8x64x8x256 .f32) (y : S8x64x8x256.Idx) :
    ∃ pc ∈ ([⟨rBig, p0⟩] : List (View.Piece (Elt F) S8x64x8x256 .f32)), y ∈ pc.1.set :=
  View.cover_of_tiled [⟨rBig, p0⟩] S8x64x8x256.size (by rfl) y

/-! ## The body's triple -/

set_option maxHeartbeats 1000000 in
/-- On whole staging memrefs, the inputs' at contents `x·` and the output's at anything, the body runs to the
    continuation holding the inputs' as they were and the output's at `out1_5` of them. -/
theorem sound_kernel1 (c : Dev nD) (E : Set ℕ) (i : grid1.Coords)
    (arg2 : Memref sig .tc .vmem S8x64x8x256 .f32) (harg2 : arg2.IsWhole) (arg3 : Memref sig .tc .vmem S64x8 .f32) (harg3 : arg3.IsWhole)
    (arg4 : Memref sig .tc .vmem S64x8 .f32) (harg4 : arg4.IsWhole) (arg5 : Memref sig .tc .vmem S64x8 .f32) (harg5 : arg5.IsWhole)
    (arg6 : Memref sig .tc .vmem S64x8 .f32) (harg6 : arg6.IsWhole) (arg7 : Memref sig .tc .vmem S8x64x8x256 .f32) (harg7 : arg7.IsWhole)
    (x0 : Vec F S8x64x8x256 .f32) (x1 x2 x3 x4 : Vec F S64x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__norm_kernel i arg2 harg2 arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pipeline on core `c`: the arrays as the region finds them; after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as a run: the buffer contents at every boundary of @main — the launch memory, then the host
  stretch (the two style mixtures and their transposes), then the statistics region's write-backs, then the
  normalising region's —, every pipeline's proof data at its region's entry contents, @main as three segments, and
  the launch: every weakly fair execution terminates, the result array ends at what the second pipeline's
  write-backs leave, and every argument array ends as launched. The two regions' body obligations (and how the
  first region's invariant starts from and returns to the class invariant) are taken as hypotheses.
-/
import proofs.«145157_j33019708572224_1_alg».proof.Proof.Gen.Kernel.Launch
import proofs.«145157_j33019708572224_1_alg».proof.Proof.Gen.Kernel.Skeleton
import proofs.«145157_j33019708572224_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145157_j33019708572224_1_alg».proof.Proof.Gen.Kernel.Regions
import proofs.«145157_j33019708572224_1_alg».proof.Proof.Kernel.R0Defs
import proofs.«145157_j33019708572224_1_alg».proof.Proof.Kernel.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_of (c : Dev nD) (r : Ref sig .tc) (h : r ∉ hostOps0_W) : W1 m c r = W0 m c r :=
  StableHlo.after_of_writes_sub hostOps0 _ hostOps0_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

section Segs

variable (hbo0 : ∀ c, BodyObligation (dat0 (F := F) (V1 m) c) (defs₀ (F := F)) Variants.none () Set.univ)
  (hin0 : ∀ c, Pipeline.ΦA spec0 c ⊢ (dat0 (V1 m) c).Φ 0)
  (hout0 : ∀ c, (dat0 (V1 m) c).Φ (Fin.last cfg0.N) ⊢ Pipeline.ΦA spec0 c)

set_option backward.isDefEq.respectTransparency.types false in
/-- The statistics region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hbo0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 c)
    unfold Pipeline.ΦA
    iintro ⟨Hp, -, Hr⟩
    isplitl [Hr]; · iexact Hr
    iexact Hp
  hout c := by
    refine (hout0 c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hbo0 hin0 hout0),
    .region (reg1 m) ]

theorem main_run (c : Dev nD) : main (F := F) c = Pipeline.Seg.run (segs m hbo0 hin0 hout0) := (main_chain c).trans (by chain_rfl)

include hbo0 hin0 hout0 in
set_option backward.isDefEq.respectTransparency.types false in
/-- THE RUN: from any memory with zero counters every weakly fair execution of @main terminates, nothing faulting,
    and every final state has the result array at what the second pipeline's write-backs leave and every argument
    array as launched. -/
theorem run_main : θ_run defs (onTc (τ := τ) (main (F := F))) ⟨m, fun _ => 0, ρ⟩ (fun r => ∀ c : Dev nD,
      r.2.mem ((c.tc : Thread nD τ).loc main_v5) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m hbo0 hin0 hout0)
    (fun c Q => by rw [main_run m hbo0 hin0 hout0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_arr m c 5),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Segs

end Cert.Kernel.Hand

end
-- ==== Proof.Kernel.R0RunA.lean ====
/-
  The statistics kernel's body at a channel block's FIRST row block (grid position ≡ 0 mod 32).
  First what every case shares: the two branch conditions of the body in closed form over the 128 grid
  positions (the reset branch is taken exactly at positions ≡ 0 mod 32, the finishing branch exactly at
  positions ≡ 31 mod 32), where the two output windows are idle and where they are written back, and the
  staging memrefs the pipeline passes at a position. Then the whole-body run in the first case: both
  accumulators are stored twice (the zero reset, then the reset plus this block's sums), the input block is
  only read, and the two output buffers are not touched.
-/
import proofs.«145157_j33019708572224_1_alg».proof.Proof.Kernel.R0Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, in closed form -/

/-- The reset branch's condition (the row-block coordinate is zero), as the body computes it. -/
abbrev cond0_0 (i : grid0.Coords) : Prop :=
  (Scalar.cmpi .ne (Scalar.extui (Scalar.cmpi .eq (BitVec.ofNat 32 (i 1).val) 0#32)) 0#32) = 1#1
/-- It holds exactly at the positions ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The finishing branch's condition (the row-block coordinate is the last, 31). -/
abbrev cond0_1 (i : grid0.Coords) : Prop := k0_cond2 i = 1#1
/-- It holds exactly at the positions ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle, and where they are written back -/

/-- The input window is never idle. -/
theorem liveAt0_0 : ∀ t : Fin cfg0.N, cfg0.idle 0 (grid0.coords t) = false := by decide +kernel
/-- Off the finishing positions both outputs are idle (the body stores nothing into them) -/
theorem idleAt0_1 : ∀ t : Fin cfg0.N, ¬t.val % 32 = 31 → cfg0.idle 1 (grid0.coords t) = true := by decide +kernel
theorem idleAt0_2 : ∀ t : Fin cfg0.N, ¬t.val % 32 = 31 → cfg0.idle 2 (grid0.coords t) = true := by decide +kernel
/-- and are not written back; -/
theorem noFlush0_1 (t : Fin cfg0.N) (h : ¬t.val % 32 = 31) : (cfg0.win 1).flush t = false :=
  Bool.eq_false_iff.mpr fun hf => h ((flush0_1 t).mp hf)
theorem noFlush0_2 (t : Fin cfg0.N) (h : ¬t.val % 32 = 31) : (cfg0.win 2).flush t = false :=
  Bool.eq_false_iff.mpr fun hf => h ((flush0_2 t).mp hf)
/-- at the finishing positions both are live. -/
theorem liveAt0_1 : ∀ t : Fin cfg0.N, t.val % 32 = 31 → cfg0.idle 1 (grid0.coords t) = false := by decide +kernel
theorem liveAt0_2 : ∀ t : Fin cfg0.N, t.val % 32 = 31 → cfg0.idle 2 (grid0.coords t) = false := by decide +kernel

/-! ## The staging memrefs at a position -/

abbrev ms0_0 (t : Fin cfg0.N) : Memref sig .tc .vmem S8x64x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8 .f32 := win0_2.stage (cfg0.slots t 2)
abbrev hs0_2 (t : Fin cfg0.N) : (ms0_2 t).IsWhole := hstage0_2 ((cfg0.slots t 2).cast nbuf0_2)

/-! ## The run at a first row block -/

set_option maxHeartbeats 1000000 in
/-- At a position where the reset branch is taken and the finishing branch is not, on whole memrefs — the input's at
    its block `x0`, the two accumulators at anything — the body runs to any continuation that holds the input's as
    it was and each accumulator with its stores written, as pieces (last first) that the run itself finds. -/
noncomputable def kernelRun0_A (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : cond0_0 i) (hc1 : ¬cond0_1 i) (x0 : Vec F S8x64x8x256 .f32) :
    Σ' (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ (∃ d, owns (c : Thread nD τ) arg5 fullShare d) ∗ (∃ d, owns (c : Thread nD τ) arg6 fullShare d)
            ∗ (iprop(owns (c : Thread nD τ) arg2 fullShare x0
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    unfold owns
    iintro ⟨⟨%f0, %hf0, H0⟩, ⟨%ds0, %fs0, -, HS0⟩, ⟨%ds1, %fs1, -, HS1⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [HS0]; · iexists _; iexact HS0
    iexists _; iexact HS1

/-! ## What the run's pieces read back as -/

/-- The zero offsets of the body's whole-buffer loads and stores, as constant functions. -/
theorem r0_hz2 : (![0, 0] : Fin 2 → ℕ) = fun _ => 0 := by funext a; fin_cases a <;> rfl
theorem r0_hz4 : (![0, 0, 0, 0] : Fin 4 → ℕ) = fun _ => 0 := by funext a; fin_cases a <;> rfl

section A
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : cond0_0 i) (hc1 : ¬cond0_1 i) (x0 : Vec F S8x64x8x256 .f32)

/-- Each accumulator's pieces cover it (each store is of the whole buffer). -/
theorem coverA_0 (y : S8x64.Idx) : ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S8x64.size (by sl_kernel_rfl) y
theorem coverA_1 (y : S8x64.Idx) : ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S8x64.size (by sl_kernel_rfl) y

/-- The first accumulator ends at the block's sums added to the zero reset: the later store covers the buffer, and the
    value it adds to is the reset read back. -/
theorem canonA_0 : View.canon (kernelRun0_A c i arg2 harg2 arg3 harg3 arg4 harg4 arg5 harg5 arg6 harg6 hc0 hc1 x0).1 = k0_pay3 x0 (k0_pay1 (F := F)) := by
  unfold kernelRun0_A; dsimp only; sl_unfold_words
  rw [View.canon_cons_unit_zero (S := S8x64) r0_hz2]
  simp only [View.readAt_eq_ld, harg2.read_unread, View.ld_unit_zero (S := S8x64x8x256) r0_hz4, View.readCov_unit_zero (S := S8x64) _ r0_hz2]
/-- The second likewise, with the block's sums of squares. -/
theorem canonA_1 : View.canon (kernelRun0_A c i arg2 harg2 arg3 harg3 arg4 harg4 arg5 harg5 arg6 harg6 hc0 hc1 x0).2.1 = k0_pay4 x0 (k0_pay2 (F := F)) := by
  unfold kernelRun0_A; dsimp only; sl_unfold_words
  rw [View.canon_cons_unit_zero (S := S8x64) r0_hz2]
  simp only [View.readAt_eq_ld, harg2.read_unread, View.ld_unit_zero (S := S8x64x8x256) r0_hz4, View.readCov_unit_zero (S := S8x64) _ r0_hz2]

include hc0 hc1 in
/-- The run with its results named: from the input's memref at its block and the two accumulators at anything, to the
    input's as it was and the accumulators at the block's sums over the zero reset. -/
theorem run0_A (E : Set ℕ) (K : PUnit → sProp 𝕄) :
    iprop(owns (c : Thread nD τ) arg2 fullShare x0 ∗ (∃ d, owns (c : Thread nD τ) arg5 fullShare d) ∗ (∃ d, owns (c : Thread nD τ) arg6 fullShare d)
        ∗ (iprop(owns (c : Thread nD τ) arg2 fullShare x0
              ∗ owns (c : Thread nD τ) arg5 fullShare (k0_pay3 x0 (k0_pay1 (F := F)))
              ∗ owns (c : Thread nD τ) arg6 fullShare (k0_pay4 x0 (k0_pay2 (F := F)))) -∗ K ⟨⟩))
      ⊢ wp frame (wpE (defs₀ (F := F)) Variants.none c none) E (cc0__stats_kernel i arg2 harg2 arg3 harg3 arg4 harg4 arg5 harg5 arg6 harg6) K := by
  iintro ⟨H0, HS0, HS1, Hk⟩
  iapply ((kernelRun0_A c i arg2 harg2 arg3 harg3 arg4 harg4 arg5 harg5 arg6 harg6 hc0 hc1 x0).2.2 E K)
  isplitl [H0]; · iexact H0
  isplitl [HS0]; · iexact HS0
  isplitl [HS1]; · iexact HS1
  iintro ⟨H0, ⟨%es0, HS0⟩, ⟨%es1, HS1⟩⟩
  iapply Hk
  isplitl [H0]; · iexact H0
  isplitl [HS0]
  · unfold owns; iexists _; isplitr
    swap; · iexact HS0
    ipureintro; exact (View.read_writes_eq_canon _ _ _ (coverA_0 c i arg2 harg2 arg3 harg3 arg4 harg4 arg5 harg5 arg6 harg6 hc0 hc1 x0)).trans (canonA_0 c i arg2 harg2 arg3 harg3 arg4 harg4 arg5 harg5 arg6 harg6 hc0 hc1 x0)
  unfold owns; iexists _; isplitr
  swap; · iexact HS1
  ipureintro; exact (View.read_writes_eq_canon _ _ _ (coverA_1 c i arg2 harg2 arg3 harg3 arg4 harg4 arg5 harg5 arg6 harg6 hc0 hc1 x0)).trans (canonA_1 c i arg2 harg2 arg3 harg3 arg4 harg4 arg5 harg5 arg6 harg6 hc0 hc1 x0)

end A

end Cert.Kernel.Hand

end
-- ==== Proof.Kernel.R0RunB.lean ====
/-
  The statistics kernel's body at a MIDDLE row block of a channel block (grid position neither ≡ 0 nor ≡ 31
  mod 32): neither branch is taken; each accumulator is loaded and stored once (what the position before left
  plus this block's sums), the input block is only read, and the two output buffers are not touched.
-/
import proofs.«145157_j33019708572224_1_alg».proof.Proof.Kernel.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a position where neither branch is taken, on whole memrefs — the input's at its block `x0`, the two
    accumulators at what the position before left (`xs0`, `xs1`) — the body runs to any continuation that holds the
    input's as it was and each accumulator with its store written, as pieces that the run itself finds. -/
noncomputable def kernelRun0_B (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : ¬cond0_0 i) (hc1 : ¬cond0_1 i) (x0 : Vec F S8x64x8x256 .f32) (xs0 xs1 : Vec F S8x64 .f32) :
    Σ' (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ owns (c : Thread nD τ) arg5 fullShare xs0 ∗ owns (c : Thread nD τ) arg6 fullShare xs1
            ∗ (iprop(owns (c : Thread nD τ) arg2 fullShare x0
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    unfold owns
    iintro ⟨⟨%f0, %hf0, H0⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [HS0]; · iexists _; iexact HS0
    iexists _; iexact HS1

/-! ## What the run's pieces read back as -/

section B
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : ¬cond0_0 i) (hc1 : ¬cond0_1 i) (x0 : Vec F S8x64x8x256 .f32) (xs0 xs1 : Vec F S8x64 .f32)

/-- Each accumulator's one piece covers it. -/
theorem coverB_0 (y : S8x64.Idx) : ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S8x64.size (by sl_kernel_rfl) y
theorem coverB_1 (y : S8x64.Idx) : ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S8x64.size (by sl_kernel_rfl) y

/-- The first accumulator ends at the block's sums added to what it held; -/
theorem canonB_0 : View.canon (kernelRun0_B c i arg2 harg2 arg3 harg3 arg4 harg4 arg5 harg5 arg6 harg6 hc0 hc1 x0 xs0 xs1).1 = k0_pay3 x0 xs0 := by
  unfold kernelRun0_B; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- the second at the block's sums of squares added to what it held. -/
theorem canonB_1 : View.canon (kernelRun0_B c i arg2 harg2 arg3 harg3 arg4 harg4 arg5 harg5 arg6 harg6 hc0 hc1 x0 xs0 xs1).2.1 = k0_pay4 x0 xs1 := by
  unfold kernelRun0_B; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]

include hc0 hc1 in
/-- The run with its results named. -/
theorem run0_B (E : Set ℕ) (K : PUnit → sProp 𝕄) :
    iprop(owns (c : Thread nD τ) arg2 fullShare x0 ∗ owns (c : Thread nD τ) arg5 fullShare xs0 ∗ owns (c : Thread nD τ) arg6 fullShare xs1
        ∗ (iprop(owns (c : Thread nD τ) arg2 fullShare x0
              ∗ owns (c : Thread nD τ) arg5 fullShare (k0_pay3 x0 xs0)
              ∗ owns (c : Thread nD τ) arg6 fullShare (k0_pay4 x0 xs1)) -∗ K ⟨⟩))
      ⊢ wp frame (wpE (defs₀ (F := F)) Variants.none c none) E (cc0__stats_kernel i arg2 harg2 arg3 harg3 arg4 harg4 arg5 harg5 arg6 harg6) K := by
  iintro ⟨H0, HS0, HS1, Hk⟩
  iapply ((kernelRun0_B c i arg2 harg2 arg3 harg3 arg4 harg4 arg5 harg5 arg6 harg6 hc0 hc1 x0 xs0 xs1).2.2 E K)
  isplitl [H0]; · iexact H0
  isplitl [HS0]; · iexact HS0
  isplitl [HS1]; · iexact HS1
  iintro ⟨H0, ⟨%es0, HS0⟩, ⟨%es1, HS1⟩⟩
  iapply Hk
  isplitl [H0]; · iexact H0
  isplitl [HS0]
  · unfold owns; iexists _; isplitr
    swap; · iexact HS0
    ipureintro; exact (View.read_writes_eq_canon _ _ _ (coverB_0 c i arg2 harg2 arg3 harg3 arg4 harg4 arg5 harg5 arg6 harg6 hc0 hc1 x0 xs0 xs1)).trans (canonB_0 c i arg2 harg2 arg3 harg3 arg4 harg4 arg5 harg5 arg6 harg6 hc0 hc1 x0 xs0 xs1)
  unfold owns; iexists _; isplitr
  swap; · iexact HS1
  ipureintro; exact (View.read_writes_eq_canon _ _ _ (coverB_1 c i arg2 harg2 arg3 harg3 arg4 harg4 arg5 harg5 arg6 harg6 hc0 hc1 x0 xs0 xs1)).trans (canonB_1 c i arg2 harg2 arg3 harg3 arg4 harg4 arg5 harg5 arg6 harg6 hc0 hc1 x0 xs0 xs1)

end B

end Cert.Kernel.Hand

end
-- ==== Proof.Kernel.R0RunC.lean ====
/-
  The statistics kernel's body at a channel block's LAST row block (grid position ≡ 31 mod 32): the reset
  branch is not taken, the finishing branch is; each accumulator is loaded and stored once (what the position
  before left plus this block's sums), then loaded again, and the mean and the variance computed from the two
  are stored, transposed, over the whole of the two output buffers.
-/
import proofs.«145157_j33019708572224_1_alg».proof.Proof.Kernel.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a position where only the finishing branch is taken, on whole memrefs — the input's at its block `x0`, the two
    outputs' at anything, the two accumulators at what the position before left (`xs0`, `xs1`) — the body runs to any
    continuation that holds the input's as it was and each output and each accumulator with its store written, as
    pieces that the run itself finds. -/
noncomputable def kernelRun0_C (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : ¬cond0_0 i) (hc1 : cond0_1 i) (x0 : Vec F S8x64x8x256 .f32) (xs0 xs1 : Vec F S8x64 .f32) :
    Σ' (L1 : List (View.Piece (Elt F) S64x8 .f32)) (L2 : List (View.Piece (Elt F) S64x8 .f32))
       (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                  ∗ (∃ f, arg3.view.loc (c : Thread nD τ) ↦[arg3.view.set]{fullShare} arg3.view.writes (Elt F) f L1)
                  ∗ (∃ f, arg4.view.loc (c : Thread nD τ) ↦[arg4.view.set]{fullShare} arg4.view.writes (Elt F) f L2)
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

/-! ## What the run's pieces read back as -/

section C
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : ¬cond0_0 i) (hc1 : cond0_1 i) (x0 : Vec F S8x64x8x256 .f32) (xs0 xs1 : Vec F S8x64 .f32)

/-- Each output's and each accumulator's one piece covers it. -/
theorem coverC_o1 (y : S64x8.Idx) : ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S64x8.size (by sl_kernel_rfl) y
theorem coverC_o2 (y : S64x8.Idx) : ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S64x8.size (by sl_kernel_rfl) y
theorem coverC_0 (y : S8x64.Idx) : ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S8x64.size (by sl_kernel_rfl) y
theorem coverC_1 (y : S8x64.Idx) : ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S8x64.size (by sl_kernel_rfl) y

/-- The accumulators end as at a middle row block; -/
theorem canonC_0 : View.canon (kernelRun0_C c i arg2 harg2 arg3 harg3 arg4 harg4 arg5 harg5 arg6 harg6 hc0 hc1 x0 xs0 xs1).2.2.1 = k0_pay3 x0 xs0 := by
  unfold kernelRun0_C; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
theorem canonC_1 : View.canon (kernelRun0_C c i arg2 harg2 arg3 harg3 arg4 harg4 arg5 harg5 arg6 harg6 hc0 hc1 x0 xs0 xs1).2.2.2.1 = k0_pay4 x0 xs1 := by
  unfold kernelRun0_C; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- the first output is the mean computed from the first accumulator as just stored (what the body loads back is what
    it stored), -/
theorem canonC_o1 : View.canon (kernelRun0_C c i arg2 harg2 arg3 harg3 arg4 harg4 arg5 harg5 arg6 harg6 hc0 hc1 x0 xs0 xs1).1 = k0_pay6 (k0_pay3 x0 xs0) := by
  unfold kernelRun0_C; dsimp only; sl_unfold_words
  rw [View.canon_unit_zero (S := S64x8) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- and the second the variance computed from both. -/
theorem canonC_o2 : View.canon (kernelRun0_C c i arg2 harg2 arg3 harg3 arg4 harg4 arg5 harg5 arg6 harg6 hc0 hc1 x0 xs0 xs1).2.1 = k0_pay7 (k0_pay3 x0 xs0) (k0_pay4 x0 xs1) := by
  unfold kernelRun0_C; dsimp only; sl_unfold_words
  rw [View.canon_unit_zero (S := S64x8) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]

include hc0 hc1 in
/-- The run with its results named. -/
theorem run0_C (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0
              ∗ owns (c : Thread nD τ) arg3 fullShare (k0_pay6 (k0_pay3 x0 xs0))
              ∗ owns (c : Thread nD τ) arg4 fullShare (k0_pay7 (k0_pay3 x0 xs0) (k0_pay4 x0 xs1))
              ∗ owns (c : Thread nD τ) arg5 fullShare (k0_pay3 x0 xs0)
              ∗ owns (c : Thread nD τ) arg6 fullShare (k0_pay4 x0 xs1)) -∗ K ⟨⟩))
      ⊢ wp frame (wpE (defs₀ (F := F)) Variants.none c none) E (cc0__stats_kernel i arg2 harg2 arg3 harg3 arg4 harg4 arg5 harg5 arg6 harg6) K := by
  iintro ⟨H0, H1, H2, HS0, HS1, Hk⟩
  iapply ((kernelRun0_C c i arg2 harg2 arg3 harg3 arg4 harg4 arg5 harg5 arg6 harg6 hc0 hc1 x0 xs0 xs1).2.2.2.2 E K)
  isplitl [H0]; · iexact H0
  isplitl [H1]; · iexact H1
  isplitl [H2]; · iexact H2
  isplitl [HS0]; · iexact HS0
  isplitl [HS1]; · iexact HS1
  iintro ⟨H0, ⟨%e1, H1⟩, ⟨%e2, H2⟩, ⟨%es0, HS0⟩, ⟨%es1, HS1⟩⟩
  iapply Hk
  isplitl [H0]; · iexact H0
  isplitl [H1]
  · unfold owns; iexists _; isplitr
    swap; · iexact H1
    ipureintro; exact (View.read_writes_eq_canon _ _ _ (coverC_o1 c i arg2 harg2 arg3 harg3 arg4 harg4 arg5 harg5 arg6 harg6 hc0 hc1 x0 xs0 xs1)).trans (canonC_o1 c i arg2 harg2 arg3 harg3 arg4 harg4 arg5 harg5 arg6 harg6 hc0 hc1 x0 xs0 xs1)
  isplitl [H2]
  · unfold owns; iexists _; isplitr
    swap; · iexact H2
    ipureintro; exact (View.read_writes_eq_canon _ _ _ (coverC_o2 c i arg2 harg2 arg3 harg3 arg4 harg4 arg5 harg5 arg6 harg6 hc0 hc1 x0 xs0 xs1)).trans (canonC_o2 c i arg2 harg2 arg3 harg3 arg4 harg4 arg5 harg5 arg6 harg6 hc0 hc1 x0 xs0 xs1)
  isplitl [HS0]
  · unfold owns; iexists _; isplitr
    swap; · iexact HS0
    ipureintro; exact (View.read_writes_eq_canon _ _ _ (coverC_0 c i arg2 harg2 arg3 harg3 arg4 harg4 arg5 harg5 arg6 harg6 hc0 hc1 x0 xs0 xs1)).trans (canonC_0 c i arg2 harg2 arg3 harg3 arg4 harg4 arg5 harg5 arg6 harg6 hc0 hc1 x0 xs0 xs1)
  unfold owns; iexists _; isplitr
  swap; · iexact HS1
  ipureintro; exact (View.read_writes_eq_canon _ _ _ (coverC_1 c i arg2 harg2 arg3 harg3 arg4 harg4 arg5 harg5 arg6 harg6 hc0 hc1 x0 xs0 xs1)).trans (canonC_1 c i arg2 harg2 arg3 harg3 arg4 harg4 arg5 harg5 arg6 harg6 hc0 hc1 x0 xs0 xs1)

end C

end Cert.Kernel.Hand

end
-- ==== Proof.Kernel.R0Body.lean ====
/-
  The body obligation of the first kernel region (the statistics pass), at any value instance.
  At a grid position the pipeline hands the body the input window's staging buffer at its block and the two
  outputs' buffers at whatever they held, and the invariant hands it the two scratch accumulators: at anything
  before the very first position, afterwards at what the position before left. By cases on the position modulo
  32 one of the three runs applies (a channel block's first row block resets the accumulators before adding;
  its last one also stores the mean and the variance over the two output buffers; off the last one the outputs
  are idle and handed back untouched), and each leaves the accumulators at exactly what the recursion
  `acc0` names for this position, which is the invariant before the next.
-/
import proofs.«145157_j33019708572224_1_alg».proof.Proof.Kernel.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The obligation at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any position. The input's buffer holds its block; the position modulo 32 says which run applies; the
    accumulators come from the invariant and go back to it at this position's `acc0`; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 128 := lt_of_lt_of_eq t.isLt (show cfg0.N = 128 from N_0)
  by_cases h1 : t.val % 32 = 31
  · -- a channel block's last row block: add, then store the mean and the variance
    have h0 : ¬t.val % 32 = 0 := by omega
    have hz : t.val ≠ 0 := by omega
    rw [show (dat0 V c).leavesExact 1 t = owns (c : Thread nD τ) (ms0_1 t) fullShare ((dat0 V c).after 1 t) from by
      unfold Dat.leavesExact; rw [liveAt0_1 t h1], after0_1]
    rw [show (dat0 V c).leavesExact 2 t = owns (c : Thread nD τ) (ms0_2 t) fullShare ((dat0 V c).after 2 t) from by
      unfold Dat.leavesExact; rw [liveAt0_2 t h1], after0_2]
    rw [acc0_step V c t h0]; dsimp only
    rw [PhiS_castSucc V c t, PhiS_pos V c _ _ hz]
    iintro ⟨⟨⟨HS0, HS1, Hoth⟩, Hg⟩, Ho, ⟨%d0, H0⟩, ⟨%d1, H1⟩, ⟨%d2, H2⟩⟩
    iapply (run0_C c (grid0.coords t) _ _ _ _ _ _ _ _ _ _ (fun h => h0 ((hcond0_0 t).mp h)) ((hcond0_1 t).mpr h1) (iblk0 V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hoth Hg]
    · isplitl [HS0 HS1 Hoth]
      · isplitl [HS0]; · iexact HS0
        isplitl [HS1]; · iexact HS1
        iexact Hoth
      iexact Hg
    isplitl [Ho]; · iexact Ho
    isplitl [H0]; · iexact H0
    isplitl [H1]; · iexact H1
    iexact H2
  · rw [Dat.leavesExact_idle (dat0 V c) 1 t (idleAt0_1 t h1) (noFlush0_1 t h1)]
    rw [Dat.leavesExact_idle (dat0 V c) 2 t (idleAt0_2 t h1) (noFlush0_2 t h1)]
    by_cases h0 : t.val % 32 = 0
    · -- a channel block's first row block: reset, then add
      rw [acc0_reset V c t h0]; dsimp only
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩⟩
        iapply (run0_A c (grid0.coords t) _ _ _ _ _ _ _ _ _ _ ((hcond0_0 t).mpr h0) (fun h => h1 ((hcond0_1 t).mp h)) (iblk0 V c 0 t) Set.univ _)
        isplitl [H0]; · iexact H0
        isplitl [HS0]; · iexact HS0
        isplitl [HS1]; · iexact HS1
        iintro ⟨H0, HS0, HS1⟩
        isplitl [HS0 HS1 Hoth Hg]
        · isplitl [HS0 HS1 Hoth]
          · isplitl [HS0]; · iexact HS0
            isplitl [HS1]; · iexact HS1
            iexact Hoth
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, Hoth⟩, Hg⟩, Ho, ⟨%d0, H0⟩, ⟨%d1, H1⟩, ⟨%d2, H2⟩⟩
        iapply (run0_A c (grid0.coords t) _ _ _ _ _ _ _ _ _ _ ((hcond0_0 t).mpr h0) (fun h => h1 ((hcond0_1 t).mp h)) (iblk0 V c 0 t) Set.univ _)
        isplitl [H0]; · iexact H0
        isplitl [HS0]; · iexists _; iexact HS0
        isplitl [HS1]; · iexists _; iexact HS1
        iintro ⟨H0, HS0, HS1⟩
        isplitl [HS0 HS1 Hoth Hg]
        · isplitl [HS0 HS1 Hoth]
          · isplitl [HS0]; · iexact HS0
            isplitl [HS1]; · iexact HS1
            iexact Hoth
          iexact Hg
        isplitl [Ho]; · iexact Ho
        isplitl [H0]; · iexact H0
        isplitl [H1]; · iexists _; iexact H1
        iexists _; iexact H2
    · -- a middle row block: add
      have hz : t.val ≠ 0 := fun h => h0 (by rw [h])
      rw [acc0_step V c t h0]; dsimp only
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply (run0_B c (grid0.coords t) _ _ _ _ _ _ _ _ _ _ (fun h => h0 ((hcond0_0 t).mp h)) (fun h => h1 ((hcond0_1 t).mp h)) (iblk0 V c 0 t) _ _ Set.univ _)
      isplitl [H0]; · iexact H0
      isplitl [HS0]; · iexact HS0
      isplitl [HS1]; · iexact HS1
      iintro ⟨H0, HS0, HS1⟩
      isplitl [HS0 HS1 Hoth Hg]
      · isplitl [HS0 HS1 Hoth]
        · isplitl [HS0]; · iexact HS0
          isplitl [HS1]; · iexact HS1
          iexact Hoth
        iexact Hg
      isplitl [Ho]; · iexact Ho
      isplitl [H0]; · iexact H0
      isplitl [H1]; · iexists _; iexact H1
      iexists _; iexact H2

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any position but the first the invariant gives the class invariant back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last position. -/
theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.KernelIdeal.R0Defs.lean ====
/-
  The first kernel region (the statistics pass) as data: the grid is 4 channel blocks × 32 row blocks, the row axis
  fastest, and two 8 × 64 scratch accumulators (the running sum and the running sum of squares of the rows seen so
  far in the current channel block) are carried from point to point: reset at a channel block's first row block,
  added to at every row block, and turned into the mean and the variance, transposed to 64 × 8, at its last.
  Stated at any value instance, over the contents `V` the region is entered with: the input's block at a point,
  the accumulators after each point (by recursion on the point), the invariant that carries them between points,
  and the pipeline's proof data.
-/
import proofs.«145157_j33019708572224_1_alg».proof.Proof.Gen.KernelIdeal.Launch
import proofs.«145157_j33019708572224_1_alg».proof.Proof.Gen.KernelIdeal.Skeleton
import proofs.«145157_j33019708572224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The scratch accumulators, point by point -/

/-- The two scratch operands, whole scoped buffers of the kernel's own. -/
abbrev scM0_0 : Memref sig .tc .vmem S8x64 .f32 := Memref.whole cc0_scratch0
abbrev scM0_1 : Memref sig .tc .vmem S8x64 .f32 := Memref.whole cc0_scratch1

/-- The activation block the body loads at position `n`. -/
abbrev xblk0 (c : Dev nD) (n : ℕ) (hn : n < cfg0.N) : Vec F S8x64x8x256 .f32 := iblk0 V c 0 ⟨n, hn⟩

/-- What the two accumulators hold after the body at position `n`: at a channel block's first row block (position
    ≡ 0 mod 32) the block's row sums added to the zero reset; otherwise added to what the position before left. -/
def acc0 (c : Dev nD) : (n : ℕ) → n < cfg0.N → Vec F S8x64 .f32 × Vec F S8x64 .f32
  | 0, hn => (k0_pay3 (xblk0 V c 0 hn) (k0_pay1 (F := F)), k0_pay4 (xblk0 V c 0 hn) (k0_pay2 (F := F)))
  | n + 1, hn =>
    if (n + 1) % 32 = 0 then
      (k0_pay3 (xblk0 V c (n + 1) hn) (k0_pay1 (F := F)), k0_pay4 (xblk0 V c (n + 1) hn) (k0_pay2 (F := F)))
    else
      (k0_pay3 (xblk0 V c (n + 1) hn) (acc0 c n (Nat.lt_of_succ_lt hn)).1, k0_pay4 (xblk0 V c (n + 1) hn) (acc0 c n (Nat.lt_of_succ_lt hn)).2)

/-- At a reset position: the block's sums over the zero reset. -/
theorem acc0_reset (c : Dev nD) (t : Fin cfg0.N) (h0 : t.val % 32 = 0) :
    acc0 V c t.val t.isLt = (k0_pay3 (iblk0 V c 0 t) (k0_pay1 (F := F)), k0_pay4 (iblk0 V c 0 t) (k0_pay2 (F := F))) := by
  obtain ⟨n, hn⟩ := t
  cases n with
  | zero => rfl
  | succ n => exact (if_pos h0).trans rfl

/-- At any other position: the block's sums over what the position before left. -/
theorem acc0_step (c : Dev nD) (t : Fin cfg0.N) (h0 : ¬t.val % 32 = 0) :
    acc0 V c t.val t.isLt
      = (k0_pay3 (iblk0 V c 0 t) (acc0 V c (t.val - 1) (Nat.lt_of_le_of_lt (Nat.sub_le _ _) t.isLt)).1,
         k0_pay4 (iblk0 V c 0 t) (acc0 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## The invariant between points -/

/-- The scoped buffers of the second pipeline, which this region never touches, each whole at some contents. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant (the scoped rest and the generator register) with the two scratch operands as owned memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped (F := F) c) ∗ (∃ r, prngReg c r)) := by
  unfold Pipeline.ΦA; rw [scopedRest0_eq]; simp only [scM0_0, scM0_1, owns_whole]; try rfl

/-- The region invariant before position `n`: before the first point the class's; afterwards the two accumulators at
    what the position before left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((acc0 V c n hn).1) ∗ owns (c : Thread nD τ) scM0_1 fullShare ((acc0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((acc0 V c n hn).1) ∗ owns (c : Thread nD τ) scM0_1 fullShare ((acc0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((acc0 V c (n - 1) (by omega)).1) ∗ owns (c : Thread nD τ) scM0_1 fullShare ((acc0 V c (n - 1) (by omega)).2) ∗ otherScoped (F := F) c) ∗ (∃ r, prngReg c r)) := by
  cases n with
  | zero => exact absurd rfl hz
  | succ n => rfl

/-! ## The pipeline's proof data -/

/-- The proof data of the first pipeline on core `c`: the arrays as the region finds them; after the body at point `t`
    the input's buffer at its block, the two outputs' at the mean and the variance computed from the accumulators
    (consulted only at a channel block's last row block, where the body stores them and the pipeline writes them back;
    elsewhere the windows are idle and their buffers handed back untouched); the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (acc0 V c t.val t.isLt).1
    | ⟨2, _⟩ => k0_pay7 (acc0 V c t.val t.isLt).1 (acc0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay6 (acc0 V c t.val t.isLt).1 := by dsimp only [dat0]
theorem after0_2 (c : Dev nD) (t : Fin cfg0.N) :
    (dat0 V c).after 2 t = k0_pay7 (acc0 V c t.val t.isLt).1 (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d

end Cert.KernelIdeal.Hand

end
-- ==== Proof.KernelIdeal.R1.lean ====
/-
  The second kernel region (the normalising pass) as a pipeline body: at every grid point the body reads the
  activation block and the four per-(channel, sample) coefficient blocks (mean, variance, scale mixture, shift
  mixture, each 64 × 8), and stores one whole output block, a pointwise function of them. Stated at any value
  instance: what the output buffer holds after the body, the body's triple, the pipeline's proof data over the
  contents `V` the region is entered with, and the body obligation at every point.
-/
import proofs.«145157_j33019708572224_1_alg».proof.Proof.Gen.KernelIdeal.Launch
import proofs.«145157_j33019708572224_1_alg».proof.Proof.Gen.KernelIdeal.Skeleton
import proofs.«145157_j33019708572224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or an earlier one
    did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the output buffer -/

abbrev rBig : Rect S8x64x8x256 := Rect.unit (s := S8x64x8x256) ![0, 0, 0, 0] S8x64x8x256.size inb_S8x64x8x256_S8x64x8x256_0_0_0_0
abbrev rSmall : Rect S64x8 := Rect.unit (s := S64x8) ![0, 0] S64x8.size inb_S64x8_S64x8_0_0

/-- The output buffer after the body: its one store, of the pointwise payload of the five loaded blocks. -/
def out1_5 (x0 : Vec F S8x64x8x256 .f32) (x1 x2 x3 x4 : Vec F S64x8 .f32) : Vec F S8x64x8x256 .f32 :=
  View.canon [⟨rBig, k1_pay1 (View.ld x1 rSmall) (View.ld x2 rSmall) (View.ld x3 rSmall) (View.ld x4 rSmall) (View.ld x0 rBig)⟩]

/-- The one store covers the buffer. -/
theorem cover1_5 (p0 : Vec F S8x64x8x256 .f32) (y : S8x64x8x256.Idx) :
    ∃ pc ∈ ([⟨rBig, p0⟩] : List (View.Piece (Elt F) S8x64x8x256 .f32)), y ∈ pc.1.set :=
  View.cover_of_tiled [⟨rBig, p0⟩] S8x64x8x256.size (by rfl) y

/-! ## The body's triple -/

set_option maxHeartbeats 1000000 in
/-- On whole staging memrefs, the inputs' at contents `x·` and the output's at anything, the body runs to the
    continuation holding the inputs' as they were and the output's at `out1_5` of them. -/
theorem sound_kernel1 (c : Dev nD) (E : Set ℕ) (i : grid1.Coords)
    (arg2 : Memref sig .tc .vmem S8x64x8x256 .f32) (harg2 : arg2.IsWhole) (arg3 : Memref sig .tc .vmem S64x8 .f32) (harg3 : arg3.IsWhole)
    (arg4 : Memref sig .tc .vmem S64x8 .f32) (harg4 : arg4.IsWhole) (arg5 : Memref sig .tc .vmem S64x8 .f32) (harg5 : arg5.IsWhole)
    (arg6 : Memref sig .tc .vmem S64x8 .f32) (harg6 : arg6.IsWhole) (arg7 : Memref sig .tc .vmem S8x64x8x256 .f32) (harg7 : arg7.IsWhole)
    (x0 : Vec F S8x64x8x256 .f32) (x1 x2 x3 x4 : Vec F S64x8 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__norm_kernel i arg2 harg2 arg3 harg3 arg4 harg4 arg5 harg5 arg6 harg6 arg7 harg7) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pipeline on core `c`: the arrays as the region finds them; after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as a run: the buffer contents at every boundary of @main — the launch memory, then the host
  stretch (the two style mixtures and their transposes), then the statistics region's write-backs, then the
  normalising region's —, every pipeline's proof data at its region's entry contents, @main as three segments, and
  the launch: every weakly fair execution terminates, the result array ends at what the second pipeline's
  write-backs leave, and every argument array ends as launched. The two regions' body obligations (and how the
  first region's invariant starts from and returns to the class invariant) are taken as hypotheses.
-/
import proofs.«145157_j33019708572224_1_alg».proof.Proof.Gen.KernelIdeal.Launch
import proofs.«145157_j33019708572224_1_alg».proof.Proof.Gen.KernelIdeal.Skeleton
import proofs.«145157_j33019708572224_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«145157_j33019708572224_1_alg».proof.Proof.Gen.KernelIdeal.Regions
import proofs.«145157_j33019708572224_1_alg».proof.Proof.KernelIdeal.R0Defs
import proofs.«145157_j33019708572224_1_alg».proof.Proof.KernelIdeal.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- After the host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_of (c : Dev nD) (r : Ref sig .tc) (h : r ∉ hostOps0_W) : W1 m c r = W0 m c r :=
  StableHlo.after_of_writes_sub hostOps0 _ hostOps0_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := W1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

section Segs

variable (hbo0 : ∀ c, BodyObligation (dat0 (F := F) (V1 m) c) (defs₀ (F := F)) Variants.none () Set.univ)
  (hin0 : ∀ c, Pipeline.ΦA spec0 c ⊢ (dat0 (V1 m) c).Φ 0)
  (hout0 : ∀ c, (dat0 (V1 m) c).Φ (Fin.last cfg0.N) ⊢ Pipeline.ΦA spec0 c)

set_option backward.isDefEq.respectTransparency.types false in
/-- The statistics region over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hbo0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 c)
    unfold Pipeline.ΦA
    iintro ⟨Hp, -, Hr⟩
    isplitl [Hr]; · iexact Hr
    iexact Hp
  hout c := by
    refine (hout0 c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m hbo0 hin0 hout0),
    .region (reg1 m) ]

theorem main_run (c : Dev nD) : main (F := F) c = Pipeline.Seg.run (segs m hbo0 hin0 hout0) := (main_chain c).trans (by chain_rfl)

include hbo0 hin0 hout0 in
set_option backward.isDefEq.respectTransparency.types false in
/-- THE RUN: from any memory with zero counters every weakly fair execution of @main terminates, nothing faulting,
    and every final state has the result array at what the second pipeline's write-backs leave and every argument
    array as launched. -/
theorem run_main : θ_run defs (onTc (τ := τ) (main (F := F))) ⟨m, fun _ => 0, ρ⟩ (fun r => ∀ c : Dev nD,
      r.2.mem ((c.tc : Thread nD τ).loc main_v5) = (dat1 (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m hbo0 hin0 hout0)
    (fun c Q => by rw [main_run m hbo0 hin0 hout0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_arr m c 5),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

end Segs

end Cert.KernelIdeal.Hand

end
-- ==== Proof.KernelIdeal.R0RunA.lean ====
/-
  The statistics kernel's body at a channel block's FIRST row block (grid position ≡ 0 mod 32).
  First what every case shares: the two branch conditions of the body in closed form over the 128 grid
  positions (the reset branch is taken exactly at positions ≡ 0 mod 32, the finishing branch exactly at
  positions ≡ 31 mod 32), where the two output windows are idle and where they are written back, and the
  staging memrefs the pipeline passes at a position. Then the whole-body run in the first case: both
  accumulators are stored twice (the zero reset, then the reset plus this block's sums), the input block is
  only read, and the two output buffers are not touched.
-/
import proofs.«145157_j33019708572224_1_alg».proof.Proof.KernelIdeal.R0Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form -/

/-- The reset branch's condition (the row-block coordinate is zero), as the body computes it. -/
abbrev cond0_0 (i : grid0.Coords) : Prop :=
  (Scalar.cmpi .ne (Scalar.extui (Scalar.cmpi .eq (BitVec.ofNat 32 (i 1).val) 0#32)) 0#32) = 1#1
/-- It holds exactly at the positions ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The finishing branch's condition (the row-block coordinate is the last, 31). -/
abbrev cond0_1 (i : grid0.Coords) : Prop := k0_cond2 i = 1#1
/-- It holds exactly at the positions ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle, and where they are written back -/

/-- The input window is never idle. -/
theorem liveAt0_0 : ∀ t : Fin cfg0.N, cfg0.idle 0 (grid0.coords t) = false := by decide +kernel
/-- Off the finishing positions both outputs are idle (the body stores nothing into them) -/
theorem idleAt0_1 : ∀ t : Fin cfg0.N, ¬t.val % 32 = 31 → cfg0.idle 1 (grid0.coords t) = true := by decide +kernel
theorem idleAt0_2 : ∀ t : Fin cfg0.N, ¬t.val % 32 = 31 → cfg0.idle 2 (grid0.coords t) = true := by decide +kernel
/-- and are not written back; -/
theorem noFlush0_1 (t : Fin cfg0.N) (h : ¬t.val % 32 = 31) : (cfg0.win 1).flush t = false :=
  Bool.eq_false_iff.mpr fun hf => h ((flush0_1 t).mp hf)
theorem noFlush0_2 (t : Fin cfg0.N) (h : ¬t.val % 32 = 31) : (cfg0.win 2).flush t = false :=
  Bool.eq_false_iff.mpr fun hf => h ((flush0_2 t).mp hf)
/-- at the finishing positions both are live. -/
theorem liveAt0_1 : ∀ t : Fin cfg0.N, t.val % 32 = 31 → cfg0.idle 1 (grid0.coords t) = false := by decide +kernel
theorem liveAt0_2 : ∀ t : Fin cfg0.N, t.val % 32 = 31 → cfg0.idle 2 (grid0.coords t) = false := by decide +kernel

/-! ## The staging memrefs at a position -/

abbrev ms0_0 (t : Fin cfg0.N) : Memref sig .tc .vmem S8x64x8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8 .f32 := win0_2.stage (cfg0.slots t 2)
abbrev hs0_2 (t : Fin cfg0.N) : (ms0_2 t).IsWhole := hstage0_2 ((cfg0.slots t 2).cast nbuf0_2)

/-! ## The run at a first row block -/

set_option maxHeartbeats 1000000 in
/-- At a position where the reset branch is taken and the finishing branch is not, on whole memrefs — the input's at
    its block `x0`, the two accumulators at anything — the body runs to any continuation that holds the input's as
    it was and each accumulator with its stores written, as pieces (last first) that the run itself finds. -/
noncomputable def kernelRun0_A (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : cond0_0 i) (hc1 : ¬cond0_1 i) (x0 : Vec F S8x64x8x256 .f32) :
    Σ' (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ (∃ d, owns (c : Thread nD τ) arg5 fullShare d) ∗ (∃ d, owns (c : Thread nD τ) arg6 fullShare d)
            ∗ (iprop(owns (c : Thread nD τ) arg2 fullShare x0
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    unfold owns
    iintro ⟨⟨%f0, %hf0, H0⟩, ⟨%ds0, %fs0, -, HS0⟩, ⟨%ds1, %fs1, -, HS1⟩, Hk⟩
    obtain rfl := harg2.eq_unread hf0
    sl_exec (disch := first | exact hc0 | exact hc1)
    sl_step
    iapply Hk
    isplitl [H0]
    · iexists _; isplitr; · ipureintro; exact harg2.read_unread _
      iexact H0
    isplitl [HS0]; · iexists _; iexact HS0
    iexists _; iexact HS1

/-! ## What the run's pieces read back as -/

/-- The zero offsets of the body's whole-buffer loads and stores, as constant functions. -/
theorem r0_hz2 : (![0, 0] : Fin 2 → ℕ) = fun _ => 0 := by funext a; fin_cases a <;> rfl
theorem r0_hz4 : (![0, 0, 0, 0] : Fin 4 → ℕ) = fun _ => 0 := by funext a; fin_cases a <;> rfl

section A
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : cond0_0 i) (hc1 : ¬cond0_1 i) (x0 : Vec F S8x64x8x256 .f32)

/-- Each accumulator's pieces cover it (each store is of the whole buffer). -/
theorem coverA_0 (y : S8x64.Idx) : ∃ pc ∈ (kernelRun0_A c i arg2 harg2 arg3 harg3 arg4 harg4 arg5 harg5 arg6 harg6 hc0 hc1 x0).1, y ∈ pc.1.set :=
  View.cover_of_tiledL (kernelRun0_A c i arg2 harg2 arg3 harg3 arg4 harg4 arg5 harg5 arg6 harg6 hc0 hc1 x0).1 S8x64.size (by sl_kernel_rfl) y
theorem coverA_1 (y : S8x64.Idx) : ∃ pc ∈ (kernelRun0_A c i arg2 harg2 arg3 harg3 arg4 harg4 arg5 harg5 arg6 harg6 hc0 hc1 x0).2.1, y ∈ pc.1.set :=
  View.cover_of_tiledL (kernelRun0_A c i arg2 harg2 arg3 harg3 arg4 harg4 arg5 harg5 arg6 harg6 hc0 hc1 x0).2.1 S8x64.size (by sl_kernel_rfl) y

/-- The first accumulator ends at the block's sums added to the zero reset: the later store covers the buffer, and the
    value it adds to is the reset read back. -/
theorem canonA_0 : View.canon (kernelRun0_A c i arg2 harg2 arg3 harg3 arg4 harg4 arg5 harg5 arg6 harg6 hc0 hc1 x0).1 = k0_pay3 x0 (k0_pay1 (F := F)) := by
  unfold kernelRun0_A; dsimp only; sl_unfold_words
  rw [View.canon_cons_unit_zero (S := S8x64) r0_hz2]
  simp only [View.readAt_eq_ld, harg2.read_unread, View.ld_unit_zero (S := S8x64x8x256) r0_hz4, View.readCov_unit_zero (S := S8x64) _ r0_hz2]
/-- The second likewise, with the block's sums of squares. -/
theorem canonA_1 : View.canon (kernelRun0_A c i arg2 harg2 arg3 harg3 arg4 harg4 arg5 harg5 arg6 harg6 hc0 hc1 x0).2.1 = k0_pay4 x0 (k0_pay2 (F := F)) := by
  unfold kernelRun0_A; dsimp only; sl_unfold_words
  rw [View.canon_cons_unit_zero (S := S8x64) r0_hz2]
  simp only [View.readAt_eq_ld, harg2.read_unread, View.ld_unit_zero (S := S8x64x8x256) r0_hz4, View.readCov_unit_zero (S := S8x64) _ r0_hz2]

include hc0 hc1 in
/-- The run with its results named: from the input's memref at its block and the two accumulators at anything, to the
    input's as it was and the accumulators at the block's sums over the zero reset. -/
theorem run0_A (E : Set ℕ) (K : PUnit → sProp 𝕄) :
    iprop(owns (c : Thread nD τ) arg2 fullShare x0 ∗ (∃ d, owns (c : Thread nD τ) arg5 fullShare d) ∗ (∃ d, owns (c : Thread nD τ) arg6 fullShare d)
        ∗ (iprop(owns (c : Thread nD τ) arg2 fullShare x0
              ∗ owns (c : Thread nD τ) arg5 fullShare (k0_pay3 x0 (k0_pay1 (F := F)))
              ∗ owns (c : Thread nD τ) arg6 fullShare (k0_pay4 x0 (k0_pay2 (F := F)))) -∗ K ⟨⟩))
      ⊢ wp frame (wpE (defs₀ (F := F)) Variants.none c none) E (cc0__stats_kernel i arg2 harg2 arg3 harg3 arg4 harg4 arg5 harg5 arg6 harg6) K := by
  iintro ⟨H0, HS0, HS1, Hk⟩
  iapply ((kernelRun0_A c i arg2 harg2 arg3 harg3 arg4 harg4 arg5 harg5 arg6 harg6 hc0 hc1 x0).2.2 E K)
  isplitl [H0]; · iexact H0
  isplitl [HS0]; · iexact HS0
  isplitl [HS1]; · iexact HS1
  iintro ⟨H0, ⟨%es0, HS0⟩, ⟨%es1, HS1⟩⟩
  iapply Hk
  isplitl [H0]; · iexact H0
  isplitl [HS0]
  · unfold owns; iexists _; isplitr
    swap; · iexact HS0
    ipureintro; exact (View.read_writes_eq_canon _ _ _ (coverA_0 c i arg2 harg2 arg3 harg3 arg4 harg4 arg5 harg5 arg6 harg6 hc0 hc1 x0)).trans (canonA_0 c i arg2 harg2 arg3 harg3 arg4 harg4 arg5 harg5 arg6 harg6 hc0 hc1 x0)
  unfold owns; iexists _; isplitr
  swap; · iexact HS1
  ipureintro; exact (View.read_writes_eq_canon _ _ _ (coverA_1 c i arg2 harg2 arg3 harg3 arg4 harg4 arg5 harg5 arg6 harg6 hc0 hc1 x0)).trans (canonA_1 c i arg2 harg2 arg3 harg3 arg4 harg4 arg5 harg5 arg6 harg6 hc0 hc1 x0)

end A

end Cert.KernelIdeal.Hand

end
-- ==== Proof.KernelIdeal.R0RunB.lean ====
/-
  The statistics kernel's body at a MIDDLE row block of a channel block (grid position neither ≡ 0 nor ≡ 31
  mod 32): neither branch is taken; each accumulator is loaded and stored once (what the position before left
  plus this block's sums), the input block is only read, and the two output buffers are not touched.
-/
import proofs.«145157_j33019708572224_1_alg».proof.Proof.KernelIdeal.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a position where neither branch is taken, on whole memrefs — the input's at its block `x0`, the two
    accumulators at what the position before left (`xs0`, `xs1`) — the body runs to any continuation that holds the
    input's as it was and each accumulator with its store written, as pieces that the run itself finds. -/
noncomputable def kernelRun0_B (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : ¬cond0_0 i) (hc1 : ¬cond0_1 i) (x0 : Vec F S8x64x8x256 .f32) (xs0 xs1 : Vec F S8x64 .f32) :
    Σ' (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ owns (c : Thread nD τ) arg5 fullShare xs0 ∗ owns (c : Thread nD τ) arg6 fullShare xs1
            ∗ (iprop(owns (c : Thread nD τ) arg2 fullShare x0
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, fun E K => ?run⟩
  case run =>
    simp only [cc0__stats_kernel_eq_skeleton]; unfold cc0__stats_kernel_skel
    unfold owns
    iintro ⟨⟨%f0, %hf0, H0⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [HS0]; · iexists _; iexact HS0
    iexists _; iexact HS1

/-! ## What the run's pieces read back as -/

section B
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : ¬cond0_0 i) (hc1 : ¬cond0_1 i) (x0 : Vec F S8x64x8x256 .f32) (xs0 xs1 : Vec F S8x64 .f32)

/-- Each accumulator's one piece covers it. -/
theorem coverB_0 (y : S8x64.Idx) : ∃ pc ∈ (kernelRun0_B c i arg2 harg2 arg3 harg3 arg4 harg4 arg5 harg5 arg6 harg6 hc0 hc1 x0 xs0 xs1).1, y ∈ pc.1.set :=
  View.cover_of_tiledL (kernelRun0_B c i arg2 harg2 arg3 harg3 arg4 harg4 arg5 harg5 arg6 harg6 hc0 hc1 x0 xs0 xs1).1 S8x64.size (by sl_kernel_rfl) y
theorem coverB_1 (y : S8x64.Idx) : ∃ pc ∈ (kernelRun0_B c i arg2 harg2 arg3 harg3 arg4 harg4 arg5 harg5 arg6 harg6 hc0 hc1 x0 xs0 xs1).2.1, y ∈ pc.1.set :=
  View.cover_of_tiledL (kernelRun0_B c i arg2 harg2 arg3 harg3 arg4 harg4 arg5 harg5 arg6 harg6 hc0 hc1 x0 xs0 xs1).2.1 S8x64.size (by sl_kernel_rfl) y

/-- The first accumulator ends at the block's sums added to what it held; -/
theorem canonB_0 : View.canon (kernelRun0_B c i arg2 harg2 arg3 harg3 arg4 harg4 arg5 harg5 arg6 harg6 hc0 hc1 x0 xs0 xs1).1 = k0_pay3 x0 xs0 := by
  unfold kernelRun0_B; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- the second at the block's sums of squares added to what it held. -/
theorem canonB_1 : View.canon (kernelRun0_B c i arg2 harg2 arg3 harg3 arg4 harg4 arg5 harg5 arg6 harg6 hc0 hc1 x0 xs0 xs1).2.1 = k0_pay4 x0 xs1 := by
  unfold kernelRun0_B; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]

include hc0 hc1 in
/-- The run with its results named. -/
theorem run0_B (E : Set ℕ) (K : PUnit → sProp 𝕄) :
    iprop(owns (c : Thread nD τ) arg2 fullShare x0 ∗ owns (c : Thread nD τ) arg5 fullShare xs0 ∗ owns (c : Thread nD τ) arg6 fullShare xs1
        ∗ (iprop(owns (c : Thread nD τ) arg2 fullShare x0
              ∗ owns (c : Thread nD τ) arg5 fullShare (k0_pay3 x0 xs0)
              ∗ owns (c : Thread nD τ) arg6 fullShare (k0_pay4 x0 xs1)) -∗ K ⟨⟩))
      ⊢ wp frame (wpE (defs₀ (F := F)) Variants.none c none) E (cc0__stats_kernel i arg2 harg2 arg3 harg3 arg4 harg4 arg5 harg5 arg6 harg6) K := by
  iintro ⟨H0, HS0, HS1, Hk⟩
  iapply ((kernelRun0_B c i arg2 harg2 arg3 harg3 arg4 harg4 arg5 harg5 arg6 harg6 hc0 hc1 x0 xs0 xs1).2.2 E K)
  isplitl [H0]; · iexact H0
  isplitl [HS0]; · iexact HS0
  isplitl [HS1]; · iexact HS1
  iintro ⟨H0, ⟨%es0, HS0⟩, ⟨%es1, HS1⟩⟩
  iapply Hk
  isplitl [H0]; · iexact H0
  isplitl [HS0]
  · unfold owns; iexists _; isplitr
    swap; · iexact HS0
    ipureintro; exact (View.read_writes_eq_canon _ _ _ (coverB_0 c i arg2 harg2 arg3 harg3 arg4 harg4 arg5 harg5 arg6 harg6 hc0 hc1 x0 xs0 xs1)).trans (canonB_0 c i arg2 harg2 arg3 harg3 arg4 harg4 arg5 harg5 arg6 harg6 hc0 hc1 x0 xs0 xs1)
  unfold owns; iexists _; isplitr
  swap; · iexact HS1
  ipureintro; exact (View.read_writes_eq_canon _ _ _ (coverB_1 c i arg2 harg2 arg3 harg3 arg4 harg4 arg5 harg5 arg6 harg6 hc0 hc1 x0 xs0 xs1)).trans (canonB_1 c i arg2 harg2 arg3 harg3 arg4 harg4 arg5 harg5 arg6 harg6 hc0 hc1 x0 xs0 xs1)

end B

end Cert.KernelIdeal.Hand

end
-- ==== Proof.KernelIdeal.R0RunC.lean ====
/-
  The statistics kernel's body at a channel block's LAST row block (grid position ≡ 31 mod 32): the reset
  branch is not taken, the finishing branch is; each accumulator is loaded and stored once (what the position
  before left plus this block's sums), then loaded again, and the mean and the variance computed from the two
  are stored, transposed, over the whole of the two output buffers.
-/
import proofs.«145157_j33019708572224_1_alg».proof.Proof.KernelIdeal.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a position where only the finishing branch is taken, on whole memrefs — the input's at its block `x0`, the two
    outputs' at anything, the two accumulators at what the position before left (`xs0`, `xs1`) — the body runs to any
    continuation that holds the input's as it was and each output and each accumulator with its store written, as
    pieces that the run itself finds. -/
noncomputable def kernelRun0_C (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole)
    (hc0 : ¬cond0_0 i) (hc1 : cond0_1 i) (x0 : Vec F S8x64x8x256 .f32) (xs0 xs1 : Vec F S8x64 .f32) :
    Σ' (L1 : List (View.Piece (Elt F) S64x8 .f32)) (L2 : List (View.Piece (Elt F) S64x8 .f32))
       (LS0 : List (View.Piece (Elt F) S8x64 .f32)), { LS1 : List (View.Piece (Elt F) S8x64 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0
                  ∗ (∃ f, arg3.view.loc (c : Thread nD τ) ↦[arg3.view.set]{fullShare} arg3.view.writes (Elt F) f L1)
                  ∗ (∃ f, arg4.view.loc (c : Thread nD τ) ↦[arg4.view.set]{fullShare} arg4.view.writes (Elt F) f L2)
                  ∗ (∃ f, arg5.view.loc (c : Thread nD τ) ↦[arg5.view.set]{fullShare} arg5.view.writes (Elt F) f LS0)
                  ∗ (∃ f, arg6.view.loc (c : Thread nD τ) ↦[arg6.view.set]{fullShare} arg6.view.writes (Elt F) f LS1)) -∗ K ⟨⟩))
          ⊢ wp frame (wpE (defs₀ (F := F)) Variants.none c none) E (cc0__stats_kernel i arg2 harg2 arg3 harg3 arg4 harg4 arg5 harg5 arg6 harg6) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

/-! ## What the run's pieces read back as -/

section C
variable (c : Dev nD) (i : grid0.Coords)
    (arg2 : Memref sig .tc .vmem S8x64x8x256 .f32) (harg2 : arg2.IsWhole)
    (arg3 : Memref sig .tc .vmem S64x8 .f32) (harg3 : arg3.IsWhole)
    (arg4 : Memref sig .tc .vmem S64x8 .f32) (harg4 : arg4.IsWhole)
    (arg5 : Memref sig .tc .vmem S8x64 .f32) (harg5 : arg5.IsWhole)
    (arg6 : Memref sig .tc .vmem S8x64 .f32) (harg6 : arg6.IsWhole) (hc0 : ¬cond0_0 i) (hc1 : cond0_1 i) (x0 : Vec F S8x64x8x256 .f32) (xs0 xs1 : Vec F S8x64 .f32)

/-- Each output's and each accumulator's one piece covers it. -/
theorem coverC_o1 (y : S64x8.Idx) : ∃ pc ∈ (kernelRun0_C c i arg2 harg2 arg3 harg3 arg4 harg4 arg5 harg5 arg6 harg6 hc0 hc1 x0 xs0 xs1).1, y ∈ pc.1.set :=
  View.cover_of_tiledL (kernelRun0_C c i arg2 harg2 arg3 harg3 arg4 harg4 arg5 harg5 arg6 harg6 hc0 hc1 x0 xs0 xs1).1 S64x8.size (by sl_kernel_rfl) y
theorem coverC_o2 (y : S64x8.Idx) : ∃ pc ∈ (kernelRun0_C c i arg2 harg2 arg3 harg3 arg4 harg4 arg5 harg5 arg6 harg6 hc0 hc1 x0 xs0 xs1).2.1, y ∈ pc.1.set :=
  View.cover_of_tiledL (kernelRun0_C c i arg2 harg2 arg3 harg3 arg4 harg4 arg5 harg5 arg6 harg6 hc0 hc1 x0 xs0 xs1).2.1 S64x8.size (by sl_kernel_rfl) y
theorem coverC_0 (y : S8x64.Idx) : ∃ pc ∈ (kernelRun0_C c i arg2 harg2 arg3 harg3 arg4 harg4 arg5 harg5 arg6 harg6 hc0 hc1 x0 xs0 xs1).2.2.1, y ∈ pc.1.set :=
  View.cover_of_tiledL (kernelRun0_C c i arg2 harg2 arg3 harg3 arg4 harg4 arg5 harg5 arg6 harg6 hc0 hc1 x0 xs0 xs1).2.2.1 S8x64.size (by sl_kernel_rfl) y
theorem coverC_1 (y : S8x64.Idx) : ∃ pc ∈ (kernelRun0_C c i arg2 harg2 arg3 harg3 arg4 harg4 arg5 harg5 arg6 harg6 hc0 hc1 x0 xs0 xs1).2.2.2.1, y ∈ pc.1.set :=
  View.cover_of_tiledL (kernelRun0_C c i arg2 harg2 arg3 harg3 arg4 harg4 arg5 harg5 arg6 harg6 hc0 hc1 x0 xs0 xs1).2.2.2.1 S8x64.size (by sl_kernel_rfl) y

/-- The accumulators end as at a middle row block; -/
theorem canonC_0 : View.canon (kernelRun0_C c i arg2 harg2 arg3 harg3 arg4 harg4 arg5 harg5 arg6 harg6 hc0 hc1 x0 xs0 xs1).2.2.1 = k0_pay3 x0 xs0 := by
  unfold kernelRun0_C; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
theorem canonC_1 : View.canon (kernelRun0_C c i arg2 harg2 arg3 harg3 arg4 harg4 arg5 harg5 arg6 harg6 hc0 hc1 x0 xs0 xs1).2.2.2.1 = k0_pay4 x0 xs1 := by
  unfold kernelRun0_C; dsimp only; sl_unfold_words
  rw [View.canon_unit_zero (S := S8x64) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- the first output is the mean computed from the first accumulator as just stored (what the body loads back is what
    it stored), -/
theorem canonC_o1 : View.canon (kernelRun0_C c i arg2 harg2 arg3 harg3 arg4 harg4 arg5 harg5 arg6 harg6 hc0 hc1 x0 xs0 xs1).1 = k0_pay6 (k0_pay3 x0 xs0) := by
  unfold kernelRun0_C; dsimp only; sl_unfold_words
  rw [View.canon_unit_zero (S := S64x8) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]
/-- and the second the variance computed from both. -/
theorem canonC_o2 : View.canon (kernelRun0_C c i arg2 harg2 arg3 harg3 arg4 harg4 arg5 harg5 arg6 harg6 hc0 hc1 x0 xs0 xs1).2.1 = k0_pay7 (k0_pay3 x0 xs0) (k0_pay4 x0 xs1) := by
  unfold kernelRun0_C; dsimp only; sl_unfold_words
  rw [View.canon_unit_zero (S := S64x8) r0_hz2]
  simp only [View.readAt_eq_ld, harg2.read_unread, harg5.read_unread, harg6.read_unread, View.ld_unit_zero (S := S8x64x8x256) r0_hz4, View.ld_unit_zero (S := S8x64) r0_hz2, View.readCov_unit_zero (S := S8x64) _ r0_hz2]

include hc0 hc1 in
/-- The run with its results named. -/
theorem run0_C (E : Set ℕ) (K : PUnit → sProp 𝕄) :
    iprop(owns (c : Thread nD τ) arg2 fullShare x0 ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0
              ∗ owns (c : Thread nD τ) arg3 fullShare (k0_pay6 (k0_pay3 x0 xs0))
              ∗ owns (c : Thread nD τ) arg4 fullShare (k0_pay7 (k0_pay3 x0 xs0) (k0_pay4 x0 xs1))
              ∗ owns (c : Thread nD τ) arg5 fullShare (k0_pay3 x0 xs0)
              ∗ owns (c : Thread nD τ) arg6 fullShare (k0_pay4 x0 xs1)) -∗ K ⟨⟩))
      ⊢ wp frame (wpE (defs₀ (F := F)) Variants.none c none) E (cc0__stats_kernel i arg2 harg2 arg3 harg3 arg4 harg4 arg5 harg5 arg6 harg6) K := by
  iintro ⟨H0, H1, H2, HS0, HS1, Hk⟩
  iapply ((kernelRun0_C c i arg2 harg2 arg3 harg3 arg4 harg4 arg5 harg5 arg6 harg6 hc0 hc1 x0 xs0 xs1).2.2.2.2 E K)
  isplitl [H0]; · iexact H0
  isplitl [H1]; · iexact H1
  isplitl [H2]; · iexact H2
  isplitl [HS0]; · iexact HS0
  isplitl [HS1]; · iexact HS1
  iintro ⟨H0, ⟨%e1, H1⟩, ⟨%e2, H2⟩, ⟨%es0, HS0⟩, ⟨%es1, HS1⟩⟩
  iapply Hk
  isplitl [H0]; · iexact H0
  isplitl [H1]
  · unfold owns; iexists _; isplitr
    swap; · iexact H1
    ipureintro; exact (View.read_writes_eq_canon _ _ _ (coverC_o1 c i arg2 harg2 arg3 harg3 arg4 harg4 arg5 harg5 arg6 harg6 hc0 hc1 x0 xs0 xs1)).trans (canonC_o1 c i arg2 harg2 arg3 harg3 arg4 harg4 arg5 harg5 arg6 harg6 hc0 hc1 x0 xs0 xs1)
  isplitl [H2]
  · unfold owns; iexists _; isplitr
    swap; · iexact H2
    ipureintro; exact (View.read_writes_eq_canon _ _ _ (coverC_o2 c i arg2 harg2 arg3 harg3 arg4 harg4 arg5 harg5 arg6 harg6 hc0 hc1 x0 xs0 xs1)).trans (canonC_o2 c i arg2 harg2 arg3 harg3 arg4 harg4 arg5 harg5 arg6 harg6 hc0 hc1 x0 xs0 xs1)
  isplitl [HS0]
  · unfold owns; iexists _; isplitr
    swap; · iexact HS0
    ipureintro; exact (View.read_writes_eq_canon _ _ _ (coverC_0 c i arg2 harg2 arg3 harg3 arg4 harg4 arg5 harg5 arg6 harg6 hc0 hc1 x0 xs0 xs1)).trans (canonC_0 c i arg2 harg2 arg3 harg3 arg4 harg4 arg5 harg5 arg6 harg6 hc0 hc1 x0 xs0 xs1)
  unfold owns; iexists _; isplitr
  swap; · iexact HS1
  ipureintro; exact (View.read_writes_eq_canon _ _ _ (coverC_1 c i arg2 harg2 arg3 harg3 arg4 harg4 arg5 harg5 arg6 harg6 hc0 hc1 x0 xs0 xs1)).trans (canonC_1 c i arg2 harg2 arg3 harg3 arg4 harg4 arg5 harg5 arg6 harg6 hc0 hc1 x0 xs0 xs1)

end C

end Cert.KernelIdeal.Hand

end
-- ==== Proof.KernelIdeal.R0Body.lean ====
/-
  The body obligation of the first kernel region (the statistics pass), at any value instance.
  At a grid position the pipeline hands the body the input window's staging buffer at its block and the two
  outputs' buffers at whatever they held, and the invariant hands it the two scratch accumulators: at anything
  before the very first position, afterwards at what the position before left. By cases on the position modulo
  32 one of the three runs applies (a channel block's first row block resets the accumulators before adding;
  its last one also stores the mean and the variance over the two output buffers; off the last one the outputs
  are idle and handed back untouched), and each leaves the accumulators at exactly what the recursion
  `acc0` names for this position, which is the invariant before the next.
-/
import proofs.«145157_j33019708572224_1_alg».proof.Proof.KernelIdeal.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The obligation at a generic position -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any position. The input's buffer holds its block; the position modulo 32 says which run applies; the
    accumulators come from the invariant and go back to it at this position's `acc0`; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 128 := lt_of_lt_of_eq t.isLt (show cfg0.N = 128 from N_0)
  by_cases h1 : t.val % 32 = 31
  · -- a channel block's last row block: add, then store the mean and the variance
    have h0 : ¬t.val % 32 = 0 := by omega
    have hz : t.val ≠ 0 := by omega
    rw [show (dat0 V c).leavesExact 1 t = owns (c : Thread nD τ) (ms0_1 t) fullShare ((dat0 V c).after 1 t) from by
      unfold Dat.leavesExact; rw [liveAt0_1 t h1], after0_1]
    rw [show (dat0 V c).leavesExact 2 t = owns (c : Thread nD τ) (ms0_2 t) fullShare ((dat0 V c).after 2 t) from by
      unfold Dat.leavesExact; rw [liveAt0_2 t h1], after0_2]
    rw [acc0_step V c t h0]; dsimp only
    rw [PhiS_castSucc V c t, PhiS_pos V c _ _ hz]
    iintro ⟨⟨⟨HS0, HS1, Hoth⟩, Hg⟩, Ho, ⟨%d0, H0⟩, ⟨%d1, H1⟩, ⟨%d2, H2⟩⟩
    iapply (run0_C c (grid0.coords t) _ _ _ _ _ _ _ _ _ _ (fun h => h0 ((hcond0_0 t).mp h)) ((hcond0_1 t).mpr h1) (iblk0 V c 0 t) _ _ Set.univ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 Hoth Hg]
    · isplitl [HS0 HS1 Hoth]
      · isplitl [HS0]; · iexact HS0
        isplitl [HS1]; · iexact HS1
        iexact Hoth
      iexact Hg
    isplitl [Ho]; · iexact Ho
    isplitl [H0]; · iexact H0
    isplitl [H1]; · iexact H1
    iexact H2
  · rw [Dat.leavesExact_idle (dat0 V c) 1 t (idleAt0_1 t h1) (noFlush0_1 t h1)]
    rw [Dat.leavesExact_idle (dat0 V c) 2 t (idleAt0_2 t h1) (noFlush0_2 t h1)]
    by_cases h0 : t.val % 32 = 0
    · -- a channel block's first row block: reset, then add
      rw [acc0_reset V c t h0]; dsimp only
      by_cases hz : t.val = 0
      · rw [PhiS_castSucc V c t, PhiS_zero V c _ _ hz, PhiA0_eq]
        iintro ⟨⟨⟨HS0, HS1, Hoth⟩, Hg⟩, Ho, ⟨%d0, H0⟩, ⟨%d1, H1⟩, ⟨%d2, H2⟩⟩
        iapply (run0_A c (grid0.coords t) _ _ _ _ _ _ _ _ _ _ ((hcond0_0 t).mpr h0) (fun h => h1 ((hcond0_1 t).mp h)) (iblk0 V c 0 t) Set.univ _)
        isplitl [H0]; · iexact H0
        isplitl [HS0]; · iexact HS0
        isplitl [HS1]; · iexact HS1
        iintro ⟨H0, HS0, HS1⟩
        isplitl [HS0 HS1 Hoth Hg]
        · isplitl [HS0 HS1 Hoth]
          · isplitl [HS0]; · iexact HS0
            isplitl [HS1]; · iexact HS1
            iexact Hoth
          iexact Hg
        isplitl [Ho]; · iexact Ho
        isplitl [H0]; · iexact H0
        isplitl [H1]; · iexists _; iexact H1
        iexists _; iexact H2
      · rw [PhiS_castSucc V c t, PhiS_pos V c _ _ hz]
        iintro ⟨⟨⟨HS0, HS1, Hoth⟩, Hg⟩, Ho, ⟨%d0, H0⟩, ⟨%d1, H1⟩, ⟨%d2, H2⟩⟩
        iapply (run0_A c (grid0.coords t) _ _ _ _ _ _ _ _ _ _ ((hcond0_0 t).mpr h0) (fun h => h1 ((hcond0_1 t).mp h)) (iblk0 V c 0 t) Set.univ _)
        isplitl [H0]; · iexact H0
        isplitl [HS0]; · iexists _; iexact HS0
        isplitl [HS1]; · iexists _; iexact HS1
        iintro ⟨H0, HS0, HS1⟩
        isplitl [HS0 HS1 Hoth Hg]
        · isplitl [HS0 HS1 Hoth]
          · isplitl [HS0]; · iexact HS0
            isplitl [HS1]; · iexact HS1
            iexact Hoth
          iexact Hg
        isplitl [Ho]; · iexact Ho
        isplitl [H0]; · iexact H0
        isplitl [H1]; · iexists _; iexact H1
        iexists _; iexact H2
    · -- a middle row block: add
      have hz : t.val ≠ 0 := fun h => h0 (by rw [h])
      rw [acc0_step V c t h0]; dsimp only
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply (run0_B c (grid0.coords t) _ _ _ _ _ _ _ _ _ _ (fun h => h0 ((hcond0_0 t).mp h)) (fun h => h1 ((hcond0_1 t).mp h)) (iblk0 V c 0 t) _ _ Set.univ _)
      isplitl [H0]; · iexact H0
      isplitl [HS0]; · iexact HS0
      isplitl [HS1]; · iexact HS1
      iintro ⟨H0, HS0, HS1⟩
      isplitl [HS0 HS1 Hoth Hg]
      · isplitl [HS0 HS1 Hoth]
        · isplitl [HS0]; · iexact HS0
          isplitl [HS1]; · iexact HS1
          iexact Hoth
        iexact Hg
      isplitl [Ho]; · iexact Ho
      isplitl [H0]; · iexact H0
      isplitl [H1]; · iexists _; iexact H1
      iexists _; iexact H2

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## Entering and leaving the region -/

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any position but the first the invariant gives the class invariant back: what the accumulators hold is forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last position. -/
theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.Spec.lean ====
/-
  The instance-normalisation result as plain functions of the four argument arrays, over the extended reals.
  An activation tensor x[b, ch, h, w] (8 × 256 × 256 × 256) is normalised per sample b and channel ch over its
  256 × 256 spatial positions, then scaled and shifted by per-(b, ch) coefficients that are mixtures
  (mix[b, ch] = Σ_s weights[b, s] · table[s, ch], 16 styles) of two coefficient tables.
  Two arrangements of the same mathematics are written out:
  * the one-pass form: mean = S1 · 2⁻¹⁶ and variance = S2 · 2⁻¹⁶ − mean², from the plain sum S1 and the sum of
    squares S2, the output ((γ · (x − mean)) · rsqrt(variance + ε)) + β;
  * the two-pass form: mean = S1 / 65536, variance = (Σ (x − mean)²) / 65536, the output
    (γ · ((x − mean) · rsqrt(variance + ε))) + β.
  The constants stay bit patterns: 0x37800000 is 2⁻¹⁶, 0x47800000 is 65536, 0x3727C5AC is the ε both sides share.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The activation tensor's shape, the mixing weights' and a coefficient table's. -/
abbrev SX : Shape := ⟨4, ![8, 256, 256, 256]⟩
abbrev SW : Shape := ⟨2, ![8, 16]⟩
abbrev ST : Shape := ⟨2, ![16, 256]⟩

/-- 2⁻¹⁶, 65536 and ε as the bit patterns the programs spell. -/
def invN : EReal := Ideal.ofBits .f32 0x37800000#32
def bigN : EReal := Ideal.ofBits .f32 0x47800000#32
def eps : EReal := Ideal.ofBits .f32 0x3727C5AC#32

/-- The style mixture of a coefficient table: Σ_s weights[b, s] · table[s, ch]. -/
def mix (sw : SW.Idx → EReal) (tb : ST.Idx → EReal) (b : Fin 8) (ch : Fin 256) : EReal :=
  ∑ s : Fin 16, sw (ix2 b s) * tb (ix2 s ch)

/-- The sum of a (sample, channel) plane, and of its squares. -/
def sum1 (x : SX.Idx → EReal) (b : Fin 8) (ch : Fin 256) : EReal :=
  ∑ h : Fin 256, ∑ w : Fin 256, x (ix4 b ch h w)
def sum2 (x : SX.Idx → EReal) (b : Fin 8) (ch : Fin 256) : EReal :=
  ∑ h : Fin 256, ∑ w : Fin 256, x (ix4 b ch h w) * x (ix4 b ch h w)

/-! ## The one-pass form -/

def meanK (x : SX.Idx → EReal) (b : Fin 8) (ch : Fin 256) : EReal := sum1 x b ch * invN
def varK (x : SX.Idx → EReal) (b : Fin 8) (ch : Fin 256) : EReal :=
  sum2 x b ch * invN - meanK x b ch * meanK x b ch
def outKAt (x : SX.Idx → EReal) (sw : SW.Idx → EReal) (gam bet : ST.Idx → EReal)
    (b : Fin 8) (ch : Fin 256) (h w : Fin 256) : EReal :=
  mix sw gam b ch * (x (ix4 b ch h w) - meanK x b ch) * Ideal.rsqrt (varK x b ch + eps) + mix sw bet b ch
def outK (x : SX.Idx → EReal) (sw : SW.Idx → EReal) (gam bet : ST.Idx → EReal) : SX.Idx → EReal :=
  fun i => outKAt x sw gam bet (i 0) (i 1) (i 2) (i 3)

/-! ## The two-pass form -/

def meanR (x : SX.Idx → EReal) (b : Fin 8) (ch : Fin 256) : EReal := Ideal.div (sum1 x b ch) bigN
def varR (x : SX.Idx → EReal) (b : Fin 8) (ch : Fin 256) : EReal :=
  Ideal.div (∑ h : Fin 256, ∑ w : Fin 256,
    (x (ix4 b ch h w) - meanR x b ch) * (x (ix4 b ch h w) - meanR x b ch)) bigN
def outRAt (x : SX.Idx → EReal) (sw : SW.Idx → EReal) (gam bet : ST.Idx → EReal)
    (b : Fin 8) (ch : Fin 256) (h w : Fin 256) : EReal :=
  mix sw gam b ch * ((x (ix4 b ch h w) - meanR x b ch) * Ideal.rsqrt (varR x b ch + eps)) + mix sw bet b ch
def outR (x : SX.Idx → EReal) (sw : SW.Idx → EReal) (gam bet : ST.Idx → EReal) : SX.Idx → EReal :=
  fun i => outRAt x sw gam bet (i 0) (i 1) (i 2) (i 3)

end Cert.Spec

end
-- ==== Proof.KernelIdeal.Payloads.lean ====
/-
  The values the two kernel bodies store, read at an index, over the extended reals.
  * The statistics body starts its two running sums at 0, adds to each the plane sums of a block of the activation
    tensor (first over the 256 lanes, then over the 8 rows of the block: Σ_hb Σ_w x and Σ_hb Σ_w x·x), and at the last
    block scales them by 2⁻¹⁶: the mean S1·2⁻¹⁶ and the variance S2·2⁻¹⁶ − (S1·2⁻¹⁶)², stored transposed.
  * The normalisation body reads four per-(channel, sample) coefficients, transposes each and broadcasts it over a
    block: γ·(x − mean)·rsqrt(var + ε) + β.
  Layout operations (a shape cast to the same shape, a matrix transpose, a cast adding two trailing unit axes, a
  broadcast over those axes) each read the operand at one index; a sum over one axis is a sum over that axis's
  coordinates. The two constants 2⁻¹⁶ and ε stay bit patterns.
-/
import proofs.«145157_j33019708572224_1_alg».proof.Proof.Gen.KernelIdeal.Skeleton
import proofs.«145157_j33019708572224_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ## Layout operations at an index -/

/-- A block-shaped broadcast of an array with two trailing unit axes reads it at (b, cl, 0, 0). -/
theorem bcast_at {α : Type} (u : S8x64x1x1.Idx → α) (b : Fin 8) (cl : Fin 64) (hb : Fin 8) (w : Fin 256) :
    broadcastTo S8x64x8x256 u broadcasts_S8x64x1x1_S8x64x8x256 (ix4 b cl hb w) = u (ix4 b cl 0 0) :=
  broadcastTo_apply u broadcasts_S8x64x1x1_S8x64x8x256 (ix4 b cl hb w) (ix4 b cl 0 0) fun a =>
    match a with | ⟨0, _⟩ => rfl | ⟨1, _⟩ => rfl | ⟨2, _⟩ => rfl | ⟨3, _⟩ => rfl

/-- The cast that adds two trailing unit axes reads, at (b, cl, 0, 0), the matrix at (b, cl). -/
theorem cast11_at {α : Type} (t : S8x64.Idx → α) (b : Fin 8) (cl : Fin 64) :
    shapeCast S8x64x1x1 t shapeCasts_S8x64_S8x64x1x1 (ix4 b cl 0 0) = t (ix2 b cl) := by
  refine shapeCast_apply t shapeCasts_S8x64_S8x64x1x1 (ix4 b cl 0 0) (ix2 b cl) ?_
  rw [Shape.rowMajor_val_two, Shape.rowMajor_val_four]
  show b.val * 64 + cl.val = ((b.val * 64 + cl.val) * 1 + 0) * 1 + 0
  omega

/-- A per-(channel, sample) coefficient, cast, transposed, given two unit axes and broadcast over a block, reads the
    coefficient at (cl, b). -/
theorem coef_at {α : Type} (v : S64x8.Idx → α) (b : Fin 8) (cl : Fin 64) :
    shapeCast S8x64x1x1 (transpose S8x64 [1, 0] (shapeCast S64x8 v shapeCasts_S64x8_S64x8) transposes_S64x8_p1_0_S8x64)
        shapeCasts_S8x64_S8x64x1x1 (ix4 b cl 0 0) = v (ix2 cl b) := by
  refine (cast11_at _ b cl).trans ?_
  refine (transpose_ix2_apply _ transposes_S64x8_p1_0_S8x64 b cl).trans ?_
  exact congrFun (shapeCast_self v shapeCasts_S64x8_S64x8) (ix2 cl b)

/-! ## The two lane reductions of a block -/

/-- The sum over the lanes and then over the rows of a block, at (b, cl): the double sum over the block's plane. -/
theorem plane_sum_at (v : FVec Ideal S8x64x8x256 .f32) (b : Fin 8) (cl : Fin 64) :
    multiReduction (F := Ideal) .add [2] S8x64
        (multiReduction (F := Ideal) .add [3] S8x64x8 v 0x00000000#32 reduces_S8x64x8x256_S8x64x8 (.inl rfl) rfl)
        0x00000000#32 reduces_S8x64x8_S8x64 (.inl rfl) rfl (ix2 b cl)
      = ∑ hb : Fin 8, ∑ w : Fin 256, v (ix4 b cl hb w) := by
  refine (Ideal.multiReduction_add_single _ 0x00000000#32 reduces_S8x64x8_S8x64 (.inl rfl) rfl (ix2 b cl)).trans ?_
  refine Finset.sum_congr rfl fun hb _ => ?_
  refine (Ideal.multiReduction_add_single v 0x00000000#32 reduces_S8x64x8x256_S8x64x8 (.inl rfl) rfl _).trans ?_
  refine Finset.sum_congr rfl fun w _ => ?_
  exact congrArg v (funext fun a =>
    match a with | ⟨0, _⟩ => rfl | ⟨1, _⟩ => rfl | ⟨2, _⟩ => rfl | ⟨3, _⟩ => rfl)

/-! ## The statistics body -/

/-- The first running sum starts at 0. -/
theorem pay1_at (j : S8x64.Idx) : (k0_pay1 (F := Ideal)) j = 0 :=
  (congrFun (shapeCast_self (broadcast S8x64 (Scalar.ofBits (F := Ideal) .f32 0x00000000#32)) shapeCasts_S8x64_S8x64) j).trans
    Ideal.ofBits_zero_f32

/-- The second running sum starts at 0. -/
theorem pay2_at (j : S8x64.Idx) : (k0_pay2 (F := Ideal)) j = 0 :=
  (congrFun (shapeCast_self (broadcast S8x64 (Scalar.ofBits (F := Ideal) .f32 0x00000000#32)) shapeCasts_S8x64_S8x64) j).trans
    Ideal.ofBits_zero_f32

/-- A block adds its plane sum to the first running sum. -/
theorem pay3_at (x0 : Vec Ideal S8x64x8x256 .f32) (s : Vec Ideal S8x64 .f32) (b : Fin 8) (cl : Fin 64) :
    k0_pay3 x0 s (ix2 b cl) = s (ix2 b cl) + ∑ hb : Fin 8, ∑ w : Fin 256, x0 (ix4 b cl hb w) := by
  unfold k0_pay3
  refine (congrFun (shapeCast_self _ shapeCasts_S8x64_S8x64) (ix2 b cl)).trans ?_
  exact congrArg (fun r => s (ix2 b cl) + r) (plane_sum_at x0 b cl)

/-- A block adds the plane sum of its squares to the second running sum. -/
theorem pay4_at (x0 : Vec Ideal S8x64x8x256 .f32) (s : Vec Ideal S8x64 .f32) (b : Fin 8) (cl : Fin 64) :
    k0_pay4 x0 s (ix2 b cl) = s (ix2 b cl) + ∑ hb : Fin 8, ∑ w : Fin 256, x0 (ix4 b cl hb w) * x0 (ix4 b cl hb w) := by
  unfold k0_pay4
  refine (congrFun (shapeCast_self _ shapeCasts_S8x64_S8x64) (ix2 b cl)).trans ?_
  exact congrArg (fun r => s (ix2 b cl) + r) (plane_sum_at (mulf x0 x0) b cl)

/-- The mean, stored transposed: the first sum times 2⁻¹⁶. -/
theorem pay6_at (s5 : Vec Ideal S8x64 .f32) (cl : Fin 64) (b : Fin 8) :
    k0_pay6 s5 (ix2 cl b) = s5 (ix2 b cl) * Cert.Spec.invN :=
  (transpose_ix2_apply (k0_pay5 s5) transposes_S8x64_p1_0_S64x8 cl b).trans rfl

/-- The variance, stored transposed: the second sum times 2⁻¹⁶, minus the square of the mean. -/
theorem pay7_at (s5 s6 : Vec Ideal S8x64 .f32) (cl : Fin 64) (b : Fin 8) :
    k0_pay7 s5 s6 (ix2 cl b)
      = s6 (ix2 b cl) * Cert.Spec.invN - (s5 (ix2 b cl) * Cert.Spec.invN) * (s5 (ix2 b cl) * Cert.Spec.invN) := by
  unfold k0_pay7
  exact (transpose_ix2_apply _ transposes_S8x64_p1_0_S64x8 cl b).trans rfl

/-! ## The normalisation body -/

/-- The normalised, scaled and shifted block: γ·(x − mean)·rsqrt(var + ε) + β with the four coefficients read at
    (cl, b). -/
theorem pay1k_at (v0 v4 v8 v12 : Vec Ideal S64x8 .f32) (v16 : Vec Ideal S8x64x8x256 .f32)
    (b : Fin 8) (cl : Fin 64) (hb : Fin 8) (w : Fin 256) :
    k1_pay1 v0 v4 v8 v12 v16 (ix4 b cl hb w)
      = v8 (ix2 cl b) * (v16 (ix4 b cl hb w) - v0 (ix2 cl b)) * Ideal.rsqrt (v4 (ix2 cl b) + Cert.Spec.eps)
        + v12 (ix2 cl b) := by
  unfold k1_pay1
  show (broadcastTo S8x64x8x256 _ broadcasts_S8x64x1x1_S8x64x8x256 (ix4 b cl hb w)
        * (v16 (ix4 b cl hb w) - broadcastTo S8x64x8x256 _ broadcasts_S8x64x1x1_S8x64x8x256 (ix4 b cl hb w)))
        * broadcastTo S8x64x8x256 _ broadcasts_S8x64x1x1_S8x64x8x256 (ix4 b cl hb w)
      + broadcastTo S8x64x8x256 _ broadcasts_S8x64x1x1_S8x64x8x256 (ix4 b cl hb w) = _
  rw [bcast_at, bcast_at, bcast_at, bcast_at, coef_at, coef_at, coef_at]
  show v8 (ix2 cl b) * (v16 (ix4 b cl hb w) - v0 (ix2 cl b))
        * Ideal.rsqrt (shapeCast S8x64x1x1 _ shapeCasts_S8x64_S8x64x1x1 (ix4 b cl 0 0) + Cert.Spec.eps) + v12 (ix2 cl b) = _
  rw [coef_at]

end Cert.KernelIdeal.Hand

end
-- ==== Proof.KernelIdeal.HostVals.lean ====
/-
  What the host stretch leaves in the two transposed mixture arrays, read at an index, and that it leaves the
  activation tensor as launched.
  The stretch forms two products of the mixing weights [8, 16] with a coefficient table [16, 256] and transposes each
  to [256, 8]. Over the extended reals a product at (b, ch) is the sum over the 16 styles of
  weights[b, s] · table[s, ch] — the contraction index is its one coordinate —, and the transpose at (ch, b) reads the
  product at (b, ch): the style mixture of the table at sample b and channel ch.
-/
import proofs.«145157_j33019708572224_1_alg».proof.Proof.KernelIdeal.Run
import proofs.«145157_j33019708572224_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Idealize.ShloMosaic Idealize.ShloMosaic.ValueIdx Idealize.SL.Sem Cert.KernelIdeal Cert.KernelIdeal.Gen

/-! ## The product's operand indices, axis by axis -/

/-- The left operand's row is the output's row. -/
theorem lhs_mix_0 (i : S8x256.Idx) (q : dot_S8x16_S16x256_S8x256_1_0_0_1_n_n.contr.Idx) :
    (dot_S8x16_S16x256_S8x256_1_0_0_1_n_n.lhsIdx i q 0).val = (i 0).val := by
  unfold DotDims.lhsIdx
  rw [dif_neg (show ¬(0 : Fin S8x16.rank) ∈ dot_S8x16_S16x256_S8x256_1_0_0_1_n_n.lhsBatch by decide),
    dif_pos (show (0 : Fin S8x16.rank) ∈ dot_S8x16_S16x256_S8x256_1_0_0_1_n_n.lhsNonContracting by decide)]
  rfl

/-- The left operand's column is the contraction coordinate. -/
theorem lhs_mix_1 (i : S8x256.Idx) (q : dot_S8x16_S16x256_S8x256_1_0_0_1_n_n.contr.Idx) :
    (dot_S8x16_S16x256_S8x256_1_0_0_1_n_n.lhsIdx i q 1).val = (q ⟨0, by decide⟩).val :=
  dot_S8x16_S16x256_S8x256_1_0_0_1_n_n.lhsIdx_val_of_single rfl i q

/-- The right operand's row is the contraction coordinate. -/
theorem rhs_mix_0 (i : S8x256.Idx) (q : dot_S8x16_S16x256_S8x256_1_0_0_1_n_n.contr.Idx) :
    (dot_S8x16_S16x256_S8x256_1_0_0_1_n_n.rhsIdx i q 0).val = (q ⟨0, by decide⟩).val :=
  dot_S8x16_S16x256_S8x256_1_0_0_1_n_n.rhsIdx_val_of_single rfl i q

/-- The right operand's column is the output's column. -/
theorem rhs_mix_1 (i : S8x256.Idx) (q : dot_S8x16_S16x256_S8x256_1_0_0_1_n_n.contr.Idx) :
    (dot_S8x16_S16x256_S8x256_1_0_0_1_n_n.rhsIdx i q 1).val = (i 1).val := by
  unfold DotDims.rhsIdx
  rw [dif_neg (show ¬(1 : Fin S16x256.rank) ∈ dot_S8x16_S16x256_S8x256_1_0_0_1_n_n.rhsBatch by decide),
    dif_pos (show (1 : Fin S16x256.rank) ∈ dot_S8x16_S16x256_S8x256_1_0_0_1_n_n.rhsNonContracting by decide)]
  rfl

/-- The product of the weights with a table, at (b, ch): the sum over the styles. -/
theorem dot_at (l : FVec Ideal S8x16 .f32) (r : FVec Ideal S16x256 .f32) (b : Fin 8) (ch : Fin 256) :
    Host.dotGeneral (F := Ideal) dot_S8x16_S16x256_S8x256_1_0_0_1_n_n none l r (ix2 b ch)
      = ∑ s : Fin 16, l (ix2 b s) * r (ix2 s ch) := by
  simp only [Host.dotGeneral]
  rw [Ideal.dotGeneral_apply, ← Equiv.sum_comp (ValueIdx.contrEquiv1 dot_S8x16_S16x256_S8x256_1_0_0_1_n_n 16 rfl rfl).symm]
  refine Finset.sum_congr rfl fun k _ => ?_
  have hk := ValueIdx.contrEquiv1_symm_val dot_S8x16_S16x256_S8x256_1_0_0_1_n_n 16 rfl rfl k
  have el : dot_S8x16_S16x256_S8x256_1_0_0_1_n_n.lhsIdx (ix2 b ch)
      ((ValueIdx.contrEquiv1 dot_S8x16_S16x256_S8x256_1_0_0_1_n_n 16 rfl rfl).symm k) = ix2 b k :=
    funext fun a => Fin.ext (by
      match a with
      | ⟨0, _⟩ => exact lhs_mix_0 _ _
      | ⟨1, _⟩ => exact (lhs_mix_1 _ _).trans hk)
  have er : dot_S8x16_S16x256_S8x256_1_0_0_1_n_n.rhsIdx (ix2 b ch)
      ((ValueIdx.contrEquiv1 dot_S8x16_S16x256_S8x256_1_0_0_1_n_n 16 rfl rfl).symm k) = ix2 k ch :=
    funext fun a => Fin.ext (by
      match a with
      | ⟨0, _⟩ => exact (rhs_mix_0 _ _).trans hk
      | ⟨1, _⟩ => exact rhs_mix_1 _ _)
  rw [el, er]

/-! ## The arrays after the host stretch -/

variable (m : (ℓ : Loc nD τ sig) → Buf (Elt Ideal) ℓ)

/-- The transposed mixture of the scale table, at (ch, b). -/
theorem gmixT_at (c : Dev nD) (ch : Fin 256) (b : Fin 8) :
    (V1 m c main_v2 : S256x8.Idx → EReal) (ix2 ch b)
      = Cert.Spec.mix (m ((c.tc : Thread nD τ).loc main_arg1)) (m ((c.tc : Thread nD τ).loc main_arg2)) b ch := by
  have e : (V1 m c main_v2 : S256x8.Idx → EReal)
      = transpose S256x8 [1, 0]
          (Host.dotGeneral (F := Ideal) (φ₁ := .f32) (φ₂ := .f32) dot_S8x16_S16x256_S8x256_1_0_0_1_n_n none
            (m ((c.tc : Thread nD τ).loc main_arg1) : FVec Ideal S8x16 .f32)
            (m ((c.tc : Thread nD τ).loc main_arg2) : FVec Ideal S16x256 .f32))
          transposes_S8x256_S256x8_1_0 := by
    show StableHlo.after hostOps0 _ (Proc.devRef .tc main_v2) = _
    after_results
  refine (congrFun e (ix2 ch b)).trans ?_
  refine (transpose_ix2_apply _ transposes_S8x256_S256x8_1_0 ch b).trans ?_
  exact dot_at _ _ b ch

/-- The transposed mixture of the shift table, at (ch, b). -/
theorem bmixT_at (c : Dev nD) (ch : Fin 256) (b : Fin 8) :
    (V1 m c main_v3 : S256x8.Idx → EReal) (ix2 ch b)
      = Cert.Spec.mix (m ((c.tc : Thread nD τ).loc main_arg1)) (m ((c.tc : Thread nD τ).loc main_arg3)) b ch := by
  have e : (V1 m c main_v3 : S256x8.Idx → EReal)
      = transpose S256x8 [1, 0]
          (Host.dotGeneral (F := Ideal) (φ₁ := .f32) (φ₂ := .f32) dot_S8x16_S16x256_S8x256_1_0_0_1_n_n none
            (m ((c.tc : Thread nD τ).loc main_arg1) : FVec Ideal S8x16 .f32)
            (m ((c.tc : Thread nD τ).loc main_arg3) : FVec Ideal S16x256 .f32))
          transposes_S8x256_S256x8_1_0 := by
    show StableHlo.after hostOps0 _ (Proc.devRef .tc main_v3) = _
    after_results
  refine (congrFun e (ix2 ch b)).trans ?_
  refine (transpose_ix2_apply _ transposes_S8x256_S256x8_1_0 ch b).trans ?_
  exact dot_at _ _ b ch

/-- The host stretch does not write the activation tensor. -/
theorem V1_arg0 (c : Dev nD) : V1 m c main_arg0 = m ((c.tc : Thread nD τ).loc main_arg0) :=
  W1_of m c main_arg0 (by decide)

end Cert.KernelIdeal.Hand

end
-- ==== Proof.KernelIdeal.Value.lean ====
/-
  The kernel program's result array as one function of the four argument arrays: what the normalising region's
  write-backs leave. The region runs over 4 channel blocks × 32 row blocks (row axis fastest); at point `t` it reads the
  activation block of channels `64·(t / 32) …` and rows `8·(t % 32) …`, the four per-(channel, sample) coefficient
  blocks of the same channels, and writes the block of the same place in the result. Read index by index each written
  element is γ · (x − mean) · rsqrt(variance + ε) + β at its own sample and channel, so every point writes back its block
  of one whole-array function; the 128 blocks tile the array, hence the array ends holding that function.
-/
import proofs.«145157_j33019708572224_1_alg».proof.Proof.KernelIdeal.Run
import proofs.«145157_j33019708572224_1_alg».proof.Proof.Spec
import proofs.«145157_j33019708572224_1_alg».proof.Proof.KernelIdeal.Payloads
import proofs.«145157_j33019708572224_1_alg».proof.Proof.KernelIdeal.HostVals
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The index maps of the region's six windows -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The printed block-index maps of the normalising region, decided over its 128 grid points: the channel block is the
    point's quotient by 32, the row block its remainder; the sample and lane axes are never split. -/
theorem index1 : ∀ t : Fin cfg1.N,
    (win1_0.index t (0 : Fin 4) = 0 ∧ win1_0.index t (1 : Fin 4) = t.val / 32 ∧ win1_0.index t (2 : Fin 4) = t.val % 32 ∧ win1_0.index t (3 : Fin 4) = 0)
    ∧ (win1_1.index t (0 : Fin 2) = t.val / 32 ∧ win1_1.index t (1 : Fin 2) = 0)
    ∧ (win1_2.index t (0 : Fin 2) = t.val / 32 ∧ win1_2.index t (1 : Fin 2) = 0)
    ∧ (win1_3.index t (0 : Fin 2) = t.val / 32 ∧ win1_3.index t (1 : Fin 2) = 0)
    ∧ (win1_4.index t (0 : Fin 2) = t.val / 32 ∧ win1_4.index t (1 : Fin 2) = 0)
    ∧ (win1_5.index t (0 : Fin 4) = 0 ∧ win1_5.index t (1 : Fin 4) = t.val / 32 ∧ win1_5.index t (2 : Fin 4) = t.val % 32 ∧ win1_5.index t (3 : Fin 4) = 0) :=
  (by decide +kernel : ∀ t : Fin grid1.N, _)

theorem point_lt (t : Fin cfg1.N) : t.val < 128 := t.isLt

/-- The channel and the row of the array that point `t`'s block holds at its local channel `cl` and local row `hb`. -/
def chanOf (t : Fin cfg1.N) (cl : Fin 64) : Fin 256 := ⟨64 * (t.val / 32) + cl.val, by have := point_lt t; omega⟩
def rowOf (t : Fin cfg1.N) (hb : Fin 8) : Fin 256 := ⟨8 * (t.val % 32) + hb.val, by omega⟩

/-! ## The windows' blocks at a point, read at a local index

A block's coordinate in its array is always the block index times the block's extent plus the coordinate inside the block. -/

/-- The activation window's block at point `t`. -/
theorem read_win0 (X : S8x256x256x256.Idx → EReal) (t : Fin cfg1.N) (b : Fin 8) (cl : Fin 64) (hb : Fin 8) (w : Fin 256) :
    (((cfg1.win 0).blk t).view.read (Elt Ideal) X : S8x64x8x256.Idx → EReal) (ix4 b cl hb w) = X (ix4 b (chanOf t cl) (rowOf t hb) w) := by
  obtain ⟨⟨e0, e1, e2, e3⟩, -⟩ := index1 t
  rw [View.read_apply]
  show X _ = X _
  congr 1
  funext a
  apply Fin.ext
  match a with
  | ⟨0, _⟩ => show win1_0.index t (0 : Fin 4) * 8 + 1 * b.val = b.val; omega
  | ⟨1, _⟩ => show win1_0.index t (1 : Fin 4) * 64 + 1 * cl.val = 64 * (t.val / 32) + cl.val; omega
  | ⟨2, _⟩ => show win1_0.index t (2 : Fin 4) * 8 + 1 * hb.val = 8 * (t.val % 32) + hb.val; omega
  | ⟨3, _⟩ => show win1_0.index t (3 : Fin 4) * 256 + 1 * w.val = w.val; omega

/-- The result window's block at point `t` sits where the activation's does. -/
theorem read_win5 (X : S8x256x256x256.Idx → EReal) (t : Fin cfg1.N) (b : Fin 8) (cl : Fin 64) (hb : Fin 8) (w : Fin 256) :
    (((cfg1.win 5).blk t).view.read (Elt Ideal) X : S8x64x8x256.Idx → EReal) (ix4 b cl hb w) = X (ix4 b (chanOf t cl) (rowOf t hb) w) := by
  obtain ⟨-, -, -, -, -, e0, e1, e2, e3⟩ := index1 t
  rw [View.read_apply]
  show X _ = X _
  congr 1
  funext a
  apply Fin.ext
  match a with
  | ⟨0, _⟩ => show win1_5.index t (0 : Fin 4) * 8 + 1 * b.val = b.val; omega
  | ⟨1, _⟩ => show win1_5.index t (1 : Fin 4) * 64 + 1 * cl.val = 64 * (t.val / 32) + cl.val; omega
  | ⟨2, _⟩ => show win1_5.index t (2 : Fin 4) * 8 + 1 * hb.val = 8 * (t.val % 32) + hb.val; omega
  | ⟨3, _⟩ => show win1_5.index t (3 : Fin 4) * 256 + 1 * w.val = w.val; omega

/-- The four coefficient windows (mean, variance, scale mixture, shift mixture) move alike: channel block `t / 32`, all eight samples. -/
theorem read_win1 (Y : S256x8.Idx → EReal) (t : Fin cfg1.N) (cl : Fin 64) (b : Fin 8) :
    (((cfg1.win 1).blk t).view.read (Elt Ideal) Y : S64x8.Idx → EReal) (ix2 cl b) = Y (ix2 (chanOf t cl) b) := by
  obtain ⟨-, ⟨e0, e1⟩, -⟩ := index1 t
  rw [View.read_apply]
  show Y _ = Y _
  congr 1
  funext a
  apply Fin.ext
  match a with
  | ⟨0, _⟩ => show win1_1.index t (0 : Fin 2) * 64 + 1 * cl.val = 64 * (t.val / 32) + cl.val; omega
  | ⟨1, _⟩ => show win1_1.index t (1 : Fin 2) * 8 + 1 * b.val = b.val; omega

theorem read_win2 (Y : S256x8.Idx → EReal) (t : Fin cfg1.N) (cl : Fin 64) (b : Fin 8) :
    (((cfg1.win 2).blk t).view.read (Elt Ideal) Y : S64x8.Idx → EReal) (ix2 cl b) = Y (ix2 (chanOf t cl) b) := by
  obtain ⟨-, -, ⟨e0, e1⟩, -⟩ := index1 t
  rw [View.read_apply]
  show Y _ = Y _
  congr 1
  funext a
  apply Fin.ext
  match a with
  | ⟨0, _⟩ => show win1_2.index t (0 : Fin 2) * 64 + 1 * cl.val = 64 * (t.val / 32) + cl.val; omega
  | ⟨1, _⟩ => show win1_2.index t (1 : Fin 2) * 8 + 1 * b.val = b.val; omega

theorem read_win3 (Y : S256x8.Idx → EReal) (t : Fin cfg1.N) (cl : Fin 64) (b : Fin 8) :
    (((cfg1.win 3).blk t).view.read (Elt Ideal) Y : S64x8.Idx → EReal) (ix2 cl b) = Y (ix2 (chanOf t cl) b) := by
  obtain ⟨-, -, -, ⟨e0, e1⟩, -⟩ := index1 t
  rw [View.read_apply]
  show Y _ = Y _
  congr 1
  funext a
  apply Fin.ext
  match a with
  | ⟨0, _⟩ => show win1_3.index t (0 : Fin 2) * 64 + 1 * cl.val = 64 * (t.val / 32) + cl.val; omega
  | ⟨1, _⟩ => show win1_3.index t (1 : Fin 2) * 8 + 1 * b.val = b.val; omega

theorem read_win4 (Y : S256x8.Idx → EReal) (t : Fin cfg1.N) (cl : Fin 64) (b : Fin 8) :
    (((cfg1.win 4).blk t).view.read (Elt Ideal) Y : S64x8.Idx → EReal) (ix2 cl b) = Y (ix2 (chanOf t cl) b) := by
  obtain ⟨-, -, -, -, ⟨e0, e1⟩, -⟩ := index1 t
  rw [View.read_apply]
  show Y _ = Y _
  congr 1
  funext a
  apply Fin.ext
  match a with
  | ⟨0, _⟩ => show win1_4.index t (0 : Fin 2) * 64 + 1 * cl.val = 64 * (t.val / 32) + cl.val; omega
  | ⟨1, _⟩ => show win1_4.index t (1 : Fin 2) * 8 + 1 * b.val = b.val; omega

/-! ## What a point writes back -/

/-- The body's payload at one local index, once each of its five loaded blocks is known there. -/
theorem norm_at (v0 v4 v8 v12 : Vec Ideal S64x8 .f32) (v16 : Vec Ideal S8x64x8x256 .f32)
    (b : Fin 8) (cl : Fin 64) (hb : Fin 8) (w : Fin 256) (μ σ γ β ξ : EReal)
    (h0 : v0 (ix2 cl b) = μ) (h4 : v4 (ix2 cl b) = σ) (h8 : v8 (ix2 cl b) = γ) (h12 : v12 (ix2 cl b) = β)
    (h16 : v16 (ix4 b cl hb w) = ξ) :
    k1_pay1 v0 v4 v8 v12 v16 (ix4 b cl hb w) = γ * (ξ - μ) * Ideal.rsqrt (σ + Cert.Spec.eps) + β := by
  rw [pay1k_at, h0, h4, h8, h12, h16]

section Flushed

variable (c : Dev nD) (x : Cert.Spec.SX.Idx → EReal) (sw : Cert.Spec.SW.Idx → EReal) (gam bet : Cert.Spec.ST.Idx → EReal)
  (hx : (V2 m c main_arg0 : S8x256x256x256.Idx → EReal) = x)
  (hmean : ∀ (ch : Fin 256) (b : Fin 8), (V2 m c main_v4_0 : S256x8.Idx → EReal) (ix2 ch b) = Cert.Spec.meanK x b ch)
  (hvar : ∀ (ch : Fin 256) (b : Fin 8), (V2 m c main_v4_1 : S256x8.Idx → EReal) (ix2 ch b) = Cert.Spec.varK x b ch)
  (hgam : ∀ (ch : Fin 256) (b : Fin 8), (V2 m c main_v2 : S256x8.Idx → EReal) (ix2 ch b) = Cert.Spec.mix sw gam b ch)
  (hbet : ∀ (ch : Fin 256) (b : Fin 8), (V2 m c main_v3 : S256x8.Idx → EReal) (ix2 ch b) = Cert.Spec.mix sw bet b ch)

include hx hmean hvar hgam hbet in
/-- WHAT POINT `t` WRITES BACK is block `t` of the normalised tensor. -/
theorem flushed_of (t : Fin cfg1.N) :
    (dat1 (V2 m) c).flushed 5 t = ((cfg1.win 5).blk t).view.read (Elt Ideal) (Cert.Spec.outK x sw gam bet) := by
  show (cfg1.win 5).cut (grid1.coords t) ((dat1 (V2 m) c).after 5 t) = _
  rw [after1_5]
  unfold out1_5
  rw [View.canon_unit_zero zeros4]
  simp only [View.ld_unit_zero (S := S64x8) zeros2, View.ld_unit_zero (S := S8x64x8x256) zeros4]
  refine funext fun (j : S8x64x8x256.Idx) => ?_
  obtain ⟨b, cl, hb, w, rfl⟩ : ∃ b cl hb w, j = ix4 b cl hb w := ⟨j 0, j 1, j 2, j 3, eq_ix4 j⟩
  refine (norm_at (iblk1 (V2 m) c 1 t) (iblk1 (V2 m) c 2 t) (iblk1 (V2 m) c 3 t) (iblk1 (V2 m) c 4 t) (iblk1 (V2 m) c 0 t) b cl hb w
    (Cert.Spec.meanK x b (chanOf t cl)) (Cert.Spec.varK x b (chanOf t cl)) (Cert.Spec.mix sw gam b (chanOf t cl))
    (Cert.Spec.mix sw bet b (chanOf t cl)) (x (ix4 b (chanOf t cl) (rowOf t hb) w)) ?_ ?_ ?_ ?_ ?_).trans ?_
  · exact (read_win1 (V2 m c main_v4_0) t cl b).trans (hmean _ _)
  · exact (read_win2 (V2 m c main_v4_1) t cl b).trans (hvar _ _)
  · exact (read_win3 (V2 m c main_v2) t cl b).trans (hgam _ _)
  · exact (read_win4 (V2 m c main_v3) t cl b).trans (hbet _ _)
  · exact (read_win0 (V2 m c main_arg0) t b cl hb w).trans (congrFun hx _)
  · exact (read_win5 (Cert.Spec.outK x sw gam bet) t b cl hb w).symm

end Flushed

/-! ## The blocks tile the array -/

/-- An index of the result array is in point `t`'s block iff each coordinate is in the block's range on its axis. -/
theorem mem_blk5 (t : Fin cfg1.N) (i : S8x256x256x256.Idx) :
    i ∈ ((cfg1.win 5).blk t).view.set
      ↔ ∀ a : Fin 4, win1_5.index t a * S8x64x8x256.size a ≤ (i a).val ∧ (i a).val < win1_5.index t a * S8x64x8x256.size a + S8x64x8x256.size a := by
  show i ∈ ((View.whole main_v5).slice (win1_5.rect t)).set ↔ _
  rw [View.set_slice_whole, Rect.mem_set_unit]
  exact Iff.rfl

/-- Index (b, ch, h, w) lies in the block of the point with channel block `ch / 64` and row block `h / 8`, and every point writes back. -/
theorem cover5 (i : S8x256x256x256.Idx) :
    ∃ t : Fin cfg1.N, (cfg1.win 5).flush t = true ∧ i ∈ ((cfg1.win 5).blk t).view.set := by
  have h0 : (i 0).val < 8 := (i 0).isLt
  have h1 : (i 1).val < 256 := (i 1).isLt
  have h2 : (i 2).val < 256 := (i 2).isLt
  have h3 : (i 3).val < 256 := (i 3).isLt
  have ht : 32 * ((i 1).val / 64) + (i 2).val / 8 < 128 := by omega
  obtain ⟨-, -, -, -, -, e0, e1, e2, e3⟩ := index1 ⟨32 * ((i 1).val / 64) + (i 2).val / 8, ht⟩
  have tv : (⟨32 * ((i 1).val / 64) + (i 2).val / 8, ht⟩ : Fin cfg1.N).val = 32 * ((i 1).val / 64) + (i 2).val / 8 := rfl
  rw [tv] at e1 e2
  refine ⟨⟨32 * ((i 1).val / 64) + (i 2).val / 8, ht⟩, flush1_5 _, ?_⟩
  rw [mem_blk5]
  intro a
  match a with
  | ⟨0, _⟩ =>
    show win1_5.index ⟨32 * ((i 1).val / 64) + (i 2).val / 8, ht⟩ (0 : Fin 4) * 8 ≤ (i 0).val
      ∧ (i 0).val < win1_5.index ⟨32 * ((i 1).val / 64) + (i 2).val / 8, ht⟩ (0 : Fin 4) * 8 + 8
    omega
  | ⟨1, _⟩ =>
    show win1_5.index ⟨32 * ((i 1).val / 64) + (i 2).val / 8, ht⟩ (1 : Fin 4) * 64 ≤ (i 1).val
      ∧ (i 1).val < win1_5.index ⟨32 * ((i 1).val / 64) + (i 2).val / 8, ht⟩ (1 : Fin 4) * 64 + 64
    omega
  | ⟨2, _⟩ =>
    show win1_5.index ⟨32 * ((i 1).val / 64) + (i 2).val / 8, ht⟩ (2 : Fin 4) * 8 ≤ (i 2).val
      ∧ (i 2).val < win1_5.index ⟨32 * ((i 1).val / 64) + (i 2).val / 8, ht⟩ (2 : Fin 4) * 8 + 8
    omega
  | ⟨3, _⟩ =>
    show win1_5.index ⟨32 * ((i 1).val / 64) + (i 2).val / 8, ht⟩ (3 : Fin 4) * 256 ≤ (i 3).val
      ∧ (i 3).val < win1_5.index ⟨32 * ((i 1).val / 64) + (i 2).val / 8, ht⟩ (3 : Fin 4) * 256 + 256
    omega

section Result

variable (c : Dev nD) (x : Cert.Spec.SX.Idx → EReal) (sw : Cert.Spec.SW.Idx → EReal) (gam bet : Cert.Spec.ST.Idx → EReal)
  (hx : (V2 m c main_arg0 : S8x256x256x256.Idx → EReal) = x)
  (hmean : ∀ (ch : Fin 256) (b : Fin 8), (V2 m c main_v4_0 : S256x8.Idx → EReal) (ix2 ch b) = Cert.Spec.meanK x b ch)
  (hvar : ∀ (ch : Fin 256) (b : Fin 8), (V2 m c main_v4_1 : S256x8.Idx → EReal) (ix2 ch b) = Cert.Spec.varK x b ch)
  (hgam : ∀ (ch : Fin 256) (b : Fin 8), (V2 m c main_v2 : S256x8.Idx → EReal) (ix2 ch b) = Cert.Spec.mix sw gam b ch)
  (hbet : ∀ (ch : Fin 256) (b : Fin 8), (V2 m c main_v3 : S256x8.Idx → EReal) (ix2 ch b) = Cert.Spec.mix sw bet b ch)

include hx hmean hvar hgam hbet in
/-- THE RESULT ARRAY after the normalising region, whenever the region's five input arrays are the activation, its
    per-plane mean and variance (transposed) and the two style mixtures (transposed). -/
theorem result_of :
    ((dat1 (V2 m) c).arrAt 5 cfg1.N : S8x256x256x256.Idx → EReal) = Cert.Spec.outK x sw gam bet :=
  (dat1 (V2 m) c).arrAt_eq_of_cover 5 (Cert.Spec.outK x sw gam bet)
    (fun t _ => flushed_of m c x sw gam bet hx hmean hvar hgam hbet t) cover5

end Result

/-! ## The normalising region's entry contents -/

/-- The activation reaches the second region as launched: the host stretch does not write it and the first region only reads it. -/
theorem V2_arg0 (c : Dev nD) : V2 m c main_arg0 = m ((c.tc : Thread nD τ).loc main_arg0) :=
  calc W2 m c (Proc.devRef .tc main_arg0)
    _ = W1 m c (Proc.devRef .tc main_arg0) := (W2_arr m c 0).trans (((dat0 (V1 m) c).arrAt_in 0 rfl _).trans (A_eq0 (V1 m) c 0))
    _ = m ((c : Thread nD τ).loc main_arg0) := W1_of m c main_arg0 (by decide)

/-- The two transposed mixtures reach it as the host stretch left them: the first region has no window on them. -/
theorem V2_v2 (c : Dev nD) : V2 m c main_v2 = V1 m c main_v2 := W2_of_ne m c main_v2 (by decide)
theorem V2_v3 (c : Dev nD) : V2 m c main_v3 = V1 m c main_v3 := W2_of_ne m c main_v3 (by decide)

/-! ## The result array -/

/-- THE RESULT ARRAY is the normalised tensor of the four arguments, given that the statistics region left the
    transposed per-plane mean and variance of the activation in its two result arrays. -/
theorem result_eq (c : Dev nD)
    (hmean : ∀ (ch : Fin 256) (b : Fin 8),
      (V2 m c main_v4_0 : S256x8.Idx → EReal) (ix2 ch b) = Cert.Spec.meanK (m ((c.tc : Thread nD τ).loc main_arg0)) b ch)
    (hvar : ∀ (ch : Fin 256) (b : Fin 8),
      (V2 m c main_v4_1 : S256x8.Idx → EReal) (ix2 ch b) = Cert.Spec.varK (m ((c.tc : Thread nD τ).loc main_arg0)) b ch) :
    ((dat1 (V2 m) c).arrAt 5 cfg1.N : S8x256x256x256.Idx → EReal)
      = Cert.Spec.outK (m ((c.tc : Thread nD τ).loc main_arg0)) (m ((c.tc : Thread nD τ).loc main_arg1))
          (m ((c.tc : Thread nD τ).loc main_arg2)) (m ((c.tc : Thread nD τ).loc main_arg3)) :=
  result_of m c (m ((c.tc : Thread nD τ).loc main_arg0)) (m ((c.tc : Thread nD τ).loc main_arg1))
    (m ((c.tc : Thread nD τ).loc main_arg2)) (m ((c.tc : Thread nD τ).loc main_arg3))
    (V2_arg0 m c) hmean hvar
    (fun ch b => (congrFun (V2_v2 m c) (ix2 ch b)).trans (gmixT_at m c ch b))
    (fun ch b => (congrFun (V2_v3 m c) (ix2 ch b)).trans (bmixT_at m c ch b))

end Cert.KernelIdeal.Hand

end
-- ==== Proof.KernelIdeal.Stats1.lean ====
/-
  The statistics pass, first half: what its two running sums hold when a channel block's last row block has been
  added. The grid's point t works on channel block t / 32 and row block t % 32; the block it loads holds, at
  (b, cl, hb, w), the activation x[b, 64·(t / 32) + cl, 8·(t % 32) + hb, w]. Each point adds to the first running sum, at
  (b, cl), the sum of its block over hb and w, and to the second the sum of the squares; both start from 0 at a
  channel block's first row block. So after the 32 row blocks of channel block q they hold, at (b, cl),
  Σ_{s < 32} Σ_{hb < 8} Σ_w x[b, 64 q + cl, 8 s + hb, w] and the same sum of squares: grouping the 256 rows as
  32 × 8, the sum of the whole (b, 64 q + cl) plane and of its squares.
-/
import proofs.«145157_j33019708572224_1_alg».proof.Proof.KernelIdeal.Run
import proofs.«145157_j33019708572224_1_alg».proof.Proof.KernelIdeal.Payloads
import proofs.«145157_j33019708572224_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

namespace Stats

/-! ## The block a point loads -/

/-- The three windows' block indices at point t: the input's is (0, t / 32, t % 32, 0), each output's (t / 32, 0). -/
theorem idx0 : ∀ t : Fin cfg0.N,
    win0_0.index t (0 : Fin 4) = 0 ∧ win0_0.index t (1 : Fin 4) = t.val / 32
    ∧ win0_0.index t (2 : Fin 4) = t.val % 32 ∧ win0_0.index t (3 : Fin 4) = 0
    ∧ win0_1.index t (0 : Fin 2) = t.val / 32 ∧ win0_1.index t (1 : Fin 2) = 0
    ∧ win0_2.index t (0 : Fin 2) = t.val / 32 ∧ win0_2.index t (1 : Fin 2) = 0 :=
  (by decide +kernel : ∀ t : Fin grid0.N, _)

/-- The activation tensor read at natural-number channel and row coordinates; 0 outside the array (never read there). -/
def xat (x : Cert.Spec.SX.Idx → EReal) (b : Fin 8) (ch h : ℕ) (w : Fin 256) : EReal :=
  if hh : ch < 256 ∧ h < 256 then x (ix4 b ⟨ch, hh.1⟩ ⟨h, hh.2⟩ w) else 0

/-- The statistics pass finds the activation tensor as launched: the host operations before it write elsewhere. -/
theorem V1_x (c : Dev nD) : V1 m c main_arg0 = m ((c.tc : Thread nD τ).loc main_arg0) :=
  W1_of m c main_arg0 (by decide)

/-- The block loaded at point t holds, at (b, cl, hb, w), x[b, 64·(t / 32) + cl, 8·(t % 32) + hb, w]. -/
theorem xblk_at (c : Dev nD) (t : Fin cfg0.N) (b : Fin 8) (cl : Fin 64) (hb : Fin 8) (w : Fin 256) :
    (iblk0 (V1 m) c 0 t : Vec Ideal S8x64x8x256 .f32) (ix4 b cl hb w)
      = xat (m ((c.tc : Thread nD τ).loc main_arg0)) b (64 * (t.val / 32) + cl.val) (8 * (t.val % 32) + hb.val) w := by
  obtain ⟨e0, e1, e2, e3, -⟩ := idx0 t
  have ht : t.val < 128 := N_0 ▸ t.isLt
  have hcl : cl.val < 64 := cl.isLt
  have hhb : hb.val < 8 := hb.isLt
  unfold iblk0
  rw [View.read_apply]
  show V1 m c main_arg0 (((cfg0.win 0).blk t).view.emb (ix4 b cl hb w)) = _
  rw [V1_x]
  unfold xat
  rw [dif_pos (show 64 * (t.val / 32) + cl.val < 256 ∧ 8 * (t.val % 32) + hb.val < 256 from ⟨by omega, by omega⟩)]
  refine congrArg (m ((c.tc : Thread nD τ).loc main_arg0)) (funext fun a => Fin.ext ?_)
  match a with
  | ⟨0, _⟩ => show win0_0.index t (0 : Fin 4) * 8 + 1 * b.val = b.val; rw [e0]; omega
  | ⟨1, _⟩ => show win0_0.index t (1 : Fin 4) * 64 + 1 * cl.val = 64 * (t.val / 32) + cl.val; rw [e1]; omega
  | ⟨2, _⟩ => show win0_0.index t (2 : Fin 4) * 8 + 1 * hb.val = 8 * (t.val % 32) + hb.val; rw [e2]; omega
  | ⟨3, _⟩ => show win0_0.index t (3 : Fin 4) * 256 + 1 * w.val = w.val; rw [e3]; omega

/-! ## One point's addends -/

/-- What point n adds to the first running sum at i = (b, cl): its block's sum over the 8 rows and 256 lanes. -/
def add1 (x : Cert.Spec.SX.Idx → EReal) (n : ℕ) (i : S8x64.Idx) : EReal :=
  ∑ hb : Fin 8, ∑ w : Fin 256, xat x (i 0) (64 * (n / 32) + (i 1).val) (8 * (n % 32) + hb.val) w

/-- What point n adds to the second running sum at i = (b, cl): the same sum of the squares. -/
def add2 (x : Cert.Spec.SX.Idx → EReal) (n : ℕ) (i : S8x64.Idx) : EReal :=
  ∑ hb : Fin 8, ∑ w : Fin 256, xat x (i 0) (64 * (n / 32) + (i 1).val) (8 * (n % 32) + hb.val) w
    * xat x (i 0) (64 * (n / 32) + (i 1).val) (8 * (n % 32) + hb.val) w

/-- The first running sum after point n is what it held before plus point n's addend. -/
theorem step1 (c : Dev nD) (n : ℕ) (h : n < cfg0.N) (acc : Vec Ideal S8x64 .f32) (i : S8x64.Idx) :
    k0_pay3 (xblk0 (V1 m) c n h) acc i = acc i + add1 (m ((c.tc : Thread nD τ).loc main_arg0)) n i := by
  obtain ⟨b, cl, rfl⟩ : ∃ (b : Fin 8) (cl : Fin 64), i = ix2 b cl := ⟨i 0, i 1, eq_ix2 i⟩
  refine (pay3_at (xblk0 (V1 m) c n h) acc b cl).trans ?_
  refine congrArg (fun r => acc (ix2 b cl) + r) ?_
  show _ = ∑ hb : Fin 8, ∑ w : Fin 256, xat (m ((c.tc : Thread nD τ).loc main_arg0)) b (64 * (n / 32) + cl.val) (8 * (n % 32) + hb.val) w
  exact Finset.sum_congr rfl fun hb _ => Finset.sum_congr rfl fun w _ => xblk_at m c ⟨n, h⟩ b cl hb w

/-- The second running sum likewise. -/
theorem step2 (c : Dev nD) (n : ℕ) (h : n < cfg0.N) (acc : Vec Ideal S8x64 .f32) (i : S8x64.Idx) :
    k0_pay4 (xblk0 (V1 m) c n h) acc i = acc i + add2 (m ((c.tc : Thread nD τ).loc main_arg0)) n i := by
  obtain ⟨b, cl, rfl⟩ : ∃ (b : Fin 8) (cl : Fin 64), i = ix2 b cl := ⟨i 0, i 1, eq_ix2 i⟩
  refine (pay4_at (xblk0 (V1 m) c n h) acc b cl).trans ?_
  refine congrArg (fun r => acc (ix2 b cl) + r) ?_
  show _ = ∑ hb : Fin 8, ∑ w : Fin 256, xat (m ((c.tc : Thread nD τ).loc main_arg0)) b (64 * (n / 32) + cl.val) (8 * (n % 32) + hb.val) w
    * xat (m ((c.tc : Thread nD τ).loc main_arg0)) b (64 * (n / 32) + cl.val) (8 * (n % 32) + hb.val) w
  exact Finset.sum_congr rfl fun hb _ => Finset.sum_congr rfl fun w _ =>
    congrArg₂ (fun p q : EReal => p * q) (xblk_at m c ⟨n, h⟩ b cl hb w) (xblk_at m c ⟨n, h⟩ b cl hb w)

/-! ## The running sums after a channel block's 32 row blocks -/

/-- After the last row block of channel block q the first running sum is 0 plus the 32 points' addends. -/
theorem acc1_run (c : Dev nD) (q : ℕ) (h : 32 * q + 31 < cfg0.N) (i : S8x64.Idx) :
    (acc0 (V1 m) c (32 * q + 31) h).1 i
      = 0 + ∑ s ∈ Finset.range 32, add1 (m ((c.tc : Thread nD τ).loc main_arg0)) (32 * q + s) i := by
  rw [Pipeline.eq_accAt (fun n h => (acc0 (V1 m) c n h).1) 32
    (fun n h => k0_pay3 (xblk0 (V1 m) c n h) (k0_pay1 (F := Ideal)))
    (fun n h acc => k0_pay3 (xblk0 (V1 m) c n h) acc)
    (fun n h h0 => congrArg Prod.fst (acc0_reset (V1 m) c ⟨n, h⟩ h0))
    (fun n h hs => congrArg Prod.fst (acc0_step (V1 m) c ⟨n + 1, h⟩ hs))
    q 31 (by decide) h]
  exact Pipeline.accAt_add_apply _ _ (fun _ => (0 : EReal)) (add1 (m ((c.tc : Thread nD τ).loc main_arg0))) (32 * q) 31
    (fun h i => (step1 m c (32 * q) h _ i).trans (congrArg (· + add1 (m ((c.tc : Thread nD τ).loc main_arg0)) (32 * q) i) (pay1_at i)))
    (fun n h acc i _ _ => step1 m c n h acc i) 31 le_rfl h i

/-- The second likewise. -/
theorem acc2_run (c : Dev nD) (q : ℕ) (h : 32 * q + 31 < cfg0.N) (i : S8x64.Idx) :
    (acc0 (V1 m) c (32 * q + 31) h).2 i
      = 0 + ∑ s ∈ Finset.range 32, add2 (m ((c.tc : Thread nD τ).loc main_arg0)) (32 * q + s) i := by
  rw [Pipeline.eq_accAt (fun n h => (acc0 (V1 m) c n h).2) 32
    (fun n h => k0_pay4 (xblk0 (V1 m) c n h) (k0_pay2 (F := Ideal)))
    (fun n h acc => k0_pay4 (xblk0 (V1 m) c n h) acc)
    (fun n h h0 => congrArg Prod.snd (acc0_reset (V1 m) c ⟨n, h⟩ h0))
    (fun n h hs => congrArg Prod.snd (acc0_step (V1 m) c ⟨n + 1, h⟩ hs))
    q 31 (by decide) h]
  exact Pipeline.accAt_add_apply _ _ (fun _ => (0 : EReal)) (add2 (m ((c.tc : Thread nD τ).loc main_arg0))) (32 * q) 31
    (fun h i => (step2 m c (32 * q) h _ i).trans (congrArg (· + add2 (m ((c.tc : Thread nD τ).loc main_arg0)) (32 * q) i) (pay2_at i)))
    (fun n h acc i _ _ => step2 m c n h acc i) 31 le_rfl h i

/-! ## The 32 × 8 rows are the 256 rows -/

/-- A sum over the 256 rows taken as 32 groups of 8. -/
theorem sum_rows (R : Fin 256 → EReal) :
    ∑ h : Fin 256, R h = ∑ s : Fin 32, ∑ hb : Fin 8, R ⟨8 * s.val + hb.val, by have := s.isLt; have := hb.isLt; omega⟩ := by
  rw [← Equiv.sum_comp (finProdFinEquiv : Fin 32 × Fin 8 ≃ Fin 256) R, Fintype.sum_prod_type]
  refine Finset.sum_congr rfl fun s _ => Finset.sum_congr rfl fun hb _ => congrArg R (Fin.ext ?_)
  show hb.val + 8 * s.val = 8 * s.val + hb.val
  omega

/-- Point 32 q + s of channel block q reads, at row hb of its block, row 8 s + hb of channel 64 q + cl. -/
theorem xat_row (x : Cert.Spec.SX.Idx → EReal) (q : ℕ) (hq : q < 4) (b : Fin 8) (cl : Fin 64) (s : Fin 32) (hb : Fin 8) (w : Fin 256) :
    xat x b (64 * ((32 * q + s.val) / 32) + cl.val) (8 * ((32 * q + s.val) % 32) + hb.val) w
      = x (ix4 b ⟨64 * q + cl.val, by have := cl.isLt; omega⟩ ⟨8 * s.val + hb.val, by have := s.isLt; have := hb.isLt; omega⟩ w) := by
  have hcl : cl.val < 64 := cl.isLt
  have hs : s.val < 32 := s.isLt
  have hhb : hb.val < 8 := hb.isLt
  unfold xat
  rw [dif_pos (show 64 * ((32 * q + s.val) / 32) + cl.val < 256 ∧ 8 * ((32 * q + s.val) % 32) + hb.val < 256 from ⟨by omega, by omega⟩)]
  refine congrArg x (funext fun a => ?_)
  match a with
  | ⟨0, _⟩ => rfl
  | ⟨1, _⟩ => exact Fin.ext (show 64 * ((32 * q + s.val) / 32) + cl.val = 64 * q + cl.val by omega)
  | ⟨2, _⟩ => exact Fin.ext (show 8 * ((32 * q + s.val) % 32) + hb.val = 8 * s.val + hb.val by omega)
  | ⟨3, _⟩ => rfl

/-- The 32 points' addends to the first running sum are the sum of the whole (b, 64 q + cl) plane. -/
theorem sum1_of (x : Cert.Spec.SX.Idx → EReal) (q : ℕ) (hq : q < 4) (b : Fin 8) (cl : Fin 64) :
    ∑ s ∈ Finset.range 32, add1 x (32 * q + s) (ix2 b cl)
      = Cert.Spec.sum1 x b ⟨64 * q + cl.val, by have := cl.isLt; omega⟩ := by
  unfold Cert.Spec.sum1
  rw [sum_rows, Finset.sum_range]
  refine Finset.sum_congr rfl fun s _ => ?_
  show ∑ hb : Fin 8, ∑ w : Fin 256, xat x b (64 * ((32 * q + s.val) / 32) + cl.val) (8 * ((32 * q + s.val) % 32) + hb.val) w = _
  exact Finset.sum_congr rfl fun hb _ => Finset.sum_congr rfl fun w _ => xat_row x q hq b cl s hb w

/-- The 32 points' addends to the second are the sum of the plane's squares. -/
theorem sum2_of (x : Cert.Spec.SX.Idx → EReal) (q : ℕ) (hq : q < 4) (b : Fin 8) (cl : Fin 64) :
    ∑ s ∈ Finset.range 32, add2 x (32 * q + s) (ix2 b cl)
      = Cert.Spec.sum2 x b ⟨64 * q + cl.val, by have := cl.isLt; omega⟩ := by
  unfold Cert.Spec.sum2
  rw [sum_rows, Finset.sum_range]
  refine Finset.sum_congr rfl fun s _ => ?_
  show ∑ hb : Fin 8, ∑ w : Fin 256, xat x b (64 * ((32 * q + s.val) / 32) + cl.val) (8 * ((32 * q + s.val) % 32) + hb.val) w
    * xat x b (64 * ((32 * q + s.val) / 32) + cl.val) (8 * ((32 * q + s.val) % 32) + hb.val) w = _
  exact Finset.sum_congr rfl fun hb _ => Finset.sum_congr rfl fun w _ =>
    congrArg₂ (fun p r : EReal => p * r) (xat_row x q hq b cl s hb w) (xat_row x q hq b cl s hb w)

/-- At a channel block's last row block the two running sums hold, at (b, cl), the sum and the sum of squares of the
    (b, 64·(t / 32) + cl) plane. -/
theorem acc_at (c : Dev nD) (t : Fin cfg0.N) (h31 : t.val % 32 = 31) (b : Fin 8) (cl : Fin 64) :
    (acc0 (V1 m) c t.val t.isLt).1 (ix2 b cl)
        = Cert.Spec.sum1 (m ((c.tc : Thread nD τ).loc main_arg0)) b ⟨64 * (t.val / 32) + cl.val, by have := cl.isLt; have : t.val < 128 := N_0 ▸ t.isLt; omega⟩
    ∧ (acc0 (V1 m) c t.val t.isLt).2 (ix2 b cl)
        = Cert.Spec.sum2 (m ((c.tc : Thread nD τ).loc main_arg0)) b ⟨64 * (t.val / 32) + cl.val, by have := cl.isLt; have : t.val < 128 := N_0 ▸ t.isLt; omega⟩ := by
  have ht : t.val < 128 := N_0 ▸ t.isLt
  have hlt : 32 * (t.val / 32) + 31 < cfg0.N := (by omega : 32 * (t.val / 32) + 31 < 128).trans_eq N_0.symm
  have key : ∀ (u : ℕ) (hu : u < cfg0.N), u = t.val → acc0 (V1 m) c u hu = acc0 (V1 m) c t.val t.isLt :=
    fun u hu e => by subst e; rfl
  rw [← key (32 * (t.val / 32) + 31) hlt (by omega)]
  constructor
  · rw [acc1_run m c (t.val / 32) hlt (ix2 b cl), zero_add]
    exact sum1_of _ (t.val / 32) (by omega) b cl
  · rw [acc2_run m c (t.val / 32) hlt (ix2 b cl), zero_add]
    exact sum2_of _ (t.val / 32) (by omega) b cl

end Stats

/-- THE FIRST RUNNING SUM at a channel block's last row block: the plane sums of the block's channels. -/
theorem acc1_last (c : Dev nD) (t : Fin cfg0.N) (ht : t.val % 32 = 31) (b : Fin 8) (cl : Fin 64) :
    (acc0 (V1 m) c t.val t.isLt).1 (ix2 b cl)
      = Cert.Spec.sum1 (m ((c.tc : Thread nD τ).loc main_arg0)) b
          ⟨64 * (t.val / 32) + cl.val, by have := cl.isLt; have : t.val < 128 := N_0 ▸ t.isLt; omega⟩ :=
  (Stats.acc_at m c t ht b cl).1

/-- THE SECOND RUNNING SUM there: the plane sums of squares. -/
theorem acc2_last (c : Dev nD) (t : Fin cfg0.N) (ht : t.val % 32 = 31) (b : Fin 8) (cl : Fin 64) :
    (acc0 (V1 m) c t.val t.isLt).2 (ix2 b cl)
      = Cert.Spec.sum2 (m ((c.tc : Thread nD τ).loc main_arg0)) b
          ⟨64 * (t.val / 32) + cl.val, by have := cl.isLt; have : t.val < 128 := N_0 ▸ t.isLt; omega⟩ :=
  (Stats.acc_at m c t ht b cl).2

end Cert.KernelIdeal.Hand

end
-- ==== Proof.KernelIdeal.Stats.lean ====
/-
  The statistics pass, second half: its two output arrays. The pass writes an output block back only after a channel
  block's last row block; what it writes at (cl, b) is, for the first output, the first running sum at (b, cl) times
  2⁻¹⁶ — the mean of the (b, 64 q + cl) plane — and for the second the second running sum times 2⁻¹⁶ minus the square of
  that mean — the plane's variance. Block q of a [256, 8] output covers channels 64 q … 64 q + 63, so the four
  write-backs tile the array and it ends holding, at (ch, b), the mean (the variance) of plane (b, ch).
-/
import proofs.«145157_j33019708572224_1_alg».proof.Proof.KernelIdeal.Stats1

set_option maxRecDepth 16384

noncomputable section

namespace Cert.KernelIdeal.Hand

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

namespace Stats

/-- The mean and the variance of every (channel, sample) plane, as arrays indexed channel first. -/
def Gmean (x : Cert.Spec.SX.Idx → EReal) : S256x8.Idx → EReal := fun i => Cert.Spec.meanK x (i 1) (i 0)
def Gvar (x : Cert.Spec.SX.Idx → EReal) : S256x8.Idx → EReal := fun i => Cert.Spec.varK x (i 1) (i 0)

/-! ## What a write-back writes -/

/-- Element (cl, b) of the block written back at point t sits at (64·(t / 32) + cl, b) of the first output; -/
theorem emb1 (t : Fin cfg0.N) (cl : Fin 64) (b : Fin 8) :
    (((cfg0.win 1).blk t).view.emb (ix2 cl b) : S256x8.Idx)
      = ix2 ⟨64 * (t.val / 32) + cl.val, by have := cl.isLt; have : t.val < 128 := N_0 ▸ t.isLt; omega⟩ b := by
  obtain ⟨-, -, -, -, e4, e5, -⟩ := idx0 t
  refine funext fun a => Fin.ext ?_
  match a with
  | ⟨0, _⟩ => show win0_1.index t (0 : Fin 2) * 64 + 1 * cl.val = 64 * (t.val / 32) + cl.val; rw [e4]; omega
  | ⟨1, _⟩ => show win0_1.index t (1 : Fin 2) * 8 + 1 * b.val = b.val; rw [e5]; omega

/-- and of the second. -/
theorem emb2 (t : Fin cfg0.N) (cl : Fin 64) (b : Fin 8) :
    (((cfg0.win 2).blk t).view.emb (ix2 cl b) : S256x8.Idx)
      = ix2 ⟨64 * (t.val / 32) + cl.val, by have := cl.isLt; have : t.val < 128 := N_0 ▸ t.isLt; omega⟩ b := by
  obtain ⟨-, -, -, -, -, -, e6, e7⟩ := idx0 t
  refine funext fun a => Fin.ext ?_
  match a with
  | ⟨0, _⟩ => show win0_2.index t (0 : Fin 2) * 64 + 1 * cl.val = 64 * (t.val / 32) + cl.val; rw [e6]; omega
  | ⟨1, _⟩ => show win0_2.index t (1 : Fin 2) * 8 + 1 * b.val = b.val; rw [e7]; omega

/-- What a channel block's last row block writes back to the first output is its block of the means. -/
theorem flushed1_eq (c : Dev nD) (t : Fin cfg0.N) (hf : (cfg0.win 1).flush t = true) :
    (dat0 (V1 m) c).flushed 1 t = ((cfg0.win 1).blk t).view.read (Elt Ideal) (Gmean (m ((c.tc : Thread nD τ).loc main_arg0))) := by
  have h31 : t.val % 32 = 31 := (flush0_1 t).mp hf
  show (cfg0.win 1).cut (grid0.coords t) ((dat0 (V1 m) c).after 1 t) = _
  rw [after0_1]
  funext j
  rw [View.read_apply]
  obtain ⟨cl, b, rfl⟩ : ∃ (cl : Fin 64) (b : Fin 8), j = ix2 cl b := ⟨j 0, j 1, eq_ix2 j⟩
  show k0_pay6 (acc0 (V1 m) c t.val t.isLt).1 (ix2 cl b)
    = Gmean (m ((c.tc : Thread nD τ).loc main_arg0)) (((cfg0.win 1).blk t).view.emb (ix2 cl b))
  rw [emb1 t cl b]
  refine (pay6_at (acc0 (V1 m) c t.val t.isLt).1 cl b).trans ?_
  rw [acc1_last m c t h31 b cl]
  rfl

/-- What it writes back to the second output is its block of the variances. -/
theorem flushed2_eq (c : Dev nD) (t : Fin cfg0.N) (hf : (cfg0.win 2).flush t = true) :
    (dat0 (V1 m) c).flushed 2 t = ((cfg0.win 2).blk t).view.read (Elt Ideal) (Gvar (m ((c.tc : Thread nD τ).loc main_arg0))) := by
  have h31 : t.val % 32 = 31 := (flush0_2 t).mp hf
  show (cfg0.win 2).cut (grid0.coords t) ((dat0 (V1 m) c).after 2 t) = _
  rw [after0_2]
  funext j
  rw [View.read_apply]
  obtain ⟨cl, b, rfl⟩ : ∃ (cl : Fin 64) (b : Fin 8), j = ix2 cl b := ⟨j 0, j 1, eq_ix2 j⟩
  show k0_pay7 (acc0 (V1 m) c t.val t.isLt).1 (acc0 (V1 m) c t.val t.isLt).2 (ix2 cl b)
    = Gvar (m ((c.tc : Thread nD τ).loc main_arg0)) (((cfg0.win 2).blk t).view.emb (ix2 cl b))
  rw [emb2 t cl b]
  refine (pay7_at (acc0 (V1 m) c t.val t.isLt).1 (acc0 (V1 m) c t.val t.isLt).2 cl b).trans ?_
  rw [acc1_last m c t h31 b cl, acc2_last m c t h31 b cl]
  rfl

/-! ## The four write-backs tile each output -/

/-- An index of the first output is in point t's block iff each coordinate is in the block's range on its axis. -/
theorem mem_blk1 (t : Fin cfg0.N) (i : S256x8.Idx) :
    i ∈ ((cfg0.win 1).blk t).view.set ↔ ∀ a : Fin 2, win0_1.index t a * S64x8.size a ≤ (i a).val ∧ (i a).val < win0_1.index t a * S64x8.size a + S64x8.size a := by
  show i ∈ ((View.whole main_v4_0).slice (win0_1.rect t)).set ↔ _
  rw [View.set_slice_whole, Rect.mem_set_unit]
  exact Iff.rfl

theorem mem_blk2 (t : Fin cfg0.N) (i : S256x8.Idx) :
    i ∈ ((cfg0.win 2).blk t).view.set ↔ ∀ a : Fin 2, win0_2.index t a * S64x8.size a ≤ (i a).val ∧ (i a).val < win0_2.index t a * S64x8.size a + S64x8.size a := by
  show i ∈ ((View.whole main_v4_1).slice (win0_2.rect t)).set ↔ _
  rw [View.set_slice_whole, Rect.mem_set_unit]
  exact Iff.rfl

/-- Channel ch is written back by the last row block of channel block ch / 64. -/
theorem cover1 (i : S256x8.Idx) :
    ∃ t : Fin cfg0.N, (cfg0.win 1).flush t = true ∧ i ∈ ((cfg0.win 1).blk t).view.set := by
  have hi0 : (i 0).val < 256 := (i 0).isLt
  have hi1 : (i 1).val < 8 := (i 1).isLt
  have hlt : 32 * ((i 0).val / 64) + 31 < cfg0.N := (by omega : 32 * ((i 0).val / 64) + 31 < 128).trans_eq N_0.symm
  obtain ⟨-, -, -, -, e4, e5, -⟩ := idx0 ⟨32 * ((i 0).val / 64) + 31, hlt⟩
  have e4' : win0_1.index ⟨32 * ((i 0).val / 64) + 31, hlt⟩ (0 : Fin 2) = (32 * ((i 0).val / 64) + 31) / 32 := e4
  refine ⟨⟨32 * ((i 0).val / 64) + 31, hlt⟩, (flush0_1 _).mpr (show (32 * ((i 0).val / 64) + 31) % 32 = 31 by omega), ?_⟩
  rw [mem_blk1]
  intro a
  match a with
  | ⟨0, _⟩ =>
    show win0_1.index ⟨32 * ((i 0).val / 64) + 31, hlt⟩ (0 : Fin 2) * 64 ≤ (i 0).val
      ∧ (i 0).val < win0_1.index ⟨32 * ((i 0).val / 64) + 31, hlt⟩ (0 : Fin 2) * 64 + 64
    rw [e4']; omega
  | ⟨1, _⟩ =>
    show win0_1.index ⟨32 * ((i 0).val / 64) + 31, hlt⟩ (1 : Fin 2) * 8 ≤ (i 1).val
      ∧ (i 1).val < win0_1.index ⟨32 * ((i 0).val / 64) + 31, hlt⟩ (1 : Fin 2) * 8 + 8
    rw [e5]; omega

theorem cover2 (i : S256x8.Idx) :
    ∃ t : Fin cfg0.N, (cfg0.win 2).flush t = true ∧ i ∈ ((cfg0.win 2).blk t).view.set := by
  have hi0 : (i 0).val < 256 := (i 0).isLt
  have hi1 : (i 1).val < 8 := (i 1).isLt
  have hlt : 32 * ((i 0).val / 64) + 31 < cfg0.N := (by omega : 32 * ((i 0).val / 64) + 31 < 128).trans_eq N_0.symm
  obtain ⟨-, -, -, -, -, -, e6, e7⟩ := idx0 ⟨32 * ((i 0).val / 64) + 31, hlt⟩
  have e6' : win0_2.index ⟨32 * ((i 0).val / 64) + 31, hlt⟩ (0 : Fin 2) = (32 * ((i 0).val / 64) + 31) / 32 := e6
  refine ⟨⟨32 * ((i 0).val / 64) + 31, hlt⟩, (flush0_2 _).mpr (show (32 * ((i 0).val / 64) + 31) % 32 = 31 by omega), ?_⟩
  rw [mem_blk2]
  intro a
  match a with
  | ⟨0, _⟩ =>
    show win0_2.index ⟨32 * ((i 0).val / 64) + 31, hlt⟩ (0 : Fin 2) * 64 ≤ (i 0).val
      ∧ (i 0).val < win0_2.index ⟨32 * ((i 0).val / 64) + 31, hlt⟩ (0 : Fin 2) * 64 + 64
    rw [e6']; omega
  | ⟨1, _⟩ =>
    show win0_2.index ⟨32 * ((i 0).val / 64) + 31, hlt⟩ (1 : Fin 2) * 8 ≤ (i 1).val
      ∧ (i 1).val < win0_2.index ⟨32 * ((i 0).val / 64) + 31, hlt⟩ (1 : Fin 2) * 8 + 8
    rw [e7]; omega

/-- So the two output arrays end holding the means and the variances. -/
theorem final1 (c : Dev nD) : (dat0 (V1 m) c).arrAt 1 cfg0.N = Gmean (m ((c.tc : Thread nD τ).loc main_arg0)) :=
  (dat0 (V1 m) c).arrAt_eq_of_cover 1 (Gmean (m ((c.tc : Thread nD τ).loc main_arg0))) (fun t hf => flushed1_eq m c t hf) cover1

theorem final2 (c : Dev nD) : (dat0 (V1 m) c).arrAt 2 cfg0.N = Gvar (m ((c.tc : Thread nD τ).loc main_arg0)) :=
  (dat0 (V1 m) c).arrAt_eq_of_cover 2 (Gvar (m ((c.tc : Thread nD τ).loc main_arg0))) (fun t hf => flushed2_eq m c t hf) cover2

end Stats

/-- THE MEAN ARRAY after the statistics pass: at (ch, b) the mean of plane (b, ch). -/
theorem meanT_at (c : Dev nD) (ch : Fin 256) (b : Fin 8) :
    (V2 m c main_v4_0 : S256x8.Idx → EReal) (ix2 ch b) = Cert.Spec.meanK (m ((c.tc : Thread nD τ).loc main_arg0)) b ch :=
  congrFun ((hF0 m c 1).symm.trans (Stats.final1 m c)) (ix2 ch b)

/-- THE VARIANCE ARRAY after the statistics pass: at (ch, b) the variance of plane (b, ch). -/
theorem varT_at (c : Dev nD) (ch : Fin 256) (b : Fin 8) :
    (V2 m c main_v4_1 : S256x8.Idx → EReal) (ix2 ch b) = Cert.Spec.varK (m ((c.tc : Thread nD τ).loc main_arg0)) b ch :=
  congrFun ((hF0 m c 2).symm.trans (Stats.final2 m c)) (ix2 ch b)

end Cert.KernelIdeal.Hand

end
-- ==== Proof.RefTerm.lean ====
/-
  The reference program's result as one pure term of its four argument arrays: one definition per tensor
  value of the program, each the printed operation applied to the earlier values, in the program's order.
  The per-(sample, channel) mean is a two-axis sum divided by 65536; the variance is the outlined
  function's value (mean again, centred squares, their two-axis sum, the divisor 65536 - float(0), and the
  guard "divisor > 0" selecting the quotient over a NaN fill); the output is
  mix(gamma) * ((x - mean) * rsqrt(variance + eps)) + mix(beta).
-/
import proofs.«145157_j33019708572224_1_alg».proof.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

/-! ## The two coefficient mixtures -/

/-- %0: the mixture of the scale table. -/
def t_v0 (sw : FVec F S8x16 .f32) (gam : FVec F S16x256 .f32) : FVec F S8x256 .f32 :=
  Host.dotGeneral dot_S8x16_S16x256_S8x256_1_0_0_1_n_n none sw gam

/-- %1: the mixture of the shift table. -/
def t_v1 (sw : FVec F S8x16 .f32) (bet : FVec F S16x256 .f32) : FVec F S8x256 .f32 :=
  Host.dotGeneral dot_S8x16_S16x256_S8x256_1_0_0_1_n_n none sw bet

/-! ## The mean -/

/-- %2: the sum over the two spatial axes. -/
def t_v2 (x : FVec F S8x256x256x256 .f32) : FVec F S8x256 .f32 :=
  Host.reduceAdd x (constant S_ .f32 0x00000000#32) reducesTo_S8x256x256x256_S8x256_d2_3 h_S_

/-- %3 -/
def t_v3 (x : FVec F S8x256x256x256 .f32) : FVec F S8x256x1x1 .f32 :=
  broadcastInDim S8x256x1x1 ![0, 1] bcast_S8x256_S8x256x1x1_0_1 (t_v2 x)

/-- %4: 65536 at every (sample, channel). -/
def t_v4 : FVec F S8x256x1x1 .f32 :=
  broadcastInDim S8x256x1x1 ![] bcast_S_S8x256x1x1 (constant S_ .f32 0x47800000#32)

/-- %5: the mean. -/
def t_v5 (x : FVec F S8x256x256x256 .f32) : FVec F S8x256x1x1 .f32 :=
  Host.divf (t_v3 x) t_v4

/-! ## The variance: the outlined function's values, in its order -/

/-- the integer argument the variance is called with: 0 -/
def t_c : IVec S_ 32 := constantI S_ 32 0#32

def t_var_v0 (x : FVec F S8x256x256x256 .f32) : FVec F S8x256 .f32 :=
  Host.reduceAdd x (constant S_ .f32 0x00000000#32) reducesTo_S8x256x256x256_S8x256_d2_3 h_S_

def t_var_v1 (x : FVec F S8x256x256x256 .f32) : FVec F S8x256x1x1 .f32 :=
  broadcastInDim S8x256x1x1 ![0, 1] bcast_S8x256_S8x256x1x1_0_1 (t_var_v0 x)

def t_var_v2 : FVec F S8x256x1x1 .f32 :=
  broadcastInDim S8x256x1x1 ![] bcast_S_S8x256x1x1 (constant S_ .f32 0x47800000#32)

def t_var_v3 (x : FVec F S8x256x256x256 .f32) : FVec F S8x256x1x1 .f32 :=
  Host.divf (t_var_v1 x) t_var_v2

def t_var_v4 (x : FVec F S8x256x256x256 .f32) : FVec F S8x256x256x256 .f32 :=
  broadcastInDim S8x256x256x256 ![0, 1, 2, 3] bcast_S8x256x1x1_S8x256x256x256_0_1_2_3 (t_var_v3 x)

def t_var_v5 (x : FVec F S8x256x256x256 .f32) : FVec F S8x256x256x256 .f32 :=
  subf x (t_var_v4 x)

def t_var_v6 (x : FVec F S8x256x256x256 .f32) : FVec F S8x256x256x256 .f32 :=
  mulf (t_var_v5 x) (t_var_v5 x)

/-- float(0) -/
def t_var_v7 : FVec F S_ .f32 := sitofp .f32 t_c

/-- the divisor 65536 - float(0) -/
def t_var_v8 : FVec F S_ .f32 := subf (constant S_ .f32 0x47800000#32) t_var_v7

def t_var_v9 (x : FVec F S8x256x256x256 .f32) : FVec F S8x256 .f32 :=
  Host.reduceAdd (t_var_v6 x) (constant S_ .f32 0x00000000#32) reducesTo_S8x256x256x256_S8x256_d2_3 h_S_

def t_var_v10 (x : FVec F S8x256x256x256 .f32) : FVec F S8x256x1x1 .f32 :=
  broadcastInDim S8x256x1x1 ![0, 1] bcast_S8x256_S8x256x1x1_0_1 (t_var_v9 x)

def t_var_v11 : FVec F S8x256x1x1 .f32 :=
  broadcastInDim S8x256x1x1 ![] bcast_S_S8x256x1x1 t_var_v8

def t_var_v12 (x : FVec F S8x256x256x256 .f32) : FVec F S8x256x1x1 .f32 :=
  Host.divf (t_var_v10 x) t_var_v11

/-- the guard: divisor > 0 -/
def t_var_v13 : IVec S_ 1 := cmpf .ogt (t_var_v8 (F := F)) (constant S_ .f32 0x00000000#32)

/-- the fill value's broadcast, inside the outlined select -/
def t_where_v1 : FVec F S8x256x1x1 .f32 :=
  broadcastInDim S8x256x1x1 ![] bcast_S_S8x256x1x1 (id (constant S_ .f32 0x7FC00000#32 : FVec F S_ .f32))

/-- %6: the variance, the guarded quotient. -/
def t_var (x : FVec F S8x256x256x256 .f32) : FVec F S8x256x1x1 .f32 :=
  select (broadcastInDim S8x256x1x1 ![] bcast_S_S8x256x1x1 (t_var_v13 (F := F))) (t_var_v12 x) t_where_v1

/-! ## The normalised, scaled and shifted output -/

def t_v7 (x : FVec F S8x256x256x256 .f32) : FVec F S8x256x256x256 .f32 :=
  broadcastInDim S8x256x256x256 ![0, 1, 2, 3] bcast_S8x256x1x1_S8x256x256x256_0_1_2_3 (t_v5 x)

def t_v8 (x : FVec F S8x256x256x256 .f32) : FVec F S8x256x256x256 .f32 :=
  subf x (t_v7 x)

/-- %9: eps at every (sample, channel). -/
def t_v9 : FVec F S8x256x1x1 .f32 :=
  broadcastInDim S8x256x1x1 ![] bcast_S_S8x256x1x1 (constant S_ .f32 0x3727C5AC#32)

def t_v10 (x : FVec F S8x256x256x256 .f32) : FVec F S8x256x1x1 .f32 :=
  addf (t_var x) t_v9

def t_v11 (x : FVec F S8x256x256x256 .f32) : FVec F S8x256x1x1 .f32 :=
  Host.rsqrt (t_v10 x)

def t_v12 (x : FVec F S8x256x256x256 .f32) : FVec F S8x256x256x256 .f32 :=
  broadcastInDim S8x256x256x256 ![0, 1, 2, 3] bcast_S8x256x1x1_S8x256x256x256_0_1_2_3 (t_v11 x)

def t_v13 (x : FVec F S8x256x256x256 .f32) : FVec F S8x256x256x256 .f32 :=
  mulf (t_v8 x) (t_v12 x)

def t_v14 (sw : FVec F S8x16 .f32) (gam : FVec F S16x256 .f32) : FVec F S8x256x1x1 .f32 :=
  broadcastInDim S8x256x1x1 ![0, 1] bcast_S8x256_S8x256x1x1_0_1 (t_v0 sw gam)

def t_v15 (sw : FVec F S8x16 .f32) (gam : FVec F S16x256 .f32) : FVec F S8x256x256x256 .f32 :=
  broadcastInDim S8x256x256x256 ![0, 1, 2, 3] bcast_S8x256x1x1_S8x256x256x256_0_1_2_3 (t_v14 sw gam)

def t_v16 (x : FVec F S8x256x256x256 .f32) (sw : FVec F S8x16 .f32) (gam : FVec F S16x256 .f32) :
    FVec F S8x256x256x256 .f32 :=
  mulf (t_v15 sw gam) (t_v13 x)

def t_v17 (sw : FVec F S8x16 .f32) (bet : FVec F S16x256 .f32) : FVec F S8x256x1x1 .f32 :=
  broadcastInDim S8x256x1x1 ![0, 1] bcast_S8x256_S8x256x1x1_0_1 (t_v1 sw bet)

def t_v18 (sw : FVec F S8x16 .f32) (bet : FVec F S16x256 .f32) : FVec F S8x256x256x256 .f32 :=
  broadcastInDim S8x256x256x256 ![0, 1, 2, 3] bcast_S8x256x1x1_S8x256x256x256_0_1_2_3 (t_v17 sw bet)

def t_v19 (x : FVec F S8x256x256x256 .f32) (sw : FVec F S8x16 .f32) (gam bet : FVec F S16x256 .f32) :
    FVec F S8x256x256x256 .f32 :=
  addf (t_v16 x sw gam) (t_v18 sw bet)

/-- %19, the program's result, as a term of the four arguments. -/
def result (x : FVec F S8x256x256x256 .f32) (sw : FVec F S8x16 .f32) (gam bet : FVec F S16x256 .f32) :
    FVec F S8x256x256x256 .f32 :=
  t_v19 x sw gam bet

end Cert.ReferenceIdeal.RefTerm

end
-- ==== Proof.RefRun.lean ====
/-
  The reference program's run, read back. @main here is forty-six host operations once its two outlined functions
  are unfolded at their calls: nine of its own (the two coefficient mixtures, the plane sum and the mean), the
  variance function's twenty into the buffers of its call, the guarded select's three into the buffers of the call
  nested in it, and fourteen more of @main's own (centre, add eps, reciprocal square root, scale, shift). The
  program is that straight line; run from any memory with zero counters it terminates, the result buffer holds
  the operations' composition applied to the four arguments' launch contents, and the arguments are unchanged.
-/
import proofs.«145157_j33019708572224_1_alg».proof.ReferenceIdeal
import proofs.«145157_j33019708572224_1_alg».proof.Proof.Gen.ReferenceIdeal
import proofs.«145157_j33019708572224_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the variance function's body runs over the buffers of its
    call (`main_call0`), the select it calls over the buffers of the nested call (`main_call0.call0`), whose
    last buffer is @main's own %6. -/
abbrev ops : List (HloOp τ sig (Elt F)) :=
  [ binary main_arg1 main_arg2 main_v0 ((fun l r => Host.dotGeneral dot_S8x16_S16x256_S8x256_1_0_0_1_n_n none l r) : (⟨S8x16, .f32⟩ : BufTy).Contents (Elt F) → (⟨S16x256, .f32⟩ : BufTy).Contents (Elt F) → (⟨S8x256, .f32⟩ : BufTy).Contents (Elt F)),
    binary main_arg1 main_arg3 main_v1 ((fun l r => Host.dotGeneral dot_S8x16_S16x256_S8x256_1_0_0_1_n_n none l r) : (⟨S8x16, .f32⟩ : BufTy).Contents (Elt F) → (⟨S16x256, .f32⟩ : BufTy).Contents (Elt F) → (⟨S8x256, .f32⟩ : BufTy).Contents (Elt F)),
    nullary main_cst (constant S_ .f32 0x00000000#32),
    binary main_arg0 main_cst main_v2 ((fun x v => Host.reduceAdd x v reducesTo_S8x256x256x256_S8x256_d2_3 h_S_) : (⟨S8x256x256x256, .f32⟩ : BufTy).Contents (Elt F) → (⟨S_, .f32⟩ : BufTy).Contents (Elt F) → (⟨S8x256, .f32⟩ : BufTy).Contents (Elt F)),
    unary main_v2 main_v3 (broadcastInDim S8x256x1x1 ![0, 1] bcast_S8x256_S8x256x1x1_0_1 : (⟨S8x256, .f32⟩ : BufTy).Contents (Elt F) → (⟨S8x256x1x1, .f32⟩ : BufTy).Contents (Elt F)),
    nullary main_cst_0 (constant S_ .f32 0x47800000#32),
    unary main_cst_0 main_v4 (broadcastInDim S8x256x1x1 ![] bcast_S_S8x256x1x1 : (⟨S_, .f32⟩ : BufTy).Contents (Elt F) → (⟨S8x256x1x1, .f32⟩ : BufTy).Contents (Elt F)),
    binary main_v3 main_v4 main_v5 (Host.divf : (⟨S8x256x1x1, .f32⟩ : BufTy).Contents (Elt F) → (⟨S8x256x1x1, .f32⟩ : BufTy).Contents (Elt F) → (⟨S8x256x1x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S8x256x256x256_S8x256_d2_3 h_S_),
    TRef.unary main_call0.v0 main_call0.v1 (broadcastInDim S8x256x1x1 ![0, 1] bcast_S8x256_S8x256x1x1_0_1),
    TRef.nullary main_call0.cst_0 (constant S_ .f32 0x47800000#32),
    TRef.unary main_call0.cst_0 main_call0.v2 (broadcastInDim S8x256x1x1 ![] bcast_S_S8x256x1x1),
    TRef.binary main_call0.v1 main_call0.v2 main_call0.v3 Host.divf,
    TRef.unary main_call0.v3 main_call0.v4 (broadcastInDim S8x256x256x256 ![0, 1, 2, 3] bcast_S8x256x1x1_S8x256x256x256_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x256x256x256_S8x256_d2_3 h_S_),
    TRef.unary main_call0.v9 main_call0.v10 (broadcastInDim S8x256x1x1 ![0, 1] bcast_S8x256_S8x256x1x1_0_1),
    TRef.unary main_call0.v8 main_call0.v11 (broadcastInDim S8x256x1x1 ![] bcast_S_S8x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x256x1x1 ![] bcast_S_S8x256x1x1),
    TRef.ternary main_call0.v13 main_call0.v12 main_call0.call0.v1 main_call0.call0.v2 (fun p a b => select (broadcastInDim S8x256x1x1 ![] bcast_S_S8x256x1x1 p) a b),
    unary main_v5 main_v7 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_arg0 main_v7 main_v8 (subf : (⟨S8x256x256x256, .f32⟩ : BufTy).Contents (Elt F) → (⟨S8x256x256x256, .f32⟩ : BufTy).Contents (Elt F) → (⟨S8x256x256x256, .f32⟩ : BufTy).Contents (Elt F)),
    nullary main_cst_1 (constant S_ .f32 0x3727C5AC#32),
    unary main_cst_1 main_v9 (broadcastInDim S8x256x1x1 ![] bcast_S_S8x256x1x1 : (⟨S_, .f32⟩ : BufTy).Contents (Elt F) → (⟨S8x256x1x1, .f32⟩ : BufTy).Contents (Elt F)),
    binary main_v6 main_v9 main_v10 (addf : (⟨S8x256x1x1, .f32⟩ : BufTy).Contents (Elt F) → (⟨S8x256x1x1, .f32⟩ : BufTy).Contents (Elt F) → (⟨S8x256x1x1, .f32⟩ : BufTy).Contents (Elt F)),
    unary main_v10 main_v11 (Host.rsqrt : (⟨S8x256x1x1, .f32⟩ : BufTy).Contents (Elt F) → (⟨S8x256x1x1, .f32⟩ : BufTy).Contents (Elt F)),
    unary main_v11 main_v12 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v8 main_v12 main_v13 (mulf : (⟨S8x256x256x256, .f32⟩ : BufTy).Contents (Elt F) → (⟨S8x256x256x256, .f32⟩ : BufTy).Contents (Elt F) → (⟨S8x256x256x256, .f32⟩ : BufTy).Contents (Elt F)),
    unary main_v0 main_v14 (broadcastInDim S8x256x1x1 ![0, 1] bcast_S8x256_S8x256x1x1_0_1 : (⟨S8x256, .f32⟩ : BufTy).Contents (Elt F) → (⟨S8x256x1x1, .f32⟩ : BufTy).Contents (Elt F)),
    unary main_v14 main_v15 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v15 main_v13 main_v16 (mulf : (⟨S8x256x256x256, .f32⟩ : BufTy).Contents (Elt F) → (⟨S8x256x256x256, .f32⟩ : BufTy).Contents (Elt F) → (⟨S8x256x256x256, .f32⟩ : BufTy).Contents (Elt F)),
    unary main_v1 main_v17 (broadcastInDim S8x256x1x1 ![0, 1] bcast_S8x256_S8x256x1x1_0_1 : (⟨S8x256, .f32⟩ : BufTy).Contents (Elt F) → (⟨S8x256x1x1, .f32⟩ : BufTy).Contents (Elt F)),
    unary main_v17 main_v18 (broadcastInDim S8x256x256x256 ![0, 1, 2, 3] bcast_S8x256x1x1_S8x256x256x256_0_1_2_3 : (⟨S8x256x1x1, .f32⟩ : BufTy).Contents (Elt F) → (⟨S8x256x256x256, .f32⟩ : BufTy).Contents (Elt F)),
    binary main_v16 main_v18 main_v19 (addf : (⟨S8x256x256x256, .f32⟩ : BufTy).Contents (Elt F) → (⟨S8x256x256x256, .f32⟩ : BufTy).Contents (Elt F) → (⟨S8x256x256x256, .f32⟩ : BufTy).Contents (Elt F)) ]

/-- @main is that straight line: with the two functions' definitions unfolded at their calls and sequencing
    re-associated, both sides are one chain of host steps. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

/-- On every device, for any float values, from any memory with zero counters: every weakly fair execution of
    @main terminates with the result at the operations' composed term of the four arguments and the arguments
    unchanged. The fold over the forty-six operations is read off buffer by buffer: each operation's result at
    its own buffer is its function's value, at any other buffer what was there; the composition left is the
    staged term, definition by definition. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v19) = RefTerm.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result term, read index by index over the extended reals, is the two-pass form of the
  instance normalisation: mix(gamma) * ((x - mean) * rsqrt(variance + eps)) + mix(beta), with
  mean = S1 / 65536 and variance = (sum of centred squares) / 65536.
-/
import proofs.«145157_j33019708572224_1_alg».proof.Proof.RefTerm
import proofs.«145157_j33019708572224_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Facts₀
open Cert.ReferenceIdeal.RefTerm

variable [Cert.ReferenceIdeal.Facts]

/-! ## The two-axis sum -/

/-- Dropping the two spatial coordinates of a source index keeps its sample coordinate … -/
theorem drop23_val0 (i : S8x256x256x256.Idx) :
    ((reducesTo_S8x256x256x256_S8x256_d2_3).drop i ⟨0, by decide⟩ : Nat) = i 0 :=
  Shape.ReducesTo.drop_apply_val_of_eq _ _ _ 0
/-- … and its channel coordinate. -/
theorem drop23_val1 (i : S8x256x256x256.Idx) :
    ((reducesTo_S8x256x256x256_S8x256_d2_3).drop i ⟨1, by decide⟩ : Nat) = i 1 :=
  Shape.ReducesTo.drop_apply_val_of_eq _ _ _ 1

/-- The host's sum over the two spatial axes, from the zero initial value, read at (b, ch): the double sum over
    the plane's rows and columns. The source indices that drop to (b, ch) are exactly the (b, ch, h, w). -/
theorem reduce23_apply (y : FVec Ideal S8x256x256x256 .f32) (j : S8x256.Idx) :
    Host.reduceAdd y (constant S_ .f32 0x00000000#32) reducesTo_S8x256x256x256_S8x256_d2_3 h_S_ j
      = ∑ h : Fin 256, ∑ w : Fin 256, y (ix4 (j 0) (j 1) h w) := by
  show Ideal.hostReduceAdd reducesTo_S8x256x256x256_S8x256_d2_3 y (Ideal.ofBits .f32 0x00000000#32) j = _
  unfold Ideal.hostReduceAdd
  rw [Ideal.ofBits_zero_f32, zero_add, ← Finset.sum_product']
  symm
  refine Finset.sum_nbij' (fun p => (ix4 (j 0) (j 1) p.1 p.2 : S8x256x256x256.Idx)) (fun i => (i 2, i 3)) ?_ ?_ ?_ ?_ ?_
  · intro p _
    simp only [Finset.mem_filter, Finset.mem_univ, true_and]
    funext b
    apply Fin.ext
    match b with
    | ⟨0, _⟩ => exact drop23_val0 _
    | ⟨1, _⟩ => exact drop23_val1 _
  · intro i _
    simp
  · intro p _
    rfl
  · intro i hi
    simp only [Finset.mem_filter, Finset.mem_univ, true_and] at hi
    have h0 := drop23_val0 i
    have h1 := drop23_val1 i
    rw [hi] at h0 h1
    funext d
    apply Fin.ext
    match d with
    | ⟨0, _⟩ => exact h0
    | ⟨1, _⟩ => exact h1
    | ⟨2, _⟩ => rfl
    | ⟨3, _⟩ => rfl
  · intro p _
    rfl

/-! ## The coefficient mixtures -/

/-- The operand indices of the weights-by-table product at result index (b, ch) and style `k`: the left operand is read
    at (b, k) … -/
theorem dot_lhs_val0 (j : S8x256.Idx) (k : dot_S8x16_S16x256_S8x256_1_0_0_1_n_n.contr.Idx) :
    (dot_S8x16_S16x256_S8x256_1_0_0_1_n_n.lhsIdx j k ⟨0, by decide⟩ : Nat) = (j 0).val := by
  unfold DotDims.lhsIdx
  rw [dif_neg (show ¬ (⟨0, by decide⟩ : Fin 2) ∈ dot_S8x16_S16x256_S8x256_1_0_0_1_n_n.lhsBatch from
        (by decide : ¬ (⟨0, by decide⟩ : Fin 2) ∈ ([] : List (Fin 2)))),
    dif_pos (show (⟨0, by decide⟩ : Fin 2) ∈ dot_S8x16_S16x256_S8x256_1_0_0_1_n_n.lhsNonContracting from
        (by decide : (⟨0, by decide⟩ : Fin 2) ∈ [(0 : Fin 2)]))]
  rfl
theorem dot_lhs_val1 (j : S8x256.Idx) (k : dot_S8x16_S16x256_S8x256_1_0_0_1_n_n.contr.Idx) :
    (dot_S8x16_S16x256_S8x256_1_0_0_1_n_n.lhsIdx j k ⟨1, by decide⟩ : Nat)
      = (k ⟨0, (show 0 < dot_S8x16_S16x256_S8x256_1_0_0_1_n_n.contr.rank from Nat.zero_lt_one)⟩).val := by
  unfold DotDims.lhsIdx
  rw [dif_neg (show ¬ (⟨1, by decide⟩ : Fin 2) ∈ dot_S8x16_S16x256_S8x256_1_0_0_1_n_n.lhsBatch from
        (by decide : ¬ (⟨1, by decide⟩ : Fin 2) ∈ ([] : List (Fin 2)))),
    dif_neg (show ¬ (⟨1, by decide⟩ : Fin 2) ∈ dot_S8x16_S16x256_S8x256_1_0_0_1_n_n.lhsNonContracting from
        (by decide : ¬ (⟨1, by decide⟩ : Fin 2) ∈ [(0 : Fin 2)]))]
  rfl
/-- … and the right operand at (k, ch). -/
theorem dot_rhs_val0 (j : S8x256.Idx) (k : dot_S8x16_S16x256_S8x256_1_0_0_1_n_n.contr.Idx) :
    (dot_S8x16_S16x256_S8x256_1_0_0_1_n_n.rhsIdx j k ⟨0, by decide⟩ : Nat)
      = (k ⟨0, (show 0 < dot_S8x16_S16x256_S8x256_1_0_0_1_n_n.contr.rank from Nat.zero_lt_one)⟩).val := by
  unfold DotDims.rhsIdx
  rw [dif_neg (show ¬ (⟨0, by decide⟩ : Fin 2) ∈ dot_S8x16_S16x256_S8x256_1_0_0_1_n_n.rhsBatch from
        (by decide : ¬ (⟨0, by decide⟩ : Fin 2) ∈ ([] : List (Fin 2)))),
    dif_neg (show ¬ (⟨0, by decide⟩ : Fin 2) ∈ dot_S8x16_S16x256_S8x256_1_0_0_1_n_n.rhsNonContracting from
        (by decide : ¬ (⟨0, by decide⟩ : Fin 2) ∈ [(1 : Fin 2)]))]
  rfl
theorem dot_rhs_val1 (j : S8x256.Idx) (k : dot_S8x16_S16x256_S8x256_1_0_0_1_n_n.contr.Idx) :
    (dot_S8x16_S16x256_S8x256_1_0_0_1_n_n.rhsIdx j k ⟨1, by decide⟩ : Nat) = (j 1).val := by
  unfold DotDims.rhsIdx
  rw [dif_neg (show ¬ (⟨1, by decide⟩ : Fin 2) ∈ dot_S8x16_S16x256_S8x256_1_0_0_1_n_n.rhsBatch from
        (by decide : ¬ (⟨1, by decide⟩ : Fin 2) ∈ ([] : List (Fin 2)))),
    dif_pos (show (⟨1, by decide⟩ : Fin 2) ∈ dot_S8x16_S16x256_S8x256_1_0_0_1_n_n.rhsNonContracting from
        (by decide : (⟨1, by decide⟩ : Fin 2) ∈ [(1 : Fin 2)]))]
  rfl

/-- The host's product of the weights [8, 16] with a table [16, 256], contracting the style axis, read at (b, ch):
    the sum over the sixteen styles. -/
theorem dot_apply (sw : FVec Ideal S8x16 .f32) (tb : FVec Ideal S16x256 .f32) (j : S8x256.Idx) :
    Host.dotGeneral dot_S8x16_S16x256_S8x256_1_0_0_1_n_n none sw tb j
      = ∑ s : Fin 16, sw (ix2 (j 0) s) * tb (ix2 s (j 1)) := by
  simp only [Host.dotGeneral]
  rw [Ideal.dotGeneral_apply,
    ← Equiv.sum_comp (contrEquiv1 dot_S8x16_S16x256_S8x256_1_0_0_1_n_n 16 rfl rfl).symm]
  refine Finset.sum_congr rfl fun k _ => ?_
  have hk := contrEquiv1_symm_val dot_S8x16_S16x256_S8x256_1_0_0_1_n_n 16 rfl rfl k
  have el : dot_S8x16_S16x256_S8x256_1_0_0_1_n_n.lhsIdx j
      ((contrEquiv1 dot_S8x16_S16x256_S8x256_1_0_0_1_n_n 16 rfl rfl).symm k) = ix2 (j 0) k :=
    funext fun a => Fin.ext (by
      match a with
      | ⟨0, _⟩ => exact dot_lhs_val0 j _
      | ⟨1, _⟩ => exact (dot_lhs_val1 j _).trans hk)
  have er : dot_S8x16_S16x256_S8x256_1_0_0_1_n_n.rhsIdx j
      ((contrEquiv1 dot_S8x16_S16x256_S8x256_1_0_0_1_n_n 16 rfl rfl).symm k) = ix2 k (j 1) :=
    funext fun a => Fin.ext (by
      match a with
      | ⟨0, _⟩ => exact (dot_rhs_val0 j _).trans hk
      | ⟨1, _⟩ => exact dot_rhs_val1 j _)
  exact congrArg₂ (· * ·) (congrArg sw el) (congrArg tb er)

/-! ## Broadcasts read at an index -/

/-- A [8, 256] array laid over two trailing unit axes, read at (b, ch, 0, 0), is the array at (b, ch). -/
theorem bcast2_apply {α : Type} (v : S8x256.Idx → α) (j : S8x256x1x1.Idx) :
    broadcastInDim S8x256x1x1 ![0, 1] bcast_S8x256_S8x256x1x1_0_1 v j = v (ix2 (j 0) (j 1)) :=
  broadcastInDim_apply _ _ v j (ix2 (j 0) (j 1)) (by
    intro a
    match a with
    | ⟨0, _⟩ => rfl
    | ⟨1, _⟩ => rfl)

/-- A [8, 256, 1, 1] array laid over the two spatial axes, read at (b, ch, h, w), is the array at (b, ch, 0, 0). -/
theorem bcast4_apply {α : Type} (v : S8x256x1x1.Idx → α) (b : Fin 8) (ch : Fin 256) (h w : Fin 256) :
    broadcastInDim S8x256x256x256 ![0, 1, 2, 3] bcast_S8x256x1x1_S8x256x256x256_0_1_2_3 v (ix4 b ch h w)
      = v (ix4 b ch 0 0) :=
  broadcastInDim_apply _ _ v (ix4 b ch h w) (ix4 b ch 0 0) (by
    intro a
    match a with
    | ⟨0, _⟩ => rfl
    | ⟨1, _⟩ => rfl
    | ⟨2, _⟩ => rfl
    | ⟨3, _⟩ => rfl)

/-! ## The constants -/

/-- The pattern 0x47800000 is 65536. -/
theorem bigN_eq : Cert.Spec.bigN = ((65536 : ℝ) : EReal) := by
  unfold Cert.Spec.bigN
  simp [Ideal.ofBits, Ideal.ieee, -EReal.coe_mul]
  norm_num

/-- The variance's divisor 65536 - float(0) is 65536. -/
theorem divisor_eq : t_var_v8 (F := Ideal) ix0 = Cert.Spec.bigN := by
  show Ideal.ofBits .f32 0x47800000#32 - (((0#32 : BitVec 32).toInt : ℝ) : EReal) = Cert.Spec.bigN
  have h0 : (((0#32 : BitVec 32).toInt : ℝ) : EReal) = 0 := by simp
  rw [h0, sub_zero]
  rfl

/-- The guard "divisor > 0" holds. -/
theorem guard_eq : t_var_v13 (F := Ideal) ix0 = 1#1 := by
  show Ideal.cmp .ogt (t_var_v8 (F := Ideal) ix0) (Ideal.ofBits .f32 0x00000000#32) = 1#1
  rw [divisor_eq, Ideal.ofBits_zero_f32, bigN_eq]
  unfold Ideal.cmp
  have hpos : (0 : EReal) < ((65536 : ℝ) : EReal) := by
    exact_mod_cast (by norm_num : (0 : ℝ) < 65536)
  simp [hpos]

/-! ## The stages at an index -/

/-- The mean at (b, ch): the plane's sum over 65536. -/
theorem t_v5_apply (x : FVec Ideal S8x256x256x256 .f32) (j : S8x256x1x1.Idx) :
    t_v5 x j = Cert.Spec.meanR x (j 0) (j 1) := by
  show Ideal.div (broadcastInDim S8x256x1x1 ![0, 1] bcast_S8x256_S8x256x1x1_0_1 (t_v2 x) j)
      (broadcastInDim S8x256x1x1 ![] bcast_S_S8x256x1x1 (constant (F := Ideal) S_ .f32 0x47800000#32) j)
    = Ideal.div (Cert.Spec.sum1 x (j 0) (j 1)) Cert.Spec.bigN
  rw [bcast2_apply, broadcastInDim_scalar_apply]
  unfold t_v2
  rw [reduce23_apply]
  rfl

/-- The outlined function's own mean is the same value. -/
theorem t_var_v3_apply (x : FVec Ideal S8x256x256x256 .f32) (j : S8x256x1x1.Idx) :
    t_var_v3 x j = Cert.Spec.meanR x (j 0) (j 1) := t_v5_apply x j

/-- The centred square at (b, ch, h, w). -/
theorem t_var_v6_apply (x : FVec Ideal S8x256x256x256 .f32) (b : Fin 8) (ch : Fin 256) (h w : Fin 256) :
    t_var_v6 x (ix4 b ch h w)
      = (x (ix4 b ch h w) - Cert.Spec.meanR x b ch) * (x (ix4 b ch h w) - Cert.Spec.meanR x b ch) := by
  show (x (ix4 b ch h w) - t_var_v4 x (ix4 b ch h w)) * (x (ix4 b ch h w) - t_var_v4 x (ix4 b ch h w)) = _
  have hm : t_var_v4 x (ix4 b ch h w) = Cert.Spec.meanR x b ch := by
    unfold t_var_v4
    rw [bcast4_apply, t_var_v3_apply]
  rw [hm]

/-- The variance at (b, ch): the guard holds, so it is the sum of centred squares over 65536. -/
theorem t_var_apply (x : FVec Ideal S8x256x256x256 .f32) (j : S8x256x1x1.Idx) :
    t_var x j = Cert.Spec.varR x (j 0) (j 1) := by
  show Scalar.select (broadcastInDim S8x256x1x1 ![] bcast_S_S8x256x1x1 (t_var_v13 (F := Ideal)) j)
      (t_var_v12 x j) (t_where_v1 (F := Ideal) j) = _
  rw [broadcastInDim_scalar_apply, guard_eq, select_one]
  show Ideal.div (broadcastInDim S8x256x1x1 ![0, 1] bcast_S8x256_S8x256x1x1_0_1 (t_var_v9 x) j)
      (broadcastInDim S8x256x1x1 ![] bcast_S_S8x256x1x1 (t_var_v8 (F := Ideal)) j) = _
  rw [bcast2_apply, broadcastInDim_scalar_apply, divisor_eq]
  unfold t_var_v9
  rw [reduce23_apply]
  unfold Cert.Spec.varR
  refine congrArg (fun s => Ideal.div s Cert.Spec.bigN) ?_
  refine Finset.sum_congr rfl fun h _ => Finset.sum_congr rfl fun w _ => ?_
  exact t_var_v6_apply x _ _ h w

/-- The reciprocal standard deviation at (b, ch). -/
theorem t_v11_apply (x : FVec Ideal S8x256x256x256 .f32) (j : S8x256x1x1.Idx) :
    t_v11 x j = Ideal.rsqrt (Cert.Spec.varR x (j 0) (j 1) + Cert.Spec.eps) := by
  show Ideal.rsqrt (t_var x j
      + broadcastInDim S8x256x1x1 ![] bcast_S_S8x256x1x1 (constant (F := Ideal) S_ .f32 0x3727C5AC#32) j) = _
  rw [t_var_apply, broadcastInDim_scalar_apply]
  rfl

/-- A mixture laid over the whole activation shape, read at (b, ch, h, w). -/
theorem mix_bcast_apply (sw : FVec Ideal S8x16 .f32) (tb : FVec Ideal S16x256 .f32)
    (b : Fin 8) (ch : Fin 256) (h w : Fin 256) :
    broadcastInDim S8x256x256x256 ![0, 1, 2, 3] bcast_S8x256x1x1_S8x256x256x256_0_1_2_3
        (broadcastInDim S8x256x1x1 ![0, 1] bcast_S8x256_S8x256x1x1_0_1
          (Host.dotGeneral dot_S8x16_S16x256_S8x256_1_0_0_1_n_n none sw tb)) (ix4 b ch h w)
      = Cert.Spec.mix sw tb b ch := by
  rw [bcast4_apply, bcast2_apply, dot_apply]
  rfl

/-! ## The result -/

/-- The reference's result is the two-pass form, at every index. -/
theorem result_eq (x : FVec Ideal S8x256x256x256 .f32) (sw : FVec Ideal S8x16 .f32)
    (gam bet : FVec Ideal S16x256 .f32) :
    Cert.ReferenceIdeal.RefTerm.result (F := Ideal) x sw gam bet = Cert.Spec.outR x sw gam bet := by
  funext i
  obtain ⟨b, ch, h, w, rfl⟩ : ∃ b ch h w, i = ix4 b ch h w := ⟨_, _, _, _, eq_ix4 i⟩
  show t_v15 sw gam (ix4 b ch h w)
        * ((x (ix4 b ch h w) - t_v7 x (ix4 b ch h w)) * t_v12 x (ix4 b ch h w))
      + t_v18 sw bet (ix4 b ch h w)
    = Cert.Spec.mix sw gam b ch
        * ((x (ix4 b ch h w) - Cert.Spec.meanR x b ch) * Ideal.rsqrt (Cert.Spec.varR x b ch + Cert.Spec.eps))
      + Cert.Spec.mix sw bet b ch
  have hg : t_v15 sw gam (ix4 b ch h w) = Cert.Spec.mix sw gam b ch := mix_bcast_apply sw gam b ch h w
  have hb : t_v18 sw bet (ix4 b ch h w) = Cert.Spec.mix sw bet b ch := mix_bcast_apply sw bet b ch h w
  have hm : t_v7 x (ix4 b ch h w) = Cert.Spec.meanR x b ch := by
    unfold t_v7
    rw [bcast4_apply, t_v5_apply]
  have hr : t_v12 x (ix4 b ch h w) = Ideal.rsqrt (Cert.Spec.varR x b ch + Cert.Spec.eps) := by
    unfold t_v12
    rw [bcast4_apply, t_v11_apply]
  rw [hg, hb, hm, hr]

end Cert.ReferenceIdeal.RefValue

end
-- ==== Proof.Algebra.lean ====
/-
  The one-pass and the two-pass arrangement of the instance normalisation agree on every activation tensor whose
  entries are reals.
  * 2⁻¹⁶ and 65536 are read off their bit patterns; division by the real 65536 is the product with 2⁻¹⁶ on every
    extended real, so the two means agree with no finiteness assumption.
  * With real entries every sum is (the image of) a real sum, and over the 256 · 256 = 65536 positions of a plane
    Σ (x − μ)² · 2⁻¹⁶ = Σ x² · 2⁻¹⁶ − μ² for μ = Σ x · 2⁻¹⁶: expand the square, Σ μ² = 65536 · μ².
  * The outputs then differ only in the bracketing of a product of three extended reals.
  The shared ε is never evaluated.
-/
import proofs.«145157_j33019708572224_1_alg».proof.Proof.Spec
import Mathlib.Data.EReal.Basic
import Mathlib.Data.EReal.Operations
import Mathlib.Data.EReal.Inv
import Mathlib.Algebra.BigOperators.Fin
import Mathlib.Algebra.BigOperators.Ring.Finset
import Mathlib.Tactic.Ring
import Mathlib.Tactic.NormNum
import Mathlib.Tactic.FieldSimp

noncomputable section

namespace Cert.Spec

open Idealize.ShloMosaic Idealize.ShloMosaic.ValueIdx

/-- The pattern 0x37800000 denotes 2⁻¹⁶ = 1/65536. -/
theorem invN_eq : invN = ((1 / 65536 : ℝ) : EReal) := by
  unfold invN
  simp [Ideal.ofBits, Ideal.ieee, -EReal.coe_mul]; norm_num

/-- The pattern 0x47800000 denotes 65536. -/
theorem bigN_eq : bigN = ((65536 : ℝ) : EReal) := by
  unfold bigN
  simp [Ideal.ofBits, Ideal.ieee, -EReal.coe_mul]; norm_num

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by 65536 is multiplication by 2⁻¹⁶, at the infinities too. -/
theorem div_bigN (y : EReal) : Ideal.div y bigN = y * invN := by
  rw [bigN_eq, invN_eq, Ideal.div_coe (by norm_num)]

/-- The two means agree on every tensor. -/
theorem meanK_eq_meanR (x : SX.Idx → EReal) (b : Fin 8) (ch : Fin 256) : meanK x b ch = meanR x b ch := by
  unfold meanK meanR
  rw [div_bigN]

/-- The variance identity over a finite family of reals whose size is the reciprocal of `c`:
    Σ (f − μ)² · c = Σ f² · c − μ² for μ = Σ f · c. -/
theorem real_var {ι : Type*} (s : Finset ι) (f : ι → ℝ) (c : ℝ) (hc : (s.card : ℝ) * c = 1) :
    (∑ i ∈ s, (f i - (∑ j ∈ s, f j) * c) * (f i - (∑ j ∈ s, f j) * c)) * c
      = (∑ i ∈ s, f i * f i) * c - ((∑ j ∈ s, f j) * c) * ((∑ j ∈ s, f j) * c) := by
  set S : ℝ := ∑ j ∈ s, f j with hS
  have hexp : ∀ i, (f i - S * c) * (f i - S * c) = f i * f i - (2 * (S * c)) * f i + (S * c) * (S * c) := by
    intro i; ring
  simp only [hexp]
  rw [Finset.sum_add_distrib, Finset.sum_sub_distrib, ← Finset.mul_sum, Finset.sum_const, nsmul_eq_mul, ← hS]
  have h2 : (s.card : ℝ) * (S * c * (S * c)) * c = (S * c) * (S * c) * ((s.card : ℝ) * c) := by ring
  calc (∑ i ∈ s, f i * f i - 2 * (S * c) * S + (s.card : ℝ) * (S * c * (S * c))) * c
      = (∑ i ∈ s, f i * f i) * c - 2 * (S * c) * (S * c) + (s.card : ℝ) * (S * c * (S * c)) * c := by ring
    _ = (∑ i ∈ s, f i * f i) * c - 2 * (S * c) * (S * c) + (S * c) * (S * c) * 1 := by rw [h2, hc]
    _ = (∑ i ∈ s, f i * f i) * c - S * c * (S * c) := by ring

/-- The same identity over a 256 × 256 plane, written with the two nested sums. -/
theorem real_var_plane (f : Fin 256 → Fin 256 → ℝ) :
    (∑ h, ∑ w, (f h w - (∑ h', ∑ w', f h' w') * (1 / 65536)) * (f h w - (∑ h', ∑ w', f h' w') * (1 / 65536)))
        * (1 / 65536)
      = (∑ h, ∑ w, f h w * f h w) * (1 / 65536)
        - ((∑ h', ∑ w', f h' w') * (1 / 65536)) * ((∑ h', ∑ w', f h' w') * (1 / 65536)) := by
  have hc : ((Finset.univ : Finset (Fin 256 × Fin 256)).card : ℝ) * (1 / 65536) = 1 := by
    rw [Finset.card_univ, Fintype.card_prod, Fintype.card_fin]; norm_num
  have key := real_var Finset.univ (fun p : Fin 256 × Fin 256 => f p.1 p.2) (1 / 65536) hc
  simp only [Fintype.sum_prod_type] at key
  exact key

/-- The two variances agree on a tensor of reals. -/
theorem varK_eq_varR (x : SX.Idx → EReal) (hx : ∀ i, ∃ r : ℝ, x i = (r : EReal)) (b : Fin 8) (ch : Fin 256) :
    varK x b ch = varR x b ch := by
  choose xr hxr using hx
  have hm : meanR x b ch
      = (((∑ h : Fin 256, ∑ w : Fin 256, xr (ix4 b ch h w)) * (1 / 65536) : ℝ) : EReal) := by
    rw [← meanK_eq_meanR]
    unfold meanK sum1
    rw [invN_eq]
    simp only [hxr]
    simp only [← coe_sum, ← EReal.coe_mul]
  unfold varK varR
  rw [div_bigN, meanK_eq_meanR, hm]
  unfold sum2
  rw [invN_eq]
  simp only [hxr]
  simp only [← EReal.coe_sub, ← EReal.coe_mul, ← coe_sum]
  congr 1
  exact (real_var_plane (fun h w => xr (ix4 b ch h w))).symm

/-- On a tensor of reals the two arrangements give the same value at every position: the means and the variances
    agree, and the two outputs bracket the same triple product differently. -/
theorem outKAt_eq_outRAt (x : SX.Idx → EReal) (sw : SW.Idx → EReal) (gam bet : ST.Idx → EReal)
    (hx : ∀ i, ∃ r : ℝ, x i = (r : EReal)) (b : Fin 8) (ch : Fin 256) (h w : Fin 256) :
    outKAt x sw gam bet b ch h w = outRAt x sw gam bet b ch h w := by
  unfold outKAt outRAt
  rw [meanK_eq_meanR, varK_eq_varR x hx, mul_assoc]

/-- On a tensor of reals the one-pass and the two-pass arrangement give the same output. -/
theorem outK_eq_outR (x : SX.Idx → EReal) (sw : SW.Idx → EReal) (gam bet : ST.Idx → EReal)
    (hx : ∀ i, ∃ r : ℝ, x i = (r : EReal)) : outK x sw gam bet = outR x sw gam bet := by
  funext i
  exact outKAt_eq_outRAt x sw gam bet hx (i 0) (i 1) (i 2) (i 3)

end Cert.Spec

end
-- ==== Proof.Finite.lean ====
/-
  From the certificate's precondition to "every entry of the activation tensor is a real".
  The precondition is the conjunction of four tests "every entry of |a| is below +∞", one per argument array; its
  first conjunct speaks of the activation tensor. Over the extended reals |x| is max x (−x), the pattern
  0x7F800000 denotes +∞, and max x (−x) < +∞ excludes both infinities: what is left is a real.
-/
import proofs.«145157_j33019708572224_1_alg».proof.Defs
import proofs.«145157_j33019708572224_1_alg».proof.Proof.Gen.Pre_finite_inputs
import Idealize.ShloMosaic.Lib.ReduceAll
import Idealize.ShloMosaic.Lib.ValueIdx
import Mathlib.Data.EReal.Basic
import Mathlib.Data.EReal.Operations

noncomputable section

namespace Cert.Finite

open Idealize.ShloMosaic Idealize.SL.Sem

/-- The rank-0 shape has one index. -/
instance : Subsingleton Cert.Pre_finite_inputs.S_.Idx := ⟨fun _ _ => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (−x) compares below +∞ is a real. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The first conjunct of the printed precondition, read at one index of the activation tensor. -/
theorem arg0_real [Cert.Pre_finite_inputs.Facts]
    (a0 : FVec Ideal Cert.Pre_finite_inputs.S8x256x256x256 .f32) (a1 : FVec Ideal Cert.Pre_finite_inputs.S8x16 .f32)
    (a2 a3 : FVec Ideal Cert.Pre_finite_inputs.S16x256 .f32)
    (h : Cert.Pre_finite_inputs.fn (F := Ideal) a0 a1 a2 a3 = fun _ => 1#1)
    (i : Cert.Pre_finite_inputs.S8x256x256x256.Idx) : ∃ r : ℝ, a0 i = (r : EReal) := by
  have h0 := congrFun h ValueIdx.ix0
  dsimp only [Cert.Pre_finite_inputs.fn, Cert.Pre_finite_inputs.fn_part1, andi] at h0
  obtain ⟨h13, -⟩ := IntOp.andi_eq_one.1 h0
  obtain ⟨h8, -⟩ := IntOp.andi_eq_one.1 h13
  obtain ⟨h3, -⟩ := IntOp.andi_eq_one.1 h8
  have hi := Host.reduce_andi_all _ _ _ _ _ h3 i
  exact real_of_abs_lt (a0 i) hi

/-- Under the precondition every entry of the activation tensor, on every device, is a real. -/
theorem x_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x256x256x256.Idx) :
    ∃ r : ℝ, m ((c.tc : Thread Cert.KernelIdeal.nD Cert.KernelIdeal.τ).loc Cert.KernelIdeal.main_arg0) i = (r : EReal) :=
  arg0_real _ _ _ _ (h c) i

end Cert.Finite

end
-- ==== Proof.lean ====
/-
  The certificate's claim, assembled. Both programs compute, for an activation tensor x[b, ch, h, w] and
  per-(b, ch) coefficients γ, β mixed from two style tables, the instance normalisation
  γ · (x − mean) · rsqrt(variance + ε) + β over each (b, ch) plane of 256 × 256 positions.
  * The kernel program is a host stretch (the two mixtures, transposed) and two pipelined kernel regions: a
    statistics pass that accumulates each plane's sum and sum of squares over 32 row blocks in scratch and writes
    mean = S1 · 2⁻¹⁶ and variance = S2 · 2⁻¹⁶ − mean² at the last, and a normalising pass that is pointwise in the
    activation block and the four coefficient blocks. Its run (both value instances) names the result array as what
    the second region's write-backs leave, and that array is the one-pass form of the mathematics.
  * The reference computes the mean and the variance in two passes (the second over the centred tensor); its run
    ends at the two-pass form.
  * The two forms agree on tensors of reals (Σ (x − μ)² / N = Σ x² / N − μ², and a re-bracketed product), and the
    precondition says the activation tensor's entries are reals.
  The frames are the runs with the result dropped; no operation was rewritten by the ideal pass.
-/
import proofs.«145157_j33019708572224_1_alg».proof.Defs
import proofs.«145157_j33019708572224_1_alg».proof.Proof.Gen.Kernel
import proofs.«145157_j33019708572224_1_alg».proof.Proof.Gen.KernelIdeal
import proofs.«145157_j33019708572224_1_alg».proof.Proof.Gen.ReferenceIdeal
import proofs.«145157_j33019708572224_1_alg».proof.Proof.Gen.Pre_finite_inputs
import proofs.«145157_j33019708572224_1_alg».proof.Proof.Kernel.Run
import proofs.«145157_j33019708572224_1_alg».proof.Proof.Kernel.R0Body
import proofs.«145157_j33019708572224_1_alg».proof.Proof.KernelIdeal.Run
import proofs.«145157_j33019708572224_1_alg».proof.Proof.KernelIdeal.R0Body
import proofs.«145157_j33019708572224_1_alg».proof.Proof.KernelIdeal.Value
import proofs.«145157_j33019708572224_1_alg».proof.Proof.KernelIdeal.Stats
import proofs.«145157_j33019708572224_1_alg».proof.Proof.RefRun
import proofs.«145157_j33019708572224_1_alg».proof.Proof.RefValue
import proofs.«145157_j33019708572224_1_alg».proof.Proof.Algebra
import proofs.«145157_j33019708572224_1_alg».proof.Proof.Finite

noncomputable section

namespace Cert.Proof

open Idealize.ShloMosaic Idealize.SL.Sem

/-- The word-level kernel program runs and keeps its arguments: its run with the result dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2)
    (Cert.Kernel.Hand.run_main (F := Bits) m ρ (Cert.Kernel.Hand.body_obligation0 _) (Cert.Kernel.Hand.hin0 _) (Cert.Kernel.Hand.hout0 _))

/-- The idealized kernel program likewise. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2)
    (Cert.KernelIdeal.Hand.run_main (F := Ideal) m ρ (Cert.KernelIdeal.Hand.body_obligation0 _) (Cert.KernelIdeal.Hand.hin0 _) (Cert.KernelIdeal.Hand.hout0 _))

/-- The reference runs and keeps its arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Over the extended reals the kernel program ends at the one-pass form and the reference at the two-pass form of
    the same arguments; on the reals the precondition admits the two forms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m c (Cert.KernelIdeal.Hand.meanT_at m c) (Cert.KernelIdeal.Hand.varT_at m c)), (h c).2⟩)
      (Cert.KernelIdeal.Hand.run_main (F := Ideal) m ρ (Cert.KernelIdeal.Hand.body_obligation0 _) (Cert.KernelIdeal.Hand.hin0 _) (Cert.KernelIdeal.Hand.hout0 _))
  · refine (θ_run Cert.ReferenceIdeal.defs _ _).mono (fun _ h c => ⟨(h c).1.trans ?_, (h c).2⟩)
      (Cert.ReferenceIdeal.RefRun.run (F := Ideal) m' ρ')
    rw [Cert.ReferenceIdeal.RefValue.result_eq, (hagree c).1, (hagree c).2.1, (hagree c).2.2.1, (hagree c).2.2.2]
    exact (Cert.Spec.outK_eq_outR _ _ _ _ (Cert.Finite.x_real m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
